-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v7_2)) (v2 : (c : Dev Cert.KernelIdeal.nD) → Buf (Elt Ideal) ((c.tc : Thread Cert.KernelIdeal.nD Cert.KernelIdeal.τ).loc Cert.KernelIdeal.main_v8_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v7_2) = v1 c
          ∧ r.2.mem ((c.tc : Thread Cert.KernelIdeal.nD Cert.KernelIdeal.τ).loc Cert.KernelIdeal.main_v8_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x256 : Shape := ⟨4, ![8, 64, 64, 256]⟩
abbrev S256x256 : Shape := ⟨2, ![256, 256]⟩
abbrev S256 : Shape := ⟨1, ![256]⟩
abbrev S_ : Shape := ⟨0, ![]⟩
abbrev S1x1x1x256 : Shape := ⟨4, ![1, 1, 1, 256]⟩
abbrev S8x4096x256 : Shape := ⟨3, ![8, 4096, 256]⟩
abbrev S8x4096 : Shape := ⟨2, ![8, 4096]⟩

class Facts : Prop where
  bcast_S_S8x64x64x256 : S_.BroadcastsInDim S8x64x64x256 (![] : Fin 0 → Fin S8x64x64x256.rank)
  reducesTo_S8x64x64x256_S_d0_1_2_3 : S8x64x64x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S256_S1x1x1x256_3 : S256.BroadcastsInDim S1x1x1x256 (![3] : Fin 1 → Fin S1x1x1x256.rank)
  bcast_S1x1x1x256_S8x64x64x256_0_1_2_3 : S1x1x1x256.BroadcastsInDim S8x64x64x256 (![0, 1, 2, 3] : Fin 4 → Fin S8x64x64x256.rank)
  shapeCasts_S8x64x64x256_S8x4096x256 : S8x64x64x256.ShapeCasts S8x4096x256
  reducesTo_S8x4096x256_S8x4096_d2 : S8x4096x256.ReducesTo [2] S8x4096
  bcast_S_S8x4096 : S_.BroadcastsInDim S8x4096 (![] : Fin 0 → Fin S8x4096.rank)
  reducesTo_S8x4096_S_d0_1 : S8x4096.ReducesTo [0, 1] S_
  dot_S8x64x64x256_S256x256_S8x64x64x256_3_1_012_0_n_n_wf : DotDims.WF S8x64x64x256 S256x256 S8x64x64x256 [3] [1] [0, 1, 2] [0] [] []

variable [Facts]

def dot_S8x64x64x256_S256x256_S8x64x64x256_3_1_012_0_n_n : DotDims S8x64x64x256 S256x256 S8x64x64x256 where
  lhsContracting := [3]
  rhsContracting := [1]
  lhsNonContracting := [0, 1, 2]
  rhsNonContracting := [0]
  lhsBatch := []
  rhsBatch := []
  wf := dot_S8x64x64x256_S256x256_S8x64x64x256_3_1_012_0_n_n_wf
def fn_part4 {F : FTy → Type} [FloatOps F] (main_v64 : IVec S_ 1) (main_v70 : FVec F S8x4096x256 .f32) : IVec S_ 1 :=
  let main_cst_23 : FVec F S_ .f32 := constant S_ .f32 0x00000000#32
  let main_v71 : FVec F S8x4096 .f32 := (fun x v => Host.reduceAdd x v reducesTo_S8x4096x256_S8x4096_d2 h_S_) main_v70 main_cst_23
  let main_cst_24 : FVec F S_ .f32 := constant S_ .f32 0x00000000#32
  let main_v72 : FVec F S8x4096 .f32 := broadcastInDim S8x4096 ![] bcast_S_S8x4096 main_cst_24
  let main_v73 : IVec S8x4096 1 := cmpf .ogt main_v71 main_v72
  let main_c_25 : IVec S_ 1 := constantI S_ 1 1#1
  let main_v74 : IVec S_ 1 := (fun x v => Host.reduce IntOp.andi x v reducesTo_S8x4096_S_d0_1 h_S_) main_v73 main_c_25
  let main_v75 : IVec S_ 1 := andi main_v64 main_v74
  main_v75

def fn_part3 {F : FTy → Type} [FloatOps F] (main_arg0 : FVec F S8x64x64x256 .f32) (main_arg1 : FVec F S8x64x64x256 .f32) (main_arg3 : FVec F S256x256 .f32) (main_arg4 : FVec F S256 .f32) (main_arg5 : FVec F S256x256 .f32) (main_arg6 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S8x64x64x256 .f32 := (fun l r => Host.dotGeneral dot_S8x64x64x256_S256x256_S8x64x64x256_3_1_012_0_n_n none l r) main_arg0 main_arg3
  let main_v55 : FVec F S1x1x1x256 .f32 := broadcastInDim S1x1x1x256 ![3] bcast_S256_S1x1x1x256_3 main_arg4
  let main_v56 : FVec F S8x64x64x256 .f32 := broadcastInDim S8x64x64x256 ![0, 1, 2, 3] bcast_S1x1x1x256_S8x64x64x256_0_1_2_3 main_v55
  let main_v57 : FVec F S8x64x64x256 .f32 := addf main_v54 main_v56
  let main_v58 : FVec F S8x4096x256 .f32 := shapeCast S8x4096x256 main_v57 shapeCasts_S8x64x64x256_S8x4096x256
  let main_v59 : FVec F S8x4096x256 .f32 := mulf main_v58 main_v58
  let main_cst_20 : FVec F S_ .f32 := constant S_ .f32 0x00000000#32
  let main_v60 : FVec F S8x4096 .f32 := (fun x v => Host.reduceAdd x v reducesTo_S8x4096x256_S8x4096_d2 h_S_) main_v59 main_cst_20
  let main_cst_21 : FVec F S_ .f32 := constant S_ .f32 0x00000000#32
  let main_v61 : FVec F S8x4096 .f32 := broadcastInDim S8x4096 ![] bcast_S_S8x4096 main_cst_21
  let main_v62 : IVec S8x4096 1 := cmpf .ogt main_v60 main_v61
  let main_c_22 : IVec S_ 1 := constantI S_ 1 1#1
  let main_v63 : IVec S_ 1 := (fun x v => Host.reduce IntOp.andi x v reducesTo_S8x4096_S_d0_1 h_S_) main_v62 main_c_22
  let main_v64 : IVec S_ 1 := andi main_v53 main_v63
  let main_v65 : FVec F S8x64x64x256 .f32 := (fun l r => Host.dotGeneral dot_S8x64x64x256_S256x256_S8x64x64x256_3_1_012_0_n_n none l r) main_arg1 main_arg5
  let main_v66 : FVec F S1x1x1x256 .f32 := broadcastInDim S1x1x1x256 ![3] bcast_S256_S1x1x1x256_3 main_arg6
  let main_v67 : FVec F S8x64x64x256 .f32 := broadcastInDim S8x64x64x256 ![0, 1, 2, 3] bcast_S1x1x1x256_S8x64x64x256_0_1_2_3 main_v66
  let main_v68 : FVec F S8x64x64x256 .f32 := addf main_v65 main_v67
  let main_v69 : FVec F S8x4096x256 .f32 := shapeCast S8x4096x256 main_v68 shapeCasts_S8x64x64x256_S8x4096x256
  let main_v70 : FVec F S8x4096x256 .f32 := mulf main_v69 main_v69
  fn_part4 (F := F) main_v64 main_v70

def fn_part2 {F : FTy → Type} [FloatOps F] (main_arg0 : FVec F S8x64x64x256 .f32) (main_arg1 : FVec F S8x64x64x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg0 main_arg1 main_arg3 main_arg4 main_arg5 main_arg6 main_v48 main_v49 main_v50

def fn_part1 {F : FTy → Type} [FloatOps F] (main_arg0 : FVec F S8x64x64x256 .f32) (main_arg1 : FVec F S8x64x64x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg0 main_arg1 main_arg3 main_arg4 main_arg5 main_arg6 main_arg7 main_arg8 main_arg9 main_arg10 main_v33

def fn {F : FTy → Type} [FloatOps F] (main_arg0 : FVec F S8x64x64x256 .f32) (main_arg1 : FVec F S8x64x64x256 .f32) (main_arg2 : FVec F S8x64x64x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) : IVec S_ 1 :=
  let main_v0 : FVec F S8x64x64x256 .f32 := Host.absf main_arg0
  let main_cst : FVec F S_ .f32 := constant S_ .f32 0x7F800000#32
  let main_v1 : FVec F S8x64x64x256 .f32 := broadcastInDim S8x64x64x256 ![] bcast_S_S8x64x64x256 main_cst
  let main_v2 : IVec S8x64x64x256 1 := cmpf .olt main_v0 main_v1
  let main_c : IVec S_ 1 := constantI S_ 1 1#1
  let main_v3 : IVec S_ 1 := (fun x v => Host.reduce IntOp.andi x v reducesTo_S8x64x64x256_S_d0_1_2_3 h_S_) main_v2 main_c
  let main_v4 : FVec F S8x64x64x256 .f32 := Host.absf main_arg1
  let main_cst_0 : FVec F S_ .f32 := constant S_ .f32 0x7F800000#32
  let main_v5 : FVec F S8x64x64x256 .f32 := broadcastInDim S8x64x64x256 ![] bcast_S_S8x64x64x256 main_cst_0
  let main_v6 : IVec S8x64x64x256 1 := cmpf .olt main_v4 main_v5
  let main_c_1 : IVec S_ 1 := constantI S_ 1 1#1
  let main_v7 : IVec S_ 1 := (fun x v => Host.reduce IntOp.andi x v reducesTo_S8x64x64x256_S_d0_1_2_3 h_S_) main_v6 main_c_1
  let main_v8 : IVec S_ 1 := andi main_v3 main_v7
  let main_v9 : FVec F S8x64x64x256 .f32 := Host.absf main_arg2
  let main_cst_2 : FVec F S_ .f32 := constant S_ .f32 0x7F800000#32
  let main_v10 : FVec F S8x64x64x256 .f32 := broadcastInDim S8x64x64x256 ![] bcast_S_S8x64x64x256 main_cst_2
  let main_v11 : IVec S8x64x64x256 1 := cmpf .olt main_v9 main_v10
  let main_c_3 : IVec S_ 1 := constantI S_ 1 1#1
  let main_v12 : IVec S_ 1 := (fun x v => Host.reduce IntOp.andi x v reducesTo_S8x64x64x256_S_d0_1_2_3 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg0 main_arg1 main_arg3 main_arg4 main_arg5 main_arg6 main_arg7 main_arg8 main_arg9 main_arg10 main_v13 main_v16
-- ==== Kernel.lean ====
abbrev S8x64x64x256 : Shape := ⟨4, ![8, 64, 64, 256]⟩
abbrev S256x256 : Shape := ⟨2, ![256, 256]⟩
abbrev S256 : Shape := ⟨1, ![256]⟩
abbrev S8x4096x256 : Shape := ⟨3, ![8, 4096, 256]⟩
abbrev S1x256 : Shape := ⟨2, ![1, 256]⟩
abbrev S1x1024x256 : Shape := ⟨3, ![1, 1024, 256]⟩
abbrev S1024x256 : Shape := ⟨2, ![1024, 256]⟩
abbrev S1024 : Shape := ⟨1, ![1024]⟩
abbrev S1024x1 : Shape := ⟨2, ![1024, 1]⟩
abbrev S8x4096x4096 : Shape := ⟨3, ![8, 4096, 4096]⟩
abbrev S1x256x256 : Shape := ⟨3, ![1, 256, 256]⟩
abbrev S1x4096x256 : Shape := ⟨3, ![1, 4096, 256]⟩
abbrev S1x256x4096 : Shape := ⟨3, ![1, 256, 4096]⟩
abbrev S4096x256 : Shape := ⟨2, ![4096, 256]⟩
abbrev S256x4096 : Shape := ⟨2, ![256, 4096]⟩
abbrev S256x1 : Shape := ⟨2, ![256, 1]⟩

abbrev nBuf : Space → Nat
  | .hbm => 25
  | .vmem => 34
  | .smem => 0
  | _ => 0

abbrev bufTy : (tb : Table) → Fin (tcTables nBuf tb) → BufTy
  | .hbm, ⟨0, _⟩ => ⟨S8x64x64x256, .f32⟩
  | .hbm, ⟨1, _⟩ => ⟨S8x64x64x256, .f32⟩
  | .hbm, ⟨2, _⟩ => ⟨S8x64x64x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S8x4096x256, .f32⟩
  | .hbm, ⟨12, _⟩ => ⟨S8x4096x256, .f32⟩
  | .hbm, ⟨13, _⟩ => ⟨S8x4096x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S8x4096x256, .bf16⟩
  | .hbm, ⟨19, _⟩ => ⟨S8x4096x256, .bf16⟩
  | .hbm, ⟨20, _⟩ => ⟨S8x4096x256, .f32⟩
  | .hbm, ⟨21, _⟩ => ⟨S8x4096x256, .bf16⟩
  | .hbm, ⟨22, _⟩ => ⟨S8x4096x4096, .f32⟩
  | .hbm, ⟨23, _⟩ => ⟨S8x4096x256, .f32⟩
  | .hbm, ⟨24, _⟩ => ⟨S8x64x64x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x256, .f32⟩
  | .local _ .vmem, ⟨17, _⟩ => ⟨S1x1024x256, .f32⟩
  | .local _ .vmem, ⟨18, _⟩ => ⟨S1x1024x256, .bf16⟩
  | .local _ .vmem, ⟨19, _⟩ => ⟨S1x1024x256, .bf16⟩
  | .local _ .vmem, ⟨20, _⟩ => ⟨S1x256x256, .bf16⟩
  | .local _ .vmem, ⟨21, _⟩ => ⟨S1x256x256, .bf16⟩
  | .local _ .vmem, ⟨22, _⟩ => ⟨S1x4096x256, .bf16⟩
  | .local _ .vmem, ⟨23, _⟩ => ⟨S1x4096x256, .bf16⟩
  | .local _ .vmem, ⟨24, _⟩ => ⟨S1x4096x256, .bf16⟩
  | .local _ .vmem, ⟨25, _⟩ => ⟨S1x4096x256, .bf16⟩
  | .local _ .vmem, ⟨26, _⟩ => ⟨S1x256x256, .f32⟩
  | .local _ .vmem, ⟨27, _⟩ => ⟨S1x256x256, .f32⟩
  | .local _ .vmem, ⟨28, _⟩ => ⟨S256x256, .f32⟩
  | .local _ .vmem, ⟨29, _⟩ => ⟨S1x256, .f32⟩
  | .local _ .vmem, ⟨30, _⟩ => ⟨S1x256x4096, .f32⟩
  | .local _ .vmem, ⟨31, _⟩ => ⟨S1x256x4096, .f32⟩
  | .local _ .vmem, ⟨32, _⟩ => ⟨S1x256x256, .f32⟩
  | .local _ .vmem, ⟨33, _⟩ => ⟨S1x256x256, .f32⟩
  | _, _ => ⟨S8x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v8_0 : Ref sig .tc := ⟨.hbm, 22, rfl⟩
abbrev main_v8_1 : Ref sig .tc := ⟨.hbm, 23, rfl⟩
abbrev main_v9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem5_0 : DmaSem sig := 29
abbrev cc1_sem6_0 : DmaSem sig := 30
abbrev cc1_sem6_1 : DmaSem sig := 31
abbrev cc1_sem7_0 : DmaSem sig := 32
abbrev cc1_sem7_1 : DmaSem sig := 33

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev grid1 : Pipeline.Grid := ⟨2, ![8, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x256x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  shapeCasts_S8x64x64x256_S8x4096x256 : S8x64x64x256.ShapeCasts S8x4096x256
  shapeCasts_S256_S1x256 : S256.ShapeCasts S1x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  shapeCasts_S1024x256_S1x1024x256 : S1024x256.ShapeCasts S1x1024x256
  packedbf16_S1x1024x256_S1x1024x256_0_0_0 : (Rect.unit (s := S1x1024x256) ![0, 0, 0] S1x1024x256.size inb_S1x1024x256_S1x1024x256_0_0_0).PackedRows (EltTy.packing .bf16)
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  transposes_S4096x256_p1_0_S256x4096 : S4096x256.Transposes [1, 0] S256x4096
  reduces_S256x4096_S256 : S256x4096.Reduces [1] S256
  shapeCasts_S256_S256x1 : S256.ShapeCasts S256x1
  broadcasts_S256x1_S256x4096 : S256x1.Broadcasts S256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  broadcasts_S1x256_S256x256 : S1x256.Broadcasts S256x256
  shapeCasts_S256x256_S1x256x256 : S256x256.ShapeCasts S1x256x256
  shapeCasts_S8x4096x256_S8x64x64x256 : S8x4096x256.ShapeCasts S8x64x64x256
  dot_S1024x256_S256x256_S1024x256_1_1_0_0_n_n_wf : DotDims.WF S1024x256 S256x256 S1024x256 [1] [1] [0] [0] [] []
  dot_S256x256_S256x4096_S256x4096_1_0_0_1_n_n_wf : DotDims.WF S256x256 S256x4096 S256x4096 [1] [0] [0] [1] [] []
  dot_S256x4096_S4096x256_S256x256_1_0_0_1_n_n_wf : DotDims.WF S256x4096 S4096x256 S256x256 [1] [0] [0] [1] [] []
  dot_S256x256_S256x256_S256x256_1_1_0_0_n_n_wf : DotDims.WF S256x256 S256x256 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S8x4096x256.size a
  hwx0_0 : ∀ i : grid0.Coords, EltTy.bits .f32 = 32 ∨ (Rect.block (s := S8x4096x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S8x4096x256.size a
  hwx0_1 : ∀ i : grid0.Coords, EltTy.bits .f32 = 32 ∨ (Rect.block (s := S8x4096x256) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S8x4096x256.size a
  hwx0_2 : ∀ i : grid0.Coords, EltTy.bits .f32 = 32 ∨ (Rect.block (s := S8x4096x256) S1x1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x256.size a ≤ S8x4096x256.size a
  hwx0_9 : ∀ i : grid0.Coords, EltTy.bits .bf16 = 32 ∨ (Rect.block (s := S8x4096x256) S1x1024x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024x256.size a ≤ S8x4096x256.size a
  hwx0_10 : ∀ i : grid0.Coords, EltTy.bits .bf16 = 32 ∨ (Rect.block (s := S8x4096x256) S1x1024x256.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1024x256.size a ≤ S8x4096x256.size a
  hwx0_11 : ∀ i : grid0.Coords, EltTy.bits .f32 = 32 ∨ (Rect.block (s := S8x4096x256) S1x1024x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1024x256.size a ≤ S8x4096x256.size a
  hwx0_12 : ∀ i : grid0.Coords, EltTy.bits .bf16 = 32 ∨ (Rect.block (s := S8x4096x256) S1x1024x256.size (cc0_transform_12 i) (hinb0_12 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x256.size a ≤ S8x4096x256.size a
  hwx1_0 : ∀ i : grid1.Coords, EltTy.bits .bf16 = 32 ∨ (Rect.block (s := S8x4096x256) S1x256x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x256.size a ≤ S8x4096x256.size a
  hwx1_1 : ∀ i : grid1.Coords, EltTy.bits .bf16 = 32 ∨ (Rect.block (s := S8x4096x256) S1x4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x256.size a ≤ S8x4096x256.size a
  hwx1_2 : ∀ i : grid1.Coords, EltTy.bits .bf16 = 32 ∨ (Rect.block (s := S8x4096x256) S1x4096x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x256.size a ≤ S8x4096x256.size a
  hwx1_3 : ∀ i : grid1.Coords, EltTy.bits .f32 = 32 ∨ (Rect.block (s := S8x4096x256) S1x256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x4096.size a ≤ S8x4096x4096.size a
  hwx1_6 : ∀ i : grid1.Coords, EltTy.bits .f32 = 32 ∨ (Rect.block (s := S8x4096x4096) S1x256x4096.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x256x256.size a ≤ S8x4096x256.size a
  hwx1_7 : ∀ i : grid1.Coords, EltTy.bits .f32 = 32 ∨ (Rect.block (s := S8x4096x256) S1x256x256.size (cc1_transform_7 i) (hinb1_7 i)).WholeWords (EltTy.packing .f32)

variable [Facts₀]

def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x256_S256x256_1_1_0_0_n_n : DotDims S256x256 S256x256 S256x256 where
  lhsContracting := [1]
  rhsContracting := [1]
  lhsNonContracting := [0]
  rhsNonContracting := [0]
  lhsBatch := []
  rhsBatch := []
  wf := dot_S256x256_S256x256_S256x256_1_1_0_0_n_n_wf

abbrev win0_0 : Pipeline.Window sig grid0 :=
  Pipeline.Window.ofSpec (Memref.whole main_v0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7_0) S1x1024x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7_1) S1x1024x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v7_2) S1x1024x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v7_3) S1x1024x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v7_0) S1x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S1x4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_3) S1x4096x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x256x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8_0) S1x256x4096.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v8_1) S1x256x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8x64x64x256 : Shape := ⟨4, ![8, 64, 64, 256]⟩
abbrev S256x256 : Shape := ⟨2, ![256, 256]⟩
abbrev S256 : Shape := ⟨1, ![256]⟩
abbrev S1x1x1x256 : Shape := ⟨4, ![1, 1, 1, 256]⟩
abbrev S8x4096x256 : Shape := ⟨3, ![8, 4096, 256]⟩
abbrev S_ : Shape := ⟨0, ![]⟩
abbrev S8x4096 : Shape := ⟨2, ![8, 4096]⟩
abbrev S8x4096x1 : Shape := ⟨3, ![8, 4096, 1]⟩
abbrev S8x4096x4096 : Shape := ⟨3, ![8, 4096, 4096]⟩

abbrev nBuf : Space → Nat
  | .hbm => 62
  | .vmem => 0
  | .smem => 0
  | _ => 0

abbrev bufTy : (tb : Table) → Fin (tcTables nBuf tb) → BufTy
  | .hbm, ⟨0, _⟩ => ⟨S8x64x64x256, .f32⟩
  | .hbm, ⟨1, _⟩ => ⟨S8x64x64x256, .f32⟩
  | .hbm, ⟨2, _⟩ => ⟨S8x64x64x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S8x64x64x256, .f32⟩
  | .hbm, ⟨12, _⟩ => ⟨S1x1x1x256, .f32⟩
  | .hbm, ⟨13, _⟩ => ⟨S8x64x64x256, .f32⟩
  | .hbm, ⟨14, _⟩ => ⟨S8x64x64x256, .f32⟩
  | .hbm, ⟨15, _⟩ => ⟨S8x4096x256, .f32⟩
  | .hbm, ⟨16, _⟩ => ⟨S8x64x64x256, .f32⟩
  | .hbm, ⟨17, _⟩ => ⟨S1x1x1x256, .f32⟩
  | .hbm, ⟨18, _⟩ => ⟨S8x64x64x256, .f32⟩
  | .hbm, ⟨19, _⟩ => ⟨S8x64x64x256, .f32⟩
  | .hbm, ⟨20, _⟩ => ⟨S8x4096x256, .f32⟩
  | .hbm, ⟨21, _⟩ => ⟨S8x64x64x256, .f32⟩
  | .hbm, ⟨22, _⟩ => ⟨S1x1x1x256, .f32⟩
  | .hbm, ⟨23, _⟩ => ⟨S8x64x64x256, .f32⟩
  | .hbm, ⟨24, _⟩ => ⟨S8x64x64x256, .f32⟩
  | .hbm, ⟨25, _⟩ => ⟨S8x4096x256, .f32⟩
  | .hbm, ⟨26, _⟩ => ⟨S8x4096x256, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S8x4096x1, .f32⟩
  | .hbm, ⟨31, _⟩ => ⟨S8x4096x256, .f32⟩
  | .hbm, ⟨32, _⟩ => ⟨S8x4096x256, .f32⟩
  | .hbm, ⟨33, _⟩ => ⟨S8x4096x256, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S8x4096x1, .f32⟩
  | .hbm, ⟨38, _⟩ => ⟨S8x4096x256, .f32⟩
  | .hbm, ⟨39, _⟩ => ⟨S8x4096x256, .f32⟩
  | .hbm, ⟨40, _⟩ => ⟨S8x4096x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S8x4096x4096, .f32⟩
  | .hbm, ⟨54, _⟩ => ⟨S8x4096x4096, .f32⟩
  | .hbm, ⟨55, _⟩ => ⟨S8x4096x256, .f32⟩
  | .hbm, ⟨56, _⟩ => ⟨S8x64x64x256, .f32⟩
  | .hbm, ⟨57, _⟩ => ⟨S8x64x64x256, .f32⟩
  | .hbm, ⟨58, _⟩ => ⟨S1x1x1x256, .f32⟩
  | .hbm, ⟨59, _⟩ => ⟨S8x64x64x256, .f32⟩
  | .hbm, ⟨60, _⟩ => ⟨S8x64x64x256, .f32⟩
  | .hbm, ⟨61, _⟩ => ⟨S8x64x64x256, .f32⟩
  | _, _ => ⟨S8x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_call0_v2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call1_v0 : Ref sig .tc := ⟨.hbm, 33, rfl⟩
abbrev main_call1_cst : Ref sig .tc := ⟨.hbm, 34, rfl⟩
abbrev main_call1_v1 : Ref sig .tc := ⟨.hbm, 35, rfl⟩
abbrev main_call1_v2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_1 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]

class Facts₀ : Prop where
  bcast_S256_S1x1x1x256_3 : S256.BroadcastsInDim S1x1x1x256 (![3] : Fin 1 → Fin S1x1x1x256.rank)
  bcast_S1x1x1x256_S8x64x64x256_0_1_2_3 : S1x1x1x256.BroadcastsInDim S8x64x64x256 (![0, 1, 2, 3] : Fin 4 → Fin S8x64x64x256.rank)
  shapeCasts_S8x64x64x256_S8x4096x256 : S8x64x64x256.ShapeCasts S8x4096x256
  reducesTo_S8x4096x256_S8x4096_d2 : S8x4096x256.ReducesTo [2] S8x4096
  h_S_ : 0 < S_.numel
  bcast_S8x4096_S8x4096x1_0_1 : S8x4096.BroadcastsInDim S8x4096x1 (![0, 1] : Fin 2 → Fin S8x4096x1.rank)
  bcast_S8x4096x1_S8x4096x256_0_1_2 : S8x4096x1.BroadcastsInDim S8x4096x256 (![0, 1, 2] : Fin 3 → Fin S8x4096x256.rank)
  reducesTo_S8x4096x4096_S8x4096_d2 : S8x4096x4096.ReducesTo [2] S8x4096
  bcast_S_S8x4096 : S_.BroadcastsInDim S8x4096 (![] : Fin 0 → Fin S8x4096.rank)
  bcast_S8x4096x1_S8x4096x4096_0_1_2 : S8x4096x1.BroadcastsInDim S8x4096x4096 (![0, 1, 2] : Fin 3 → Fin S8x4096x4096.rank)
  shapeCasts_S8x4096x256_S8x64x64x256 : S8x4096x256.ShapeCasts S8x64x64x256
  dot_S8x64x64x256_S256x256_S8x64x64x256_3_1_012_0_n_n_wf : DotDims.WF S8x64x64x256 S256x256 S8x64x64x256 [3] [1] [0, 1, 2] [0] [] []
  dot_S8x4096x256_S8x4096x256_S8x4096x4096_2_2_1_1_0_0_wf : DotDims.WF S8x4096x256 S8x4096x256 S8x4096x4096 [2] [2] [1] [1] [0] [0]
  dot_S8x4096x4096_S8x4096x256_S8x4096x256_2_1_1_2_0_0_wf : DotDims.WF S8x4096x4096 S8x4096x256 S8x4096x256 [2] [1] [1] [2] [0] [0]

variable [Facts₀]

def dot_S8x64x64x256_S256x256_S8x64x64x256_3_1_012_0_n_n : DotDims S8x64x64x256 S256x256 S8x64x64x256 where
  lhsContracting := [3]
  rhsContracting := [1]
  lhsNonContracting := [0, 1, 2]
  rhsNonContracting := [0]
  lhsBatch := []
  rhsBatch := []
  wf := dot_S8x64x64x256_S256x256_S8x64x64x256_3_1_012_0_n_n_wf
def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf
def dot_S8x4096x4096_S8x4096x256_S8x4096x256_2_1_1_2_0_0 : DotDims S8x4096x4096 S8x4096x256 S8x4096x256 where
  lhsContracting := [2]
  rhsContracting := [1]
  lhsNonContracting := [1]
  rhsNonContracting := [2]
  lhsBatch := [0]
  rhsBatch := [0]
  wf := dot_S8x4096x4096_S8x4096x256_S8x4096x256_2_1_1_2_0_0_wf

class Facts : Prop extends Facts₀ where

variable [Facts]
-- ==== Proof.Spec.lean ====
/-
  The mathematics of the two programs, over coordinates, on the extended reals.

  A token sequence is a function of (batch, token, channel); a weight matrix of (output channel, input channel); a
  bias of the output channel. `proj` is the per-token affine map (a 1x1 convolution), `sumsq` the squared length of
  a token's channel vector, `normK` / `normR` the two spellings of the unit-length rescaling (product with the
  reciprocal root; quotient by the root), `scores` the cosine-similarity logits, `softK` / `softR` the two spellings
  of the row softmax (product with the reciprocal of the row sum; quotient by the row sum), `attn` the
  attention-weighted sum of values and `outp` the output projection with its residual.
-/
import Idealize.ShloMosaic.PureOps.Ideal
import Idealize.ShloMosaic.Lib.ValueIdx

noncomputable section

namespace Cert.Spec

open Idealize.ShloMosaic Idealize.ShloMosaic.ValueIdx

/-- Sequences [8, 4096, 256], score matrices [8, 4096, 4096], weights [256, 256], biases [256], by coordinates. -/
abbrev Seq := Fin 8 → Fin 4096 → Fin 256 → EReal
abbrev Sco := Fin 8 → Fin 4096 → Fin 4096 → EReal
abbrev Mat := Fin 256 → Fin 256 → EReal
abbrev Bias := Fin 256 → EReal

/-- Pixel (h, w) of a 64 x 64 image is token 64 h + w. -/
def tok (h w : Fin 64) : Fin 4096 := ⟨h.val * 64 + w.val, by have := h.isLt; have := w.isLt; omega⟩

/-- An image batch [8, 64, 64, 256] read as a token sequence: token r is pixel (r / 64, r % 64). -/
def flat (X : (⟨4, ![8, 64, 64, 256]⟩ : Shape).Idx → EReal) : Seq := fun b r i =>
  X (ix4 b ⟨r.val / 64, by have := r.isLt; omega⟩ ⟨r.val % 64, by have := r.isLt; omega⟩ i)

/-- A [256, 256] array by (row, column). -/
def mat (W : (⟨2, ![256, 256]⟩ : Shape).Idx → EReal) : Mat := fun o i => W (ix2 o i)

/-- A [256] array by its one coordinate. -/
def vec (B : (⟨1, ![256]⟩ : Shape).Idx → EReal) : Bias := fun o => B (ix1 o)

theorem flat_tok (X : (⟨4, ![8, 64, 64, 256]⟩ : Shape).Idx → EReal) (b : Fin 8) (h w : Fin 64) (i : Fin 256) :
    flat X b (tok h w) i = X (ix4 b h w i) := by
  have hh := h.isLt
  have hw := w.isLt
  unfold flat tok
  congr 1
  have e1 : (h.val * 64 + w.val) / 64 = h.val := by omega
  have e2 : (h.val * 64 + w.val) % 64 = w.val := by omega
  funext a
  match a with
  | ⟨0, _⟩ => rfl
  | ⟨1, _⟩ => exact Fin.ext e1
  | ⟨2, _⟩ => exact Fin.ext e2
  | ⟨3, _⟩ => rfl

/-- The per-token affine map: output channel o of token r is the sum over input channels of x times w[o, ·], plus β o. -/
def proj (x : Seq) (w : Mat) (β : Bias) : Seq := fun b r o => (∑ i : Fin 256, x b r i * w o i) + β o

/-- The squared length of a token's channel vector. -/
def sumsq (y : Seq) : Fin 8 → Fin 4096 → EReal := fun b r => ∑ o : Fin 256, y b r o * y b r o

/-- Rescaling to unit length as a product with the reciprocal root. -/
def normK (y : Seq) : Seq := fun b r o => y b r o * Ideal.rsqrt (sumsq y b r)

/-- Rescaling to unit length as a quotient by the root. -/
def normR (y : Seq) : Seq := fun b r o => Ideal.div (y b r o) (Ideal.sqrt (sumsq y b r))

/-- The logits: query token q against key token k, summed over channels. -/
def scores (qn kn : Seq) : Sco := fun b q k => ∑ c : Fin 256, qn b q c * kn b k c

/-- A row's maximum, from the bottom element. -/
def rowmax (s : Sco) : Fin 8 → Fin 4096 → EReal := fun b q => (Finset.univ : Finset (Fin 4096)).fold max ⊥ (fun k => s b q k)

/-- The shifted exponentials. -/
def expd (s : Sco) : Sco := fun b q k => Ideal.exp (s b q k - rowmax s b q)

/-- A row's sum. -/
def rowsum (p : Sco) : Fin 8 → Fin 4096 → EReal := fun b q => ∑ k : Fin 4096, p b q k

/-- The row softmax as a product with the reciprocal of the row sum. -/
def softK (s : Sco) : Sco := fun b q k => expd s b q k * Ideal.div 1 (rowsum (expd s) b q)

/-- The row softmax as a quotient by the row sum. -/
def softR (s : Sco) : Sco := fun b q k => Ideal.div (expd s b q k) (rowsum (expd s) b q)

/-- The attention-weighted sum of the value tokens. -/
def attn (cor : Sco) (vp : Seq) : Seq := fun b q c => ∑ k : Fin 4096, cor b q k * vp b k c

/-- The output projection of the attended values, added to the residual x. -/
def outp (x a : Seq) (wo : Mat) (βo : Bias) : Seq := fun b r o => x b r o + ((∑ i : Fin 256, a b r i * wo o i) + βo o)

/-- The attention map as the kernel spells it. -/
def corK (q e : Seq) (wg : Mat) (βg : Bias) (wt : Mat) (βt : Bias) : Sco :=
  softK (scores (normK (proj q wg βg)) (normK (proj e wt βt)))

/-- The attention map as the reference spells it. -/
def corR (q e : Seq) (wg : Mat) (βg : Bias) (wt : Mat) (βt : Bias) : Sco :=
  softR (scores (normR (proj q wg βg)) (normR (proj e wt βt)))

/-- The image output (as a token sequence) as the kernel spells it. -/
def outK (q e v : Seq) (wg : Mat) (βg : Bias) (wt : Mat) (βt : Bias) (wa : Mat) (βa : Bias) (wo : Mat) (βo : Bias) : Seq :=
  outp q (attn (corK q e wg βg wt βt) (proj v wa βa)) wo βo

/-- The image output as the reference spells it. -/
def outR (q e v : Seq) (wg : Mat) (βg : Bias) (wt : Mat) (βt : Bias) (wa : Mat) (βa : Bias) (wo : Mat) (βo : Bias) : Seq :=
  outp q (attn (corR q e wg βg wt βt) (proj v wa βa)) wo βo

/-- An extended real that is a real number. -/
def IsR (x : EReal) : Prop := ∃ r : ℝ, x = (r : EReal)

/-- The domain on which the two spellings agree: the query and key sequences, their weights and their biases hold real
    numbers, and no projected query or key token is the zero vector (where the reference divides zero by zero). -/
structure Good (q e : Seq) (wg : Mat) (βg : Bias) (wt : Mat) (βt : Bias) : Prop where
  q_real : ∀ b r i, IsR (q b r i)
  e_real : ∀ b r i, IsR (e b r i)
  wg_real : ∀ o i, IsR (wg o i)
  βg_real : ∀ o, IsR (βg o)
  wt_real : ∀ o i, IsR (wt o i)
  βt_real : ∀ o, IsR (βt o)
  q_nonzero : ∀ b r, sumsq (proj q wg βg) b r ≠ 0
  e_nonzero : ∀ b r, sumsq (proj e wt βt) b r ≠ 0

end Cert.Spec

end
-- ==== Proof.LibRowOps.lean ====
/-
  Row-wise operations of an [n, m] array read at an index, over the extended reals.

  A kernel that reduces each row of a block with keepdims, and the host that reduces each row of the whole array,
  meet the same handful of operations: a sum or a maximum along axis 1 read at row r; a vector [n] recast as a
  column [n, 1]; a column [n, 1] broadcast along the rows of [n, m]; two columns laid side by side as [n, 2]; and,
  on the host, a column of [n, 2] cut out and recast as a vector [n]. Each is stated here once, at any extents, with
  indices written by their coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowOps

open Idealize.ShloMosaic Idealize.ShloMosaic.ValueIdx

variable {α : Type}

/-! ## The index of row r with column k put back -/

/-- Over row index r, the source index whose coordinate on the dropped axis 1 is k is (r, k). -/
theorem lift_row {n m : ℕ} (h : (⟨2, ![n, m]⟩ : Shape).Reduces [1] ⟨1, ![n]⟩) (r : Fin n)
    (k : Fin ((⟨2, ![n, m]⟩ : Shape).size 1)) : h.lift (ix1 r) k = ix2 r (⟨k.val, k.isLt⟩ : Fin m) := by
  funext c; apply Fin.ext
  fin_cases c <;> rfl

/-! ## A kernel's lane reductions along axis 1 -/

/-- A float sum along axis 1, at row r, is the sum of the row's entries. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ) (r : Fin n) :
    multiReduction .add [1] ⟨1, ![n]⟩ src acc h hφ hacc (ix1 r) = ∑ k : Fin m, src (ix2 r k) := by
  refine (Ideal.multiReduction_add_single src acc h hφ hacc (ix1 r)).trans ?_
  exact Finset.sum_congr rfl fun k _ => congrArg src (lift_row h r k)

/-- A float maximum along axis 1, at row r, is the fold of max over the row's entries from the accumulator's value. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ) (r : Fin n) :
    multiReduction .maximumf [1] ⟨1, ![n]⟩ src acc h hφ hacc (ix1 r)
      = (Finset.univ : Finset (Fin m)).fold max (Ideal.ofBits φ acc) (fun k => src (ix2 r k)) := by
  refine (Ideal.multiReduction_maximumf_single src acc h hφ hacc (ix1 r)).trans ?_
  have hf : (src ∘ h.lift (ix1 r)) = fun k : Fin m => src (ix2 r k) := funext fun k => congrArg src (lift_row h r k)
  exact congrArg (fun f => Finset.fold max (Ideal.ofBits φ acc) f (Finset.univ : Finset (Fin m))) hf

/-! ## The host's reductions along axis 1 -/

/-- The host's maximum along axis 1, at row r, is the fold of max over the row's entries from the initial value. -/
theorem hostRowMax_apply {n m : ℕ} {φ : FTy} {u : Shape} (x : FVec Ideal ⟨2, ![n, m]⟩ φ) (init : u.Idx → Ideal φ)
    (h' : (⟨2, ![n, m]⟩ : Shape).ReducesTo [1] ⟨1, ![n]⟩) (h : (⟨2, ![n, m]⟩ : Shape).Reduces [1] ⟨1, ![n]⟩) (hu : 0 < u.numel) (r : Fin n) :
    Host.reduce FloatOps.maximumf x init h' hu (ix1 r)
      = (Finset.univ : Finset (Fin m)).fold max (init (Shape.Idx.first hu)) (fun k => x (ix2 r k)) := by
  refine (Host.reduce_eq_fold_single FloatOps.maximumf x init h' h hu (ix1 r)).trans ?_
  have hf : (x ∘ h.lift (ix1 r)) = fun k : Fin m => x (ix2 r k) := funext fun k => congrArg x (lift_row h r k)
  exact congrArg (fun f => Finset.fold max (init (Shape.Idx.first hu)) f (Finset.univ : Finset (Fin m))) hf

/-! ## Columns -/

/-- A vector [n] recast as a column [n, 1] reads, at (r, u), entry r. -/
theorem shapeCast_a_a1_apply {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column [n, 1] recast as a vector [n] reads, at r, the column at (r, 0). -/
theorem shapeCast_a1_a_apply {n : ℕ} (x : (⟨2, ![n, 1]⟩ : Shape).Idx → α) (h : (⟨2, ![n, 1]⟩ : Shape).ShapeCasts ⟨1, ![n]⟩)
    (r : Fin n) : shapeCast ⟨1, ![n]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- A column [n, 1] broadcast along the rows of [n, m] (m at least 2, n at least 2) reads, at (r, k), the column at (r, 0). -/
theorem broadcastTo_a1_ab_apply {n m : ℕ} (hn : n ≠ 1) (v : (⟨2, ![n, 1]⟩ : Shape).Idx → α)
    (h : (⟨2, ![n, 1]⟩ : Shape).Broadcasts ⟨2, ![n, m]⟩) (r : Fin n) (k : Fin m) :
    broadcastTo ⟨2, ![n, m]⟩ v h (ix2 r k) = v (ix2 r (0 : Fin 1)) := by
  refine broadcastTo_apply v h (ix2 r k) (ix2 r (0 : Fin 1)) fun ax => ?_
  match ax with
  | ⟨0, _⟩ =>
    show r.val = if n = 1 then 0 else r.val
    rw [if_neg hn]
  | ⟨1, _⟩ => rfl

/-- Two columns [n, 1] laid side by side as [n, 2] read, at (r, 0), the first column at (r, 0). -/
theorem concat_cols_left {n : ℕ} (x₁ x₂ : (⟨2, ![n, 1]⟩ : Shape).Idx → α)
    (h : Shape.Concatenates [(⟨2, ![n, 1]⟩ : Shape), ⟨2, ![n, 1]⟩] ⟨2, ![n, 2]⟩ 1) (r : Fin n) :
    concatenate ⟨2, ![n, 2]⟩ 1 [⟨⟨2, ![n, 1]⟩, x₁⟩, ⟨⟨2, ![n, 1]⟩, x₂⟩] h (ix2 r (0 : Fin 2)) = x₁ (ix2 r (0 : Fin 1)) :=
  concatenate_pair_apply_left 1 x₁ x₂ h (ix2 r (0 : Fin 2)) rfl (ix2 r (0 : Fin 1)) (fun b => by
    match b with
    | ⟨0, _⟩ => rfl
    | ⟨1, _⟩ => rfl)

/-- … and, at (r, 1), the second column at (r, 0). -/
theorem concat_cols_right {n : ℕ} (x₁ x₂ : (⟨2, ![n, 1]⟩ : Shape).Idx → α)
    (h : Shape.Concatenates [(⟨2, ![n, 1]⟩ : Shape), ⟨2, ![n, 1]⟩] ⟨2, ![n, 2]⟩ 1) (r : Fin n) :
    concatenate ⟨2, ![n, 2]⟩ 1 [⟨⟨2, ![n, 1]⟩, x₁⟩, ⟨⟨2, ![n, 1]⟩, x₂⟩] h (ix2 r (1 : Fin 2)) = x₂ (ix2 r (0 : Fin 1)) :=
  concatenate_pair_apply_right 1 x₁ x₂ h (ix2 r (1 : Fin 2)) rfl rfl (ix2 r (0 : Fin 1)) (fun b hb => by
    match b with
    | ⟨0, _⟩ => rfl
    | ⟨1, _⟩ => exact absurd rfl hb) rfl

/-- Column c of an [n, 2] array, cut out as [n, 1], reads at (r, 0) the array at (r, c). -/
theorem slice_col_apply {n : ℕ} (c : Fin 2) (X : (⟨2, ![n, 2]⟩ : Shape).Idx → α)
    (h : (⟨2, ![n, 2]⟩ : Shape).Slices ![0, c.val] ⟨2, ![n, 1]⟩) (r : Fin n) :
    extractStridedSlice ⟨2, ![n, 1]⟩ ![0, c.val] X h (ix2 r (0 : Fin 1)) = X (ix2 r c) :=
  slice2_axis1_apply c.val X h r (0 : Fin 1) c rfl

end Cert.RowOps

end
-- ==== Proof.Region0.lean ====
import proofs.«418456_j79345225826758_3_alg».proof.Proof.Gen.KernelIdeal.Frame
import proofs.«418456_j79345225826758_3_alg».proof.Proof.Spec
import proofs.«418456_j79345225826758_3_alg».proof.Proof.LibRowOps
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.R0

open Cert.KernelIdeal Cert.KernelIdeal.Gen Idealize.ShloMosaic Idealize.ShloMosaic.TcCoe Idealize.SL.Sem
open Idealize.ShloMosaic.ValueIdx
open Idealize.ShloMosaic.Pipeline (Dat)

-- The projection region's entry contents: any assignment of contents to the core's buffers.
variable (V : (c : Dev nD) → (b : Ref sig .tc) → Buf (Elt Ideal) ((c : Thread nD τ).loc b))

/-- The region's nine input arrays by coordinates: three token sequences, three weight matrices, three biases
    (each bias a [1, 256] array). -/
abbrev q3 (c : Dev nD) : Spec.Seq := fun b r i => V c (Pipeline.arrRef spec0 0) (ix3 b r i)
abbrev e3 (c : Dev nD) : Spec.Seq := fun b r i => V c (Pipeline.arrRef spec0 1) (ix3 b r i)
abbrev v3 (c : Dev nD) : Spec.Seq := fun b r i => V c (Pipeline.arrRef spec0 2) (ix3 b r i)
abbrev wg2 (c : Dev nD) : Spec.Mat := fun o i => V c (Pipeline.arrRef spec0 3) (ix2 o i)
abbrev bg1 (c : Dev nD) : Spec.Bias := fun o => V c (Pipeline.arrRef spec0 4) (ix2 0 o)
abbrev wt2 (c : Dev nD) : Spec.Mat := fun o i => V c (Pipeline.arrRef spec0 5) (ix2 o i)
abbrev bt1 (c : Dev nD) : Spec.Bias := fun o => V c (Pipeline.arrRef spec0 6) (ix2 0 o)
abbrev wa2 (c : Dev nD) : Spec.Mat := fun o i => V c (Pipeline.arrRef spec0 7) (ix2 o i)
abbrev ba1 (c : Dev nD) : Spec.Bias := fun o => V c (Pipeline.arrRef spec0 8) (ix2 0 o)

/-! ## The matrix product's operand indices

The product contracts axis 1 of the left operand [1024, 256] with axis 1 of the right operand [256, 256]: at output
index (p, o) and contraction position k the left operand is read at (p, k) and the right at (o, k). -/

theorem lhs_dot_0 (i : S1024x256.Idx) (q : dot_S1024x256_S256x256_S1024x256_1_1_0_0_n_n.contr.Idx) :
    (dot_S1024x256_S256x256_S1024x256_1_1_0_0_n_n.lhsIdx i q 0).val = (i 0).val := by
  unfold DotDims.lhsIdx
  rw [dif_neg (show ¬(0 : Fin S1024x256.rank) ∈ dot_S1024x256_S256x256_S1024x256_1_1_0_0_n_n.lhsBatch by decide), dif_pos (show (0 : Fin S1024x256.rank) ∈ dot_S1024x256_S256x256_S1024x256_1_1_0_0_n_n.lhsNonContracting by decide)]
  rfl
theorem lhs_dot_1 (i : S1024x256.Idx) (q : dot_S1024x256_S256x256_S1024x256_1_1_0_0_n_n.contr.Idx) :
    (dot_S1024x256_S256x256_S1024x256_1_1_0_0_n_n.lhsIdx i q 1).val = (q ⟨0, by decide⟩).val :=
  dot_S1024x256_S256x256_S1024x256_1_1_0_0_n_n.lhsIdx_val_of_single rfl i q
theorem rhs_dot_0 (i : S1024x256.Idx) (q : dot_S1024x256_S256x256_S1024x256_1_1_0_0_n_n.contr.Idx) :
    (dot_S1024x256_S256x256_S1024x256_1_1_0_0_n_n.rhsIdx i q 0).val = (i 1).val := by
  unfold DotDims.rhsIdx
  rw [dif_neg (show ¬(0 : Fin S256x256.rank) ∈ dot_S1024x256_S256x256_S1024x256_1_1_0_0_n_n.rhsBatch by decide), dif_pos (show (0 : Fin S256x256.rank) ∈ dot_S1024x256_S256x256_S1024x256_1_1_0_0_n_n.rhsNonContracting by decide)]
  rfl
theorem rhs_dot_1 (i : S1024x256.Idx) (q : dot_S1024x256_S256x256_S1024x256_1_1_0_0_n_n.contr.Idx) :
    (dot_S1024x256_S256x256_S1024x256_1_1_0_0_n_n.rhsIdx i q 1).val = (q ⟨0, by decide⟩).val :=
  dot_S1024x256_S256x256_S1024x256_1_1_0_0_n_n.rhsIdx_val_of_single rfl i q

/-- The matrix product into the zero accumulator, at (p, o): row p of the left operand against row o of the right. -/
theorem matmul_at (x : FVec Ideal S1024x256 .f32) (w : FVec Ideal S256x256 .f32) (p : Fin 1024) (o : Fin 256) :
    matmul dot_S1024x256_S256x256_S1024x256_1_1_0_0_n_n none x w (constant (F := Ideal) S1024x256 .f32 0x00000000#32) (ix2 p o)
      = ∑ i : Fin 256, x (ix2 p i) * w (ix2 o i) := by
  refine (Ideal.matmul_constant_zero_apply dot_S1024x256_S256x256_S1024x256_1_1_0_0_n_n none x w (ix2 p o)).trans ?_
  rw [← Equiv.sum_comp (contrEquiv1 dot_S1024x256_S256x256_S1024x256_1_1_0_0_n_n 256 rfl rfl).symm]
  refine Finset.sum_congr rfl fun k _ => ?_
  have hk := contrEquiv1_symm_val dot_S1024x256_S256x256_S1024x256_1_1_0_0_n_n 256 rfl rfl k
  have el : dot_S1024x256_S256x256_S1024x256_1_1_0_0_n_n.lhsIdx (ix2 p o) ((contrEquiv1 dot_S1024x256_S256x256_S1024x256_1_1_0_0_n_n 256 rfl rfl).symm k) = ix2 p k := funext fun a => Fin.ext (by
    match a with
    | ⟨0, _⟩ => exact lhs_dot_0 _ _
    | ⟨1, _⟩ => exact (lhs_dot_1 _ _).trans hk)
  have er : dot_S1024x256_S256x256_S1024x256_1_1_0_0_n_n.rhsIdx (ix2 p o) ((contrEquiv1 dot_S1024x256_S256x256_S1024x256_1_1_0_0_n_n 256 rfl rfl).symm k) = ix2 o k := funext fun a => Fin.ext (by
    match a with
    | ⟨0, _⟩ => exact rhs_dot_0 _ _
    | ⟨1, _⟩ => exact (rhs_dot_1 _ _).trans hk)
  rw [el, er]

/-! ## The body's arithmetic at an index -/

/-- One block's affine map: output channel o of the block's row p, from the block [1, 1024, 256], the weight matrix
    [256, 256] and the bias row [1, 256]. -/
def pj (x : S1x1024x256.Idx → EReal) (w : S256x256.Idx → EReal) (β : S1x256.Idx → EReal) (p : Fin 1024) (o : Fin 256) : EReal :=
  (∑ i : Fin 256, x (ix3 (0 : Fin 1) p i) * w (ix2 o i)) + β (ix2 (0 : Fin 1) o)

/-- The affine map as the body computes it (block recast to a matrix, product into zero, bias row broadcast, sum). -/
theorem affine_at (x : Vec Ideal S1x1024x256 .f32) (w : Vec Ideal S256x256 .f32) (β : Vec Ideal S1x256 .f32) (p : Fin 1024) (o : Fin 256) :
    addf (matmul (φ₁ := .f32) (φ₂ := .f32) dot_S1024x256_S256x256_S1024x256_1_1_0_0_n_n none (shapeCast S1024x256 x shapeCasts_S1x1024x256_S1024x256) w (constant (F := Ideal) S1024x256 .f32 0x00000000#32))
        (broadcastTo S1024x256 (shapeCast S1x256 β shapeCasts_S1x256_S1x256) broadcasts_S1x256_S1024x256) (ix2 p o)
      = pj x w β p o := by
  unfold pj
  rw [addf_apply, matmul_at, shapeCast_self, broadcastTo_1b_ab_apply]
  refine congrArg (· + β (ix2 (0 : Fin 1) o)) (Finset.sum_congr rfl fun i _ => ?_)
  rw [shapeCast_1ab_ab_apply]

theorem pay5_at (x : Vec Ideal S1x1024x256 .f32) (w : Vec Ideal S256x256 .f32) (β : Vec Ideal S1x256 .f32) (p : Fin 1024) (o : Fin 256) :
    k0_pay5 x w β (ix2 p o) = pj x w β p o := by
  unfold k0_pay5
  exact affine_at x w β p o

theorem pay6_at (x : Vec Ideal S1x1024x256 .f32) (w : Vec Ideal S256x256 .f32) (β : Vec Ideal S1x256 .f32) (p : Fin 1024) (o : Fin 256) :
    k0_pay6 x w β (ix2 p o) = pj x w β p o := by
  unfold k0_pay6
  exact affine_at x w β p o

/-- The squared length of a projected row, as the body sums it along the lanes. -/
theorem pay8_at (x : Vec Ideal S1x1024x256 .f32) (w : Vec Ideal S256x256 .f32) (β : Vec Ideal S1x256 .f32) (p : Fin 1024) :
    k0_pay8 x w β (ix1 p) = ∑ o : Fin 256, pj x w β p o * pj x w β p o := by
  unfold k0_pay8
  refine (Cert.RowOps.rowSum_apply (mulf (k0_pay5 x w β) (k0_pay5 x w β)) 0x00000000#32 reduces_S1024x256_S1024 (.inl rfl) rfl p).trans ?_
  refine Finset.sum_congr rfl fun o _ => ?_
  rw [mulf_apply, pay5_at]

/-- A row's reciprocal root, recast to a column and broadcast along the row, multiplies every entry of the row. -/
theorem scale_at (y : FVec Ideal S1024x256 .f32) (s : FVec Ideal S1024 .f32) (p : Fin 1024) (o : Fin 256) :
    mulf y (broadcastTo S1024x256 (rsqrt (shapeCast S1024x1 s shapeCasts_S1024_S1024x1)) broadcasts_S1024x1_S1024x256) (ix2 p o)
      = y (ix2 p o) * Ideal.rsqrt (s (ix1 p)) := by
  rw [mulf_apply, Cert.RowOps.broadcastTo_a1_ab_apply (by decide)]
  show y (ix2 p o) * Ideal.rsqrt (shapeCast S1024x1 s shapeCasts_S1024_S1024x1 (ix2 p (0 : Fin 1))) = _
  rw [Cert.RowOps.shapeCast_a_a1_apply]

/-- The normalized projection as the body computes it for the first sequence. -/
theorem pay7_at (x : Vec Ideal S1x1024x256 .f32) (w : Vec Ideal S256x256 .f32) (β : Vec Ideal S1x256 .f32) (p : Fin 1024) (o : Fin 256) :
    k0_pay7 x w β (ix2 p o) = pj x w β p o * Ideal.rsqrt (∑ o' : Fin 256, pj x w β p o' * pj x w β p o') := by
  unfold k0_pay7
  refine (scale_at _ _ p o).trans ?_
  rw [affine_at]
  refine congrArg (fun s => pj x w β p o * Ideal.rsqrt s) ?_
  refine (Cert.RowOps.rowSum_apply _ 0x00000000#32 reduces_S1024x256_S1024 (.inl rfl) rfl p).trans ?_
  refine Finset.sum_congr rfl fun o' _ => ?_
  rw [mulf_apply, affine_at]

/-- Stores: the narrowing is the identity on extended reals and the leading unit axis is put back. -/
theorem pay1_at (v : FVec Ideal S1024x256 .f32) (u : Fin 1) (p : Fin 1024) (o : Fin 256) :
    k0_pay1 v (ix3 u p o) = v (ix2 p o) := by
  unfold k0_pay1
  rw [shapeCast_ab_1ab_apply]
  rfl

theorem pay2_at (y : FVec Ideal S1024x256 .f32) (s : FVec Ideal S1024 .f32) (u : Fin 1) (p : Fin 1024) (o : Fin 256) :
    k0_pay2 y s (ix3 u p o) = y (ix2 p o) * Ideal.rsqrt (s (ix1 p)) := by
  unfold k0_pay2
  rw [shapeCast_ab_1ab_apply]
  exact scale_at y s p o

theorem pay3_at (v : FVec Ideal S1024x256 .f32) (u : Fin 1) (p : Fin 1024) (o : Fin 256) :
    k0_pay3 v (ix3 u p o) = v (ix2 p o) := by
  unfold k0_pay3
  rw [shapeCast_ab_1ab_apply]

theorem pay4_at (v : FVec Ideal S1024x256 .f32) (u : Fin 1) (p : Fin 1024) (o : Fin 256) :
    k0_pay4 v (ix3 u p o) = v (ix2 p o) := by
  unfold k0_pay4
  rw [shapeCast_ab_1ab_apply]
  rfl

/-! ## Where each window's block sits

Grid point t is (t / 4, t % 4): every sequence window's block at t is rows (t % 4) * 1024 … of batch t / 4, all channels;
every weight and bias window's block is its whole array. -/

theorem hz3 : (![0, 0, 0] : Fin 3 → Nat) = fun _ => 0 := funext fun a => by fin_cases a <;> rfl
theorem hz2 : (![0, 0] : Fin 2 → Nat) = fun _ => 0 := funext fun a => by fin_cases a <;> rfl

/-- The sequence windows' block indices, decided over the grid. -/
theorem seq_idx : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = t.val % 4 ∧ win0_1.index t (2 : Fin 3) = 0)
    ∧ (win0_2.index t (0 : Fin 3) = t.val / 4 ∧ win0_2.index t (1 : Fin 3) = t.val % 4 ∧ win0_2.index t (2 : Fin 3) = 0)
    ∧ (win0_9.index t (0 : Fin 3) = t.val / 4 ∧ win0_9.index t (1 : Fin 3) = t.val % 4 ∧ win0_9.index t (2 : Fin 3) = 0)
    ∧ (win0_10.index t (0 : Fin 3) = t.val / 4 ∧ win0_10.index t (1 : Fin 3) = t.val % 4 ∧ win0_10.index t (2 : Fin 3) = 0)
    ∧ (win0_11.index t (0 : Fin 3) = t.val / 4 ∧ win0_11.index t (1 : Fin 3) = t.val % 4 ∧ win0_11.index t (2 : Fin 3) = 0)
    ∧ (win0_12.index t (0 : Fin 3) = t.val / 4 ∧ win0_12.index t (1 : Fin 3) = t.val % 4 ∧ win0_12.index t (2 : Fin 3) = 0) :=
  (by decide +kernel : ∀ t : Fin grid0.N, _)

/-- The weight and bias windows' block indices: always the one block. -/
theorem par_idx : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-! ## The input blocks read by coordinates -/

/-- Sequence window 0's block at point t, at (·, p, i), is the sequence at batch t / 4, row (t % 4) * 1024 + p, channel i. -/
theorem blk0_at (c : Dev nD) (t : Fin cfg0.N) (u : Fin 1) (p : Fin 1024) (i : Fin 256) (b : Fin 8) (r : Fin 4096)
    (hb : b.val = t.val / 4) (hr : r.val = t.val % 4 * 1024 + p.val) :
    (iblk0 (F := Ideal) V c 0 t : Vec Ideal S1x1024x256 .f32) (ix3 u p i) = q3 V c b r i := by
  obtain ⟨⟨e0, e1, e2⟩, -⟩ := seq_idx t
  unfold iblk0
  rw [View.read_apply]
  show V c (Pipeline.arrRef spec0 0) _ = V c (Pipeline.arrRef spec0 0) (ix3 b r i)
  refine congrArg (V c (Pipeline.arrRef spec0 0)) (funext fun a => Fin.ext ?_)
  match a with
  | ⟨0, _⟩ => show win0_0.index t (0 : Fin 3) * 1 + 1 * u.val = b.val; rw [e0, hb]; omega
  | ⟨1, _⟩ => show win0_0.index t (1 : Fin 3) * 1024 + 1 * p.val = r.val; rw [e1, hr]; omega
  | ⟨2, _⟩ => show win0_0.index t (2 : Fin 3) * 256 + 1 * i.val = i.val; rw [e2]; omega

/-- Sequence window 1's block at point t, at (·, p, i), is the sequence at batch t / 4, row (t % 4) * 1024 + p, channel i. -/
theorem blk1_at (c : Dev nD) (t : Fin cfg0.N) (u : Fin 1) (p : Fin 1024) (i : Fin 256) (b : Fin 8) (r : Fin 4096)
    (hb : b.val = t.val / 4) (hr : r.val = t.val % 4 * 1024 + p.val) :
    (iblk0 (F := Ideal) V c 1 t : Vec Ideal S1x1024x256 .f32) (ix3 u p i) = e3 V c b r i := by
  obtain ⟨-, ⟨e0, e1, e2⟩, -⟩ := seq_idx t
  unfold iblk0
  rw [View.read_apply]
  show V c (Pipeline.arrRef spec0 1) _ = V c (Pipeline.arrRef spec0 1) (ix3 b r i)
  refine congrArg (V c (Pipeline.arrRef spec0 1)) (funext fun a => Fin.ext ?_)
  match a with
  | ⟨0, _⟩ => show win0_1.index t (0 : Fin 3) * 1 + 1 * u.val = b.val; rw [e0, hb]; omega
  | ⟨1, _⟩ => show win0_1.index t (1 : Fin 3) * 1024 + 1 * p.val = r.val; rw [e1, hr]; omega
  | ⟨2, _⟩ => show win0_1.index t (2 : Fin 3) * 256 + 1 * i.val = i.val; rw [e2]; omega

/-- Sequence window 2's block at point t, at (·, p, i), is the sequence at batch t / 4, row (t % 4) * 1024 + p, channel i. -/
theorem blk2_at (c : Dev nD) (t : Fin cfg0.N) (u : Fin 1) (p : Fin 1024) (i : Fin 256) (b : Fin 8) (r : Fin 4096)
    (hb : b.val = t.val / 4) (hr : r.val = t.val % 4 * 1024 + p.val) :
    (iblk0 (F := Ideal) V c 2 t : Vec Ideal S1x1024x256 .f32) (ix3 u p i) = v3 V c b r i := by
  obtain ⟨-, -, ⟨e0, e1, e2⟩, -⟩ := seq_idx t
  unfold iblk0
  rw [View.read_apply]
  show V c (Pipeline.arrRef spec0 2) _ = V c (Pipeline.arrRef spec0 2) (ix3 b r i)
  refine congrArg (V c (Pipeline.arrRef spec0 2)) (funext fun a => Fin.ext ?_)
  match a with
  | ⟨0, _⟩ => show win0_2.index t (0 : Fin 3) * 1 + 1 * u.val = b.val; rw [e0, hb]; omega
  | ⟨1, _⟩ => show win0_2.index t (1 : Fin 3) * 1024 + 1 * p.val = r.val; rw [e1, hr]; omega
  | ⟨2, _⟩ => show win0_2.index t (2 : Fin 3) * 256 + 1 * i.val = i.val; rw [e2]; omega

/-- Weight window 3's block at any point is the whole matrix. -/
theorem blk3_at (c : Dev nD) (t : Fin cfg0.N) (o : Fin 256) (i : Fin 256) :
    (iblk0 (F := Ideal) V c 3 t : Vec Ideal S256x256 .f32) (ix2 o i) = wg2 V c o i := by
  obtain ⟨⟨e0, e1⟩, -⟩ := par_idx t
  unfold iblk0
  rw [View.read_apply]
  show V c (Pipeline.arrRef spec0 3) _ = V c (Pipeline.arrRef spec0 3) (ix2 o i)
  refine congrArg (V c (Pipeline.arrRef spec0 3)) (funext fun a => Fin.ext ?_)
  match a with
  | ⟨0, _⟩ => show win0_3.index t (0 : Fin 2) * 256 + 1 * o.val = o.val; rw [e0]; omega
  | ⟨1, _⟩ => show win0_3.index t (1 : Fin 2) * 256 + 1 * i.val = i.val; rw [e1]; omega

/-- Weight window 5's block at any point is the whole matrix. -/
theorem blk5_at (c : Dev nD) (t : Fin cfg0.N) (o : Fin 256) (i : Fin 256) :
    (iblk0 (F := Ideal) V c 5 t : Vec Ideal S256x256 .f32) (ix2 o i) = wt2 V c o i := by
  obtain ⟨-, -, ⟨e0, e1⟩, -⟩ := par_idx t
  unfold iblk0
  rw [View.read_apply]
  show V c (Pipeline.arrRef spec0 5) _ = V c (Pipeline.arrRef spec0 5) (ix2 o i)
  refine congrArg (V c (Pipeline.arrRef spec0 5)) (funext fun a => Fin.ext ?_)
  match a with
  | ⟨0, _⟩ => show win0_5.index t (0 : Fin 2) * 256 + 1 * o.val = o.val; rw [e0]; omega
  | ⟨1, _⟩ => show win0_5.index t (1 : Fin 2) * 256 + 1 * i.val = i.val; rw [e1]; omega

/-- Weight window 7's block at any point is the whole matrix. -/
theorem blk7_at (c : Dev nD) (t : Fin cfg0.N) (o : Fin 256) (i : Fin 256) :
    (iblk0 (F := Ideal) V c 7 t : Vec Ideal S256x256 .f32) (ix2 o i) = wa2 V c o i := by
  obtain ⟨-, -, -, -, ⟨e0, e1⟩, -⟩ := par_idx t
  unfold iblk0
  rw [View.read_apply]
  show V c (Pipeline.arrRef spec0 7) _ = V c (Pipeline.arrRef spec0 7) (ix2 o i)
  refine congrArg (V c (Pipeline.arrRef spec0 7)) (funext fun a => Fin.ext ?_)
  match a with
  | ⟨0, _⟩ => show win0_7.index t (0 : Fin 2) * 256 + 1 * o.val = o.val; rw [e0]; omega
  | ⟨1, _⟩ => show win0_7.index t (1 : Fin 2) * 256 + 1 * i.val = i.val; rw [e1]; omega

/-- Bias window 4's block at any point is the whole bias row. -/
theorem blk4_at (c : Dev nD) (t : Fin cfg0.N) (u : Fin 1) (o : Fin 256) :
    (iblk0 (F := Ideal) V c 4 t : Vec Ideal S1x256 .f32) (ix2 u o) = bg1 V c o := by
  obtain ⟨-, ⟨e0, e1⟩, -⟩ := par_idx t
  unfold iblk0
  rw [View.read_apply]
  show V c (Pipeline.arrRef spec0 4) _ = V c (Pipeline.arrRef spec0 4) (ix2 (0 : Fin 1) o)
  refine congrArg (V c (Pipeline.arrRef spec0 4)) (funext fun a => Fin.ext ?_)
  match a with
  | ⟨0, _⟩ => show win0_4.index t (0 : Fin 2) * 1 + 1 * u.val = 0; rw [e0]; omega
  | ⟨1, _⟩ => show win0_4.index t (1 : Fin 2) * 256 + 1 * o.val = o.val; rw [e1]; omega

/-- Bias window 6's block at any point is the whole bias row. -/
theorem blk6_at (c : Dev nD) (t : Fin cfg0.N) (u : Fin 1) (o : Fin 256) :
    (iblk0 (F := Ideal) V c 6 t : Vec Ideal S1x256 .f32) (ix2 u o) = bt1 V c o := by
  obtain ⟨-, -, -, ⟨e0, e1⟩, -⟩ := par_idx t
  unfold iblk0
  rw [View.read_apply]
  show V c (Pipeline.arrRef spec0 6) _ = V c (Pipeline.arrRef spec0 6) (ix2 (0 : Fin 1) o)
  refine congrArg (V c (Pipeline.arrRef spec0 6)) (funext fun a => Fin.ext ?_)
  match a with
  | ⟨0, _⟩ => show win0_6.index t (0 : Fin 2) * 1 + 1 * u.val = 0; rw [e0]; omega
  | ⟨1, _⟩ => show win0_6.index t (1 : Fin 2) * 256 + 1 * o.val = o.val; rw [e1]; omega

/-- Bias window 8's block at any point is the whole bias row. -/
theorem blk8_at (c : Dev nD) (t : Fin cfg0.N) (u : Fin 1) (o : Fin 256) :
    (iblk0 (F := Ideal) V c 8 t : Vec Ideal S1x256 .f32) (ix2 u o) = ba1 V c o := by
  obtain ⟨-, -, -, -, -, ⟨e0, e1⟩⟩ := par_idx t
  unfold iblk0
  rw [View.read_apply]
  show V c (Pipeline.arrRef spec0 8) _ = V c (Pipeline.arrRef spec0 8) (ix2 (0 : Fin 1) o)
  refine congrArg (V c (Pipeline.arrRef spec0 8)) (funext fun a => Fin.ext ?_)
  match a with
  | ⟨0, _⟩ => show win0_8.index t (0 : Fin 2) * 1 + 1 * u.val = 0; rw [e0]; omega
  | ⟨1, _⟩ => show win0_8.index t (1 : Fin 2) * 256 + 1 * o.val = o.val; rw [e1]; omega

/-- The block-level affine map of point t is the sequence-level one at the block's rows. -/
theorem pj_q (c : Dev nD) (t : Fin cfg0.N) (p : Fin 1024) (o : Fin 256) (b : Fin 8) (r : Fin 4096)
    (hb : b.val = t.val / 4) (hr : r.val = t.val % 4 * 1024 + p.val) :
    pj (iblk0 (F := Ideal) V c 0 t) (iblk0 (F := Ideal) V c 3 t) (iblk0 (F := Ideal) V c 4 t) p o
      = Spec.proj (q3 V c) (wg2 V c) (bg1 V c) b r o := by
  unfold pj Spec.proj
  exact congrArg₂ (· + ·) (Finset.sum_congr rfl fun i _ => congrArg₂ (· * ·) (blk0_at V c t 0 p i b r hb hr) (blk3_at V c t o i))
    (blk4_at V c t 0 o)

/-- The block-level affine map of point t is the sequence-level one at the block's rows. -/
theorem pj_e (c : Dev nD) (t : Fin cfg0.N) (p : Fin 1024) (o : Fin 256) (b : Fin 8) (r : Fin 4096)
    (hb : b.val = t.val / 4) (hr : r.val = t.val % 4 * 1024 + p.val) :
    pj (iblk0 (F := Ideal) V c 1 t) (iblk0 (F := Ideal) V c 5 t) (iblk0 (F := Ideal) V c 6 t) p o
      = Spec.proj (e3 V c) (wt2 V c) (bt1 V c) b r o := by
  unfold pj Spec.proj
  exact congrArg₂ (· + ·) (Finset.sum_congr rfl fun i _ => congrArg₂ (· * ·) (blk1_at V c t 0 p i b r hb hr) (blk5_at V c t o i))
    (blk6_at V c t 0 o)

/-- The block-level affine map of point t is the sequence-level one at the block's rows. -/
theorem pj_v (c : Dev nD) (t : Fin cfg0.N) (p : Fin 1024) (o : Fin 256) (b : Fin 8) (r : Fin 4096)
    (hb : b.val = t.val / 4) (hr : r.val = t.val % 4 * 1024 + p.val) :
    pj (iblk0 (F := Ideal) V c 2 t) (iblk0 (F := Ideal) V c 7 t) (iblk0 (F := Ideal) V c 8 t) p o
      = Spec.proj (v3 V c) (wa2 V c) (ba1 V c) b r o := by
  unfold pj Spec.proj
  exact congrArg₂ (· + ·) (Finset.sum_congr rfl fun i _ => congrArg₂ (· * ·) (blk2_at V c t 0 p i b r hb hr) (blk7_at V c t o i))
    (blk8_at V c t 0 o)

/-! ## From blocks to arrays

Each output array ends holding one function of the region's input arrays: every grid point writes back the block of
that function at its rows, and the 32 blocks cover the array (row r of batch b lies in the block of point 4 b + r / 1024). -/

/-- What output window 9's array ends holding, index by index. -/
abbrev Gq (c : Dev nD) : S8x4096x256.Idx → EReal := fun j => Spec.normK (Spec.proj (q3 V c) (wg2 V c) (bg1 V c)) (j 0) (j 1) (j 2)

/-- What point t writes back through window 9 is its block of that function. -/
theorem flushed9 (c : Dev nD) (t : Fin cfg0.N) :
    (dat0 (F := Ideal) V c).flushed 9 t = ((cfg0.win 9).blk t).view.read (Elt Ideal) (Gq V c) := by
  show (cfg0.win 9).cut (grid0.coords t) ((dat0 (F := Ideal) V c).after 9 t) = _
  rw [after0_9]
  unfold out0_9
  rw [View.canon_unit_zero hz3]
  simp only [View.ld_unit_zero (S := S1x1024x256) hz3, View.ld_unit_zero (S := S256x256) hz2, View.ld_unit_zero (S := S1x256) hz2]
  obtain ⟨-, -, -, ⟨e0, e1, e2⟩, -⟩ := seq_idx t
  have ht : t.val < 32 := lt_of_lt_of_eq t.isLt N_0
  funext j
  obtain ⟨u, p, o, rfl⟩ : ∃ (u : Fin 1) (p : Fin 1024) (o : Fin 256), j = ix3 u p o := ⟨j 0, j 1, j 2, eq_ix3 j⟩
  rw [View.read_apply]
  obtain ⟨b, hb⟩ : ∃ b : Fin 8, b.val = t.val / 4 := ⟨⟨t.val / 4, by omega⟩, rfl⟩
  obtain ⟨r, hr⟩ : ∃ r : Fin 4096, r.val = t.val % 4 * 1024 + p.val := ⟨⟨t.val % 4 * 1024 + p.val, by have := p.isLt; omega⟩, rfl⟩
  have hemb : ((cfg0.win 9).blk t).view.emb (ix3 u p o) = ix3 b r o := funext fun a => Fin.ext (by
    match a with
    | ⟨0, _⟩ => show win0_9.index t (0 : Fin 3) * 1 + 1 * u.val = b.val; rw [e0, hb]; omega
    | ⟨1, _⟩ => show win0_9.index t (1 : Fin 3) * 1024 + 1 * p.val = r.val; rw [e1, hr]; omega
    | ⟨2, _⟩ => show win0_9.index t (2 : Fin 3) * 256 + 1 * o.val = o.val; rw [e2]; omega)
  have hp : ∀ o' : Fin 256, pj (iblk0 (F := Ideal) V c 0 t) (iblk0 (F := Ideal) V c 3 t) (iblk0 (F := Ideal) V c 4 t) p o' = Spec.proj (q3 V c) (wg2 V c) (bg1 V c) b r o' :=
    fun o' => pj_q V c t p o' b r hb hr
  refine Eq.trans ?_ (congrArg (Gq V c) hemb).symm
  show k0_pay1 (k0_pay7 (iblk0 (F := Ideal) V c 0 t) (iblk0 (F := Ideal) V c 3 t) (iblk0 (F := Ideal) V c 4 t)) (ix3 u p o) = Spec.proj (q3 V c) (wg2 V c) (bg1 V c) b r o * Ideal.rsqrt (∑ o' : Fin 256, Spec.proj (q3 V c) (wg2 V c) (bg1 V c) b r o' * Spec.proj (q3 V c) (wg2 V c) (bg1 V c) b r o')
  refine (pay1_at (k0_pay7 (iblk0 (F := Ideal) V c 0 t) (iblk0 (F := Ideal) V c 3 t) (iblk0 (F := Ideal) V c 4 t)) u p o).trans ?_
  refine (pay7_at (iblk0 (F := Ideal) V c 0 t) (iblk0 (F := Ideal) V c 3 t) (iblk0 (F := Ideal) V c 4 t) p o).trans ?_
  exact congrArg₂ (fun y s => y * Ideal.rsqrt s) (hp o) (Finset.sum_congr rfl fun o' _ => congrArg₂ (· * ·) (hp o') (hp o'))

/-- An index of the array is in point t's block iff each coordinate is in the block's range on its axis. -/
theorem mem_blk9 (t : Fin cfg0.N) (i : S8x4096x256.Idx) :
    i ∈ ((cfg0.win 9).blk t).view.set ↔ ∀ a : Fin 3, win0_9.index t a * S1x1024x256.size a ≤ (i a).val ∧ (i a).val < win0_9.index t a * S1x1024x256.size a + S1x1024x256.size a := by
  show i ∈ ((View.whole main_v7_0).slice (win0_9.rect t)).set ↔ _
  rw [View.set_slice_whole, Rect.mem_set_unit]
  exact Iff.rfl

/-- Every index of the array is in the block of the point 4 b + r / 1024. -/
theorem cover9 (i : S8x4096x256.Idx) :
    ∃ t : Fin cfg0.N, (cfg0.win 9).flush t = true ∧ i ∈ ((cfg0.win 9).blk t).view.set := by
  have h0 : (i 0).val < 8 := (i 0).isLt
  have h1 : (i 1).val < 4096 := (i 1).isLt
  have h2 : (i 2).val < 256 := (i 2).isLt
  obtain ⟨t, ht⟩ : ∃ t : Fin cfg0.N, t.val = (i 0).val * 4 + (i 1).val / 1024 :=
    ⟨⟨(i 0).val * 4 + (i 1).val / 1024, lt_of_lt_of_eq (by omega) N_0.symm⟩, rfl⟩
  obtain ⟨-, -, -, ⟨e0, e1, e2⟩, -⟩ := seq_idx t
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; rw [e0]; omega
  | ⟨1, _⟩ => show win0_9.index t (1 : Fin 3) * 1024 ≤ (i 1).val ∧ (i 1).val < win0_9.index t (1 : Fin 3) * 1024 + 1024; rw [e1]; omega
  | ⟨2, _⟩ => show win0_9.index t (2 : Fin 3) * 256 ≤ (i 2).val ∧ (i 2).val < win0_9.index t (2 : Fin 3) * 256 + 256; rw [e2]; omega

/-- The array after the region. -/
theorem final9 (c : Dev nD) : (dat0 (F := Ideal) V c).arrAt 9 cfg0.N = Gq V c :=
  (dat0 (F := Ideal) V c).arrAt_eq_of_cover 9 (Gq V c) (fun t _ => flushed9 V c t) cover9

/-- What output window 10's array ends holding, index by index. -/
abbrev Gk (c : Dev nD) : S8x4096x256.Idx → EReal := fun j => Spec.normK (Spec.proj (e3 V c) (wt2 V c) (bt1 V c)) (j 0) (j 1) (j 2)

/-- What point t writes back through window 10 is its block of that function. -/
theorem flushed10 (c : Dev nD) (t : Fin cfg0.N) :
    (dat0 (F := Ideal) V c).flushed 10 t = ((cfg0.win 10).blk t).view.read (Elt Ideal) (Gk V c) := by
  show (cfg0.win 10).cut (grid0.coords t) ((dat0 (F := Ideal) V c).after 10 t) = _
  rw [after0_10]
  unfold out0_10
  rw [View.canon_unit_zero hz3]
  simp only [View.ld_unit_zero (S := S1x1024x256) hz3, View.ld_unit_zero (S := S256x256) hz2, View.ld_unit_zero (S := S1x256) hz2]
  obtain ⟨-, -, -, -, ⟨e0, e1, e2⟩, -⟩ := seq_idx t
  have ht : t.val < 32 := lt_of_lt_of_eq t.isLt N_0
  funext j
  obtain ⟨u, p, o, rfl⟩ : ∃ (u : Fin 1) (p : Fin 1024) (o : Fin 256), j = ix3 u p o := ⟨j 0, j 1, j 2, eq_ix3 j⟩
  rw [View.read_apply]
  obtain ⟨b, hb⟩ : ∃ b : Fin 8, b.val = t.val / 4 := ⟨⟨t.val / 4, by omega⟩, rfl⟩
  obtain ⟨r, hr⟩ : ∃ r : Fin 4096, r.val = t.val % 4 * 1024 + p.val := ⟨⟨t.val % 4 * 1024 + p.val, by have := p.isLt; omega⟩, rfl⟩
  have hemb : ((cfg0.win 10).blk t).view.emb (ix3 u p o) = ix3 b r o := funext fun a => Fin.ext (by
    match a with
    | ⟨0, _⟩ => show win0_10.index t (0 : Fin 3) * 1 + 1 * u.val = b.val; rw [e0, hb]; omega
    | ⟨1, _⟩ => show win0_10.index t (1 : Fin 3) * 1024 + 1 * p.val = r.val; rw [e1, hr]; omega
    | ⟨2, _⟩ => show win0_10.index t (2 : Fin 3) * 256 + 1 * o.val = o.val; rw [e2]; omega)
  have hp : ∀ o' : Fin 256, pj (iblk0 (F := Ideal) V c 1 t) (iblk0 (F := Ideal) V c 5 t) (iblk0 (F := Ideal) V c 6 t) p o' = Spec.proj (e3 V c) (wt2 V c) (bt1 V c) b r o' :=
    fun o' => pj_e V c t p o' b r hb hr
  refine Eq.trans ?_ (congrArg (Gk V c) hemb).symm
  show k0_pay2 (k0_pay5 (iblk0 (F := Ideal) V c 1 t) (iblk0 (F := Ideal) V c 5 t) (iblk0 (F := Ideal) V c 6 t)) (k0_pay8 (iblk0 (F := Ideal) V c 1 t) (iblk0 (F := Ideal) V c 5 t) (iblk0 (F := Ideal) V c 6 t)) (ix3 u p o) = Spec.proj (e3 V c) (wt2 V c) (bt1 V c) b r o * Ideal.rsqrt (∑ o' : Fin 256, Spec.proj (e3 V c) (wt2 V c) (bt1 V c) b r o' * Spec.proj (e3 V c) (wt2 V c) (bt1 V c) b r o')
  refine (pay2_at (k0_pay5 (iblk0 (F := Ideal) V c 1 t) (iblk0 (F := Ideal) V c 5 t) (iblk0 (F := Ideal) V c 6 t)) (k0_pay8 (iblk0 (F := Ideal) V c 1 t) (iblk0 (F := Ideal) V c 5 t) (iblk0 (F := Ideal) V c 6 t)) u p o).trans ?_
  refine (congrArg₂ (fun y s => y * Ideal.rsqrt s) (pay5_at (iblk0 (F := Ideal) V c 1 t) (iblk0 (F := Ideal) V c 5 t) (iblk0 (F := Ideal) V c 6 t) p o) (pay8_at (iblk0 (F := Ideal) V c 1 t) (iblk0 (F := Ideal) V c 5 t) (iblk0 (F := Ideal) V c 6 t) p)).trans ?_
  exact congrArg₂ (fun y s => y * Ideal.rsqrt s) (hp o) (Finset.sum_congr rfl fun o' _ => congrArg₂ (· * ·) (hp o') (hp o'))

/-- An index of the array is in point t's block iff each coordinate is in the block's range on its axis. -/
theorem mem_blk10 (t : Fin cfg0.N) (i : S8x4096x256.Idx) :
    i ∈ ((cfg0.win 10).blk t).view.set ↔ ∀ a : Fin 3, win0_10.index t a * S1x1024x256.size a ≤ (i a).val ∧ (i a).val < win0_10.index t a * S1x1024x256.size a + S1x1024x256.size a := by
  show i ∈ ((View.whole main_v7_1).slice (win0_10.rect t)).set ↔ _
  rw [View.set_slice_whole, Rect.mem_set_unit]
  exact Iff.rfl

/-- Every index of the array is in the block of the point 4 b + r / 1024. -/
theorem cover10 (i : S8x4096x256.Idx) :
    ∃ t : Fin cfg0.N, (cfg0.win 10).flush t = true ∧ i ∈ ((cfg0.win 10).blk t).view.set := by
  have h0 : (i 0).val < 8 := (i 0).isLt
  have h1 : (i 1).val < 4096 := (i 1).isLt
  have h2 : (i 2).val < 256 := (i 2).isLt
  obtain ⟨t, ht⟩ : ∃ t : Fin cfg0.N, t.val = (i 0).val * 4 + (i 1).val / 1024 :=
    ⟨⟨(i 0).val * 4 + (i 1).val / 1024, lt_of_lt_of_eq (by omega) N_0.symm⟩, rfl⟩
  obtain ⟨-, -, -, -, ⟨e0, e1, e2⟩, -⟩ := seq_idx t
  refine ⟨t, flush0_10 t, ?_⟩
  rw [mem_blk10]
  intro a
  match a with
  | ⟨0, _⟩ => show win0_10.index t (0 : Fin 3) * 1 ≤ (i 0).val ∧ (i 0).val < win0_10.index t (0 : Fin 3) * 1 + 1; rw [e0]; omega
  | ⟨1, _⟩ => show win0_10.index t (1 : Fin 3) * 1024 ≤ (i 1).val ∧ (i 1).val < win0_10.index t (1 : Fin 3) * 1024 + 1024; rw [e1]; omega
  | ⟨2, _⟩ => show win0_10.index t (2 : Fin 3) * 256 ≤ (i 2).val ∧ (i 2).val < win0_10.index t (2 : Fin 3) * 256 + 256; rw [e2]; omega

/-- The array after the region. -/
theorem final10 (c : Dev nD) : (dat0 (F := Ideal) V c).arrAt 10 cfg0.N = Gk V c :=
  (dat0 (F := Ideal) V c).arrAt_eq_of_cover 10 (Gk V c) (fun t _ => flushed10 V c t) cover10

/-- What output window 11's array ends holding, index by index. -/
abbrev Gv (c : Dev nD) : S8x4096x256.Idx → EReal := fun j => Spec.proj (v3 V c) (wa2 V c) (ba1 V c) (j 0) (j 1) (j 2)

/-- What point t writes back through window 11 is its block of that function. -/
theorem flushed11 (c : Dev nD) (t : Fin cfg0.N) :
    (dat0 (F := Ideal) V c).flushed 11 t = ((cfg0.win 11).blk t).view.read (Elt Ideal) (Gv V c) := by
  show (cfg0.win 11).cut (grid0.coords t) ((dat0 (F := Ideal) V c).after 11 t) = _
  rw [after0_11]
  unfold out0_11
  rw [View.canon_unit_zero hz3]
  simp only [View.ld_unit_zero (S := S1x1024x256) hz3, View.ld_unit_zero (S := S256x256) hz2, View.ld_unit_zero (S := S1x256) hz2]
  obtain ⟨-, -, -, -, -, ⟨e0, e1, e2⟩, -⟩ := seq_idx t
  have ht : t.val < 32 := lt_of_lt_of_eq t.isLt N_0
  funext j
  obtain ⟨u, p, o, rfl⟩ : ∃ (u : Fin 1) (p : Fin 1024) (o : Fin 256), j = ix3 u p o := ⟨j 0, j 1, j 2, eq_ix3 j⟩
  rw [View.read_apply]
  obtain ⟨b, hb⟩ : ∃ b : Fin 8, b.val = t.val / 4 := ⟨⟨t.val / 4, by omega⟩, rfl⟩
  obtain ⟨r, hr⟩ : ∃ r : Fin 4096, r.val = t.val % 4 * 1024 + p.val := ⟨⟨t.val % 4 * 1024 + p.val, by have := p.isLt; omega⟩, rfl⟩
  have hemb : ((cfg0.win 11).blk t).view.emb (ix3 u p o) = ix3 b r o := funext fun a => Fin.ext (by
    match a with
    | ⟨0, _⟩ => show win0_11.index t (0 : Fin 3) * 1 + 1 * u.val = b.val; rw [e0, hb]; omega
    | ⟨1, _⟩ => show win0_11.index t (1 : Fin 3) * 1024 + 1 * p.val = r.val; rw [e1, hr]; omega
    | ⟨2, _⟩ => show win0_11.index t (2 : Fin 3) * 256 + 1 * o.val = o.val; rw [e2]; omega)
  have hp : ∀ o' : Fin 256, pj (iblk0 (F := Ideal) V c 2 t) (iblk0 (F := Ideal) V c 7 t) (iblk0 (F := Ideal) V c 8 t) p o' = Spec.proj (v3 V c) (wa2 V c) (ba1 V c) b r o' :=
    fun o' => pj_v V c t p o' b r hb hr
  refine Eq.trans ?_ (congrArg (Gv V c) hemb).symm
  show k0_pay3 (k0_pay6 (iblk0 (F := Ideal) V c 2 t) (iblk0 (F := Ideal) V c 7 t) (iblk0 (F := Ideal) V c 8 t)) (ix3 u p o) = Spec.proj (v3 V c) (wa2 V c) (ba1 V c) b r o
  refine (pay3_at (k0_pay6 (iblk0 (F := Ideal) V c 2 t) (iblk0 (F := Ideal) V c 7 t) (iblk0 (F := Ideal) V c 8 t)) u p o).trans ?_
  refine (pay6_at (iblk0 (F := Ideal) V c 2 t) (iblk0 (F := Ideal) V c 7 t) (iblk0 (F := Ideal) V c 8 t) p o).trans ?_
  exact hp o

/-- An index of the array is in point t's block iff each coordinate is in the block's range on its axis. -/
theorem mem_blk11 (t : Fin cfg0.N) (i : S8x4096x256.Idx) :
    i ∈ ((cfg0.win 11).blk t).view.set ↔ ∀ a : Fin 3, win0_11.index t a * S1x1024x256.size a ≤ (i a).val ∧ (i a).val < win0_11.index t a * S1x1024x256.size a + S1x1024x256.size a := by
  show i ∈ ((View.whole main_v7_2).slice (win0_11.rect t)).set ↔ _
  rw [View.set_slice_whole, Rect.mem_set_unit]
  exact Iff.rfl

/-- Every index of the array is in the block of the point 4 b + r / 1024. -/
theorem cover11 (i : S8x4096x256.Idx) :
    ∃ t : Fin cfg0.N, (cfg0.win 11).flush t = true ∧ i ∈ ((cfg0.win 11).blk t).view.set := by
  have h0 : (i 0).val < 8 := (i 0).isLt
  have h1 : (i 1).val < 4096 := (i 1).isLt
  have h2 : (i 2).val < 256 := (i 2).isLt
  obtain ⟨t, ht⟩ : ∃ t : Fin cfg0.N, t.val = (i 0).val * 4 + (i 1).val / 1024 :=
    ⟨⟨(i 0).val * 4 + (i 1).val / 1024, lt_of_lt_of_eq (by omega) N_0.symm⟩, rfl⟩
  obtain ⟨-, -, -, -, -, ⟨e0, e1, e2⟩, -⟩ := seq_idx t
  refine ⟨t, flush0_11 t, ?_⟩
  rw [mem_blk11]
  intro a
  match a with
  | ⟨0, _⟩ => show win0_11.index t (0 : Fin 3) * 1 ≤ (i 0).val ∧ (i 0).val < win0_11.index t (0 : Fin 3) * 1 + 1; rw [e0]; omega
  | ⟨1, _⟩ => show win0_11.index t (1 : Fin 3) * 1024 ≤ (i 1).val ∧ (i 1).val < win0_11.index t (1 : Fin 3) * 1024 + 1024; rw [e1]; omega
  | ⟨2, _⟩ => show win0_11.index t (2 : Fin 3) * 256 ≤ (i 2).val ∧ (i 2).val < win0_11.index t (2 : Fin 3) * 256 + 256; rw [e2]; omega

/-- The array after the region. -/
theorem final11 (c : Dev nD) : (dat0 (F := Ideal) V c).arrAt 11 cfg0.N = Gv V c :=
  (dat0 (F := Ideal) V c).arrAt_eq_of_cover 11 (Gv V c) (fun t _ => flushed11 V c t) cover11

/-- What output window 12's array ends holding, index by index. -/
abbrev Gvb (c : Dev nD) : S8x4096x256.Idx → EReal := fun j => Spec.proj (v3 V c) (wa2 V c) (ba1 V c) (j 0) (j 1) (j 2)

/-- What point t writes back through window 12 is its block of that function. -/
theorem flushed12 (c : Dev nD) (t : Fin cfg0.N) :
    (dat0 (F := Ideal) V c).flushed 12 t = ((cfg0.win 12).blk t).view.read (Elt Ideal) (Gvb V c) := by
  show (cfg0.win 12).cut (grid0.coords t) ((dat0 (F := Ideal) V c).after 12 t) = _
  rw [after0_12]
  unfold out0_12
  rw [View.canon_unit_zero hz3]
  simp only [View.ld_unit_zero (S := S1x1024x256) hz3, View.ld_unit_zero (S := S256x256) hz2, View.ld_unit_zero (S := S1x256) hz2]
  obtain ⟨-, -, -, -, -, -, ⟨e0, e1, e2⟩⟩ := seq_idx t
  have ht : t.val < 32 := lt_of_lt_of_eq t.isLt N_0
  funext j
  obtain ⟨u, p, o, rfl⟩ : ∃ (u : Fin 1) (p : Fin 1024) (o : Fin 256), j = ix3 u p o := ⟨j 0, j 1, j 2, eq_ix3 j⟩
  rw [View.read_apply]
  obtain ⟨b, hb⟩ : ∃ b : Fin 8, b.val = t.val / 4 := ⟨⟨t.val / 4, by omega⟩, rfl⟩
  obtain ⟨r, hr⟩ : ∃ r : Fin 4096, r.val = t.val % 4 * 1024 + p.val := ⟨⟨t.val % 4 * 1024 + p.val, by have := p.isLt; omega⟩, rfl⟩
  have hemb : ((cfg0.win 12).blk t).view.emb (ix3 u p o) = ix3 b r o := funext fun a => Fin.ext (by
    match a with
    | ⟨0, _⟩ => show win0_12.index t (0 : Fin 3) * 1 + 1 * u.val = b.val; rw [e0, hb]; omega
    | ⟨1, _⟩ => show win0_12.index t (1 : Fin 3) * 1024 + 1 * p.val = r.val; rw [e1, hr]; omega
    | ⟨2, _⟩ => show win0_12.index t (2 : Fin 3) * 256 + 1 * o.val = o.val; rw [e2]; omega)
  have hp : ∀ o' : Fin 256, pj (iblk0 (F := Ideal) V c 2 t) (iblk0 (F := Ideal) V c 7 t) (iblk0 (F := Ideal) V c 8 t) p o' = Spec.proj (v3 V c) (wa2 V c) (ba1 V c) b r o' :=
    fun o' => pj_v V c t p o' b r hb hr
  refine Eq.trans ?_ (congrArg (Gvb V c) hemb).symm
  show k0_pay4 (k0_pay6 (iblk0 (F := Ideal) V c 2 t) (iblk0 (F := Ideal) V c 7 t) (iblk0 (F := Ideal) V c 8 t)) (ix3 u p o) = Spec.proj (v3 V c) (wa2 V c) (ba1 V c) b r o
  refine (pay4_at (k0_pay6 (iblk0 (F := Ideal) V c 2 t) (iblk0 (F := Ideal) V c 7 t) (iblk0 (F := Ideal) V c 8 t)) u p o).trans ?_
  refine (pay6_at (iblk0 (F := Ideal) V c 2 t) (iblk0 (F := Ideal) V c 7 t) (iblk0 (F := Ideal) V c 8 t) p o).trans ?_
  exact hp o

/-- An index of the array is in point t's block iff each coordinate is in the block's range on its axis. -/
theorem mem_blk12 (t : Fin cfg0.N) (i : S8x4096x256.Idx) :
    i ∈ ((cfg0.win 12).blk t).view.set ↔ ∀ a : Fin 3, win0_12.index t a * S1x1024x256.size a ≤ (i a).val ∧ (i a).val < win0_12.index t a * S1x1024x256.size a + S1x1024x256.size a := by
  show i ∈ ((View.whole main_v7_3).slice (win0_12.rect t)).set ↔ _
  rw [View.set_slice_whole, Rect.mem_set_unit]
  exact Iff.rfl

/-- Every index of the array is in the block of the point 4 b + r / 1024. -/
theorem cover12 (i : S8x4096x256.Idx) :
    ∃ t : Fin cfg0.N, (cfg0.win 12).flush t = true ∧ i ∈ ((cfg0.win 12).blk t).view.set := by
  have h0 : (i 0).val < 8 := (i 0).isLt
  have h1 : (i 1).val < 4096 := (i 1).isLt
  have h2 : (i 2).val < 256 := (i 2).isLt
  obtain ⟨t, ht⟩ : ∃ t : Fin cfg0.N, t.val = (i 0).val * 4 + (i 1).val / 1024 :=
    ⟨⟨(i 0).val * 4 + (i 1).val / 1024, lt_of_lt_of_eq (by omega) N_0.symm⟩, rfl⟩
  obtain ⟨-, -, -, -, -, -, ⟨e0, e1, e2⟩⟩ := seq_idx t
  refine ⟨t, flush0_12 t, ?_⟩
  rw [mem_blk12]
  intro a
  match a with
  | ⟨0, _⟩ => show win0_12.index t (0 : Fin 3) * 1 ≤ (i 0).val ∧ (i 0).val < win0_12.index t (0 : Fin 3) * 1 + 1; rw [e0]; omega
  | ⟨1, _⟩ => show win0_12.index t (1 : Fin 3) * 1024 ≤ (i 1).val ∧ (i 1).val < win0_12.index t (1 : Fin 3) * 1024 + 1024; rw [e1]; omega
  | ⟨2, _⟩ => show win0_12.index t (2 : Fin 3) * 256 ≤ (i 2).val ∧ (i 2).val < win0_12.index t (2 : Fin 3) * 256 + 256; rw [e2]; omega

/-- The array after the region. -/
theorem final12 (c : Dev nD) : (dat0 (F := Ideal) V c).arrAt 12 cfg0.N = Gvb V c :=
  (dat0 (F := Ideal) V c).arrAt_eq_of_cover 12 (Gvb V c) (fun t _ => flushed12 V c t) cover12

/-! ## The four output arrays, read at an index -/

/-- After the region the normalized-query array holds, at (b, r, o), the unit-length rescaling of the projected query token. -/
theorem qn_final (c : Dev nD) (b : Fin 8) (r : Fin 4096) (o : Fin 256) :
    (dat0 (F := Ideal) V c).arrAt 9 cfg0.N (ix3 b r o) = Spec.normK (Spec.proj (q3 V c) (wg2 V c) (bg1 V c)) b r o := by
  exact congrFun (final9 V c) (ix3 b r o)

/-- The normalized-key array likewise, from the second sequence and the second weight and bias. -/
theorem kn_final (c : Dev nD) (b : Fin 8) (r : Fin 4096) (o : Fin 256) :
    (dat0 (F := Ideal) V c).arrAt 10 cfg0.N (ix3 b r o) = Spec.normK (Spec.proj (e3 V c) (wt2 V c) (bt1 V c)) b r o := by
  exact congrFun (final10 V c) (ix3 b r o)

/-- The value array holds the projected value token. -/
theorem vp_final (c : Dev nD) (b : Fin 8) (r : Fin 4096) (o : Fin 256) :
    (dat0 (F := Ideal) V c).arrAt 11 cfg0.N (ix3 b r o) = Spec.proj (v3 V c) (wa2 V c) (ba1 V c) b r o := by
  exact congrFun (final11 V c) (ix3 b r o)

/-- Its second copy (the narrower format is the same extended real) holds the same. -/
theorem vpb_final (c : Dev nD) (b : Fin 8) (r : Fin 4096) (o : Fin 256) :
    (dat0 (F := Ideal) V c).arrAt 12 cfg0.N (ix3 b r o) = Spec.proj (v3 V c) (wa2 V c) (ba1 V c) b r o := by
  exact congrFun (final12 V c) (ix3 b r o)

end Cert.KernelIdeal.R0

end
-- ==== Proof.Region1.lean ====
/-
  The attention region, read as mathematics.

  Grid point t of the [8, 16] grid is batch t / 16 and query-row block t % 16. Its body takes the block's 256
  normalized query rows against the batch's 4096 normalized key rows: the logits are the channel sums of products, each
  row is shifted by its maximum, exponentiated, and multiplied by the reciprocal of the row's sum — the row softmax —,
  which is stored as the block of the attention map. The same softmax rows, summed against the batch's value rows and
  then against the output weight, plus the bias and the residual rows, are stored as the block of the output sequence.
  Below: the three matrix products and the softmax read entry by entry; each input block read through the region's
  input arrays; each stored block shown to be its block of ONE whole-array function; the blocks cover the arrays; so
  each output array is that function.
-/
import proofs.«418456_j79345225826758_3_alg».proof.Proof.Gen.KernelIdeal.Frame
import proofs.«418456_j79345225826758_3_alg».proof.Proof.Spec
import proofs.«418456_j79345225826758_3_alg».proof.Proof.LibRowOps
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.R1

open Cert.KernelIdeal Cert.KernelIdeal.Gen Idealize.ShloMosaic Idealize.ShloMosaic.TcCoe Idealize.SL.Sem
open Idealize.ShloMosaic.ValueIdx
open Idealize.ShloMosaic.Pipeline (Dat)

/-! ## The three matrix products of the body, read at an index

Each is a product into the zero array, so an entry is the plain sum over the one contracted axis; the operand
indices are read off the product's dimension numbers axis by axis. -/

/-- The logits' product, query block times transposed key block: the operand indices axis by axis. -/
theorem lhs_qk_0 (i : S256x4096.Idx) (q : dot_S256x256_S256x4096_S256x4096_1_0_0_1_n_n.contr.Idx) :
    (dot_S256x256_S256x4096_S256x4096_1_0_0_1_n_n.lhsIdx i q 0).val = (i 0).val := by
  unfold DotDims.lhsIdx
  rw [dif_neg (show ¬(0 : Fin S256x256.rank) ∈ dot_S256x256_S256x4096_S256x4096_1_0_0_1_n_n.lhsBatch by decide), dif_pos (show (0 : Fin S256x256.rank) ∈ dot_S256x256_S256x4096_S256x4096_1_0_0_1_n_n.lhsNonContracting by decide)]
  rfl
theorem lhs_qk_1 (i : S256x4096.Idx) (q : dot_S256x256_S256x4096_S256x4096_1_0_0_1_n_n.contr.Idx) :
    (dot_S256x256_S256x4096_S256x4096_1_0_0_1_n_n.lhsIdx i q 1).val = (q ⟨0, by decide⟩).val :=
  dot_S256x256_S256x4096_S256x4096_1_0_0_1_n_n.lhsIdx_val_of_single rfl i q
theorem rhs_qk_0 (i : S256x4096.Idx) (q : dot_S256x256_S256x4096_S256x4096_1_0_0_1_n_n.contr.Idx) :
    (dot_S256x256_S256x4096_S256x4096_1_0_0_1_n_n.rhsIdx i q 0).val = (q ⟨0, by decide⟩).val :=
  dot_S256x256_S256x4096_S256x4096_1_0_0_1_n_n.rhsIdx_val_of_single rfl i q
theorem rhs_qk_1 (i : S256x4096.Idx) (q : dot_S256x256_S256x4096_S256x4096_1_0_0_1_n_n.contr.Idx) :
    (dot_S256x256_S256x4096_S256x4096_1_0_0_1_n_n.rhsIdx i q 1).val = (i 1).val := by
  unfold DotDims.rhsIdx
  rw [dif_neg (show ¬(1 : Fin S256x4096.rank) ∈ dot_S256x256_S256x4096_S256x4096_1_0_0_1_n_n.rhsBatch by decide), dif_pos (show (1 : Fin S256x4096.rank) ∈ dot_S256x256_S256x4096_S256x4096_1_0_0_1_n_n.rhsNonContracting by decide)]
  rfl

/-- Entry (p, k) of the query block times the transposed key block sums, over the channel c, left (p, c) times right (c, k). -/
theorem mm_qk_apply (l : FVec Ideal S256x256 .bf16) (r : FVec Ideal S256x4096 .bf16) (p : Fin 256) (k : Fin 4096) :
    matmul dot_S256x256_S256x4096_S256x4096_1_0_0_1_n_n none l r (constant (F := Ideal) S256x4096 .f32 0x00000000#32) (ix2 p k)
      = ∑ c : Fin 256, l (ix2 p c) * r (ix2 c k) := by
  refine (Ideal.matmul_constant_zero_apply dot_S256x256_S256x4096_S256x4096_1_0_0_1_n_n none l r (ix2 p k)).trans ?_
  rw [← Equiv.sum_comp (contrEquiv1 dot_S256x256_S256x4096_S256x4096_1_0_0_1_n_n 256 rfl rfl).symm]
  refine Finset.sum_congr rfl fun c _ => ?_
  have hk := contrEquiv1_symm_val dot_S256x256_S256x4096_S256x4096_1_0_0_1_n_n 256 rfl rfl c
  have el : dot_S256x256_S256x4096_S256x4096_1_0_0_1_n_n.lhsIdx (ix2 p k) ((contrEquiv1 dot_S256x256_S256x4096_S256x4096_1_0_0_1_n_n 256 rfl rfl).symm c) = ix2 p c := funext fun a => Fin.ext (by
    match a with
    | ⟨0, _⟩ => exact lhs_qk_0 _ _
    | ⟨1, _⟩ => exact (lhs_qk_1 _ _).trans hk)
  have er : dot_S256x256_S256x4096_S256x4096_1_0_0_1_n_n.rhsIdx (ix2 p k) ((contrEquiv1 dot_S256x256_S256x4096_S256x4096_1_0_0_1_n_n 256 rfl rfl).symm c) = ix2 c k := funext fun a => Fin.ext (by
    match a with
    | ⟨0, _⟩ => exact (rhs_qk_0 _ _).trans hk
    | ⟨1, _⟩ => exact rhs_qk_1 _ _)
  rw [el, er]

/-- The attention product, softmax block times value block: the operand indices axis by axis. -/
theorem lhs_av_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem lhs_av_1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
theorem rhs_av_0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
theorem rhs_av_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-- Entry (p, i) of the softmax block times the value block sums, over the key token c, left (p, c) times right (c, i). -/
theorem mm_av_apply (l : FVec Ideal S256x4096 .bf16) (r : FVec Ideal S4096x256 .bf16) (p : Fin 256) (i : Fin 256) :
    matmul dot_S256x4096_S4096x256_S256x256_1_0_0_1_n_n none l r (constant (F := Ideal) S256x256 .f32 0x00000000#32) (ix2 p i)
      = ∑ c : Fin 4096, l (ix2 p c) * r (ix2 c i) := by
  refine (Ideal.matmul_constant_zero_apply dot_S256x4096_S4096x256_S256x256_1_0_0_1_n_n none l r (ix2 p i)).trans ?_
  rw [← Equiv.sum_comp (contrEquiv1 dot_S256x4096_S4096x256_S256x256_1_0_0_1_n_n 4096 rfl rfl).symm]
  refine Finset.sum_congr rfl fun c _ => ?_
  have hk := contrEquiv1_symm_val dot_S256x4096_S4096x256_S256x256_1_0_0_1_n_n 4096 rfl rfl c
  have el : dot_S256x4096_S4096x256_S256x256_1_0_0_1_n_n.lhsIdx (ix2 p i) ((contrEquiv1 dot_S256x4096_S4096x256_S256x256_1_0_0_1_n_n 4096 rfl rfl).symm c) = ix2 p c := funext fun a => Fin.ext (by
    match a with
    | ⟨0, _⟩ => exact lhs_av_0 _ _
    | ⟨1, _⟩ => exact (lhs_av_1 _ _).trans hk)
  have er : dot_S256x4096_S4096x256_S256x256_1_0_0_1_n_n.rhsIdx (ix2 p i) ((contrEquiv1 dot_S256x4096_S4096x256_S256x256_1_0_0_1_n_n 4096 rfl rfl).symm c) = ix2 c i := funext fun a => Fin.ext (by
    match a with
    | ⟨0, _⟩ => exact (rhs_av_0 _ _).trans hk
    | ⟨1, _⟩ => exact rhs_av_1 _ _)
  rw [el, er]

/-- The output projection, attended block times the transposed weight: the operand indices axis by axis. -/
theorem lhs_wo_0 (i : S256x256.Idx) (q : dot_S256x256_S256x256_S256x256_1_1_0_0_n_n.contr.Idx) :
    (dot_S256x256_S256x256_S256x256_1_1_0_0_n_n.lhsIdx i q 0).val = (i 0).val := by
  unfold DotDims.lhsIdx
  rw [dif_neg (show ¬(0 : Fin S256x256.rank) ∈ dot_S256x256_S256x256_S256x256_1_1_0_0_n_n.lhsBatch by decide), dif_pos (show (0 : Fin S256x256.rank) ∈ dot_S256x256_S256x256_S256x256_1_1_0_0_n_n.lhsNonContracting by decide)]
  rfl
theorem lhs_wo_1 (i : S256x256.Idx) (q : dot_S256x256_S256x256_S256x256_1_1_0_0_n_n.contr.Idx) :
    (dot_S256x256_S256x256_S256x256_1_1_0_0_n_n.lhsIdx i q 1).val = (q ⟨0, by decide⟩).val :=
  dot_S256x256_S256x256_S256x256_1_1_0_0_n_n.lhsIdx_val_of_single rfl i q
theorem rhs_wo_0 (i : S256x256.Idx) (q : dot_S256x256_S256x256_S256x256_1_1_0_0_n_n.contr.Idx) :
    (dot_S256x256_S256x256_S256x256_1_1_0_0_n_n.rhsIdx i q 0).val = (i 1).val := by
  unfold DotDims.rhsIdx
  rw [dif_neg (show ¬(0 : Fin S256x256.rank) ∈ dot_S256x256_S256x256_S256x256_1_1_0_0_n_n.rhsBatch by decide), dif_pos (show (0 : Fin S256x256.rank) ∈ dot_S256x256_S256x256_S256x256_1_1_0_0_n_n.rhsNonContracting by decide)]
  rfl
theorem rhs_wo_1 (i : S256x256.Idx) (q : dot_S256x256_S256x256_S256x256_1_1_0_0_n_n.contr.Idx) :
    (dot_S256x256_S256x256_S256x256_1_1_0_0_n_n.rhsIdx i q 1).val = (q ⟨0, by decide⟩).val :=
  dot_S256x256_S256x256_S256x256_1_1_0_0_n_n.rhsIdx_val_of_single rfl i q

/-- Entry (p, o) of the attended block against the weight sums, over the input channel c, left (p, c) times weight (o, c). -/
theorem mm_wo_apply (l : FVec Ideal S256x256 .f32) (r : FVec Ideal S256x256 .f32) (p : Fin 256) (o : Fin 256) :
    matmul dot_S256x256_S256x256_S256x256_1_1_0_0_n_n none l r (constant (F := Ideal) S256x256 .f32 0x00000000#32) (ix2 p o)
      = ∑ c : Fin 256, l (ix2 p c) * r (ix2 o c) := by
  refine (Ideal.matmul_constant_zero_apply dot_S256x256_S256x256_S256x256_1_1_0_0_n_n none l r (ix2 p o)).trans ?_
  rw [← Equiv.sum_comp (contrEquiv1 dot_S256x256_S256x256_S256x256_1_1_0_0_n_n 256 rfl rfl).symm]
  refine Finset.sum_congr rfl fun c _ => ?_
  have hk := contrEquiv1_symm_val dot_S256x256_S256x256_S256x256_1_1_0_0_n_n 256 rfl rfl c
  have el : dot_S256x256_S256x256_S256x256_1_1_0_0_n_n.lhsIdx (ix2 p o) ((contrEquiv1 dot_S256x256_S256x256_S256x256_1_1_0_0_n_n 256 rfl rfl).symm c) = ix2 p c := funext fun a => Fin.ext (by
    match a with
    | ⟨0, _⟩ => exact lhs_wo_0 _ _
    | ⟨1, _⟩ => exact (lhs_wo_1 _ _).trans hk)
  have er : dot_S256x256_S256x256_S256x256_1_1_0_0_n_n.rhsIdx (ix2 p o) ((contrEquiv1 dot_S256x256_S256x256_S256x256_1_1_0_0_n_n 256 rfl rfl).symm c) = ix2 o c := funext fun a => Fin.ext (by
    match a with
    | ⟨0, _⟩ => exact rhs_wo_0 _ _
    | ⟨1, _⟩ => exact (rhs_wo_1 _ _).trans hk)
  rw [el, er]

/-! ## The softmax block, read at an index -/

/-- The two words the softmax names: minus infinity starts the row maximum, one is the numerator of the reciprocal. -/
theorem ofBits_neg_inf : Ideal.ofBits .f32 0xFF800000#32 = ⊥ := by simp [Ideal.ofBits, Ideal.ieee]
theorem ofBits_one : Ideal.ofBits .f32 0x3F800000#32 = 1 := by simp [Ideal.ofBits, Ideal.ieee, -EReal.coe_mul]; norm_num

/-- One row's softmax as the kernel spells it: each shifted exponential times the reciprocal of their sum. -/
def softRow (r : Fin 4096 → EReal) (k : Fin 4096) : EReal :=
  Ideal.exp (r k - (Finset.univ : Finset (Fin 4096)).fold max ⊥ r)
    * Ideal.div 1 (∑ k' : Fin 4096, Ideal.exp (r k' - (Finset.univ : Finset (Fin 4096)).fold max ⊥ r))

/-- The specification's row softmax is that function of the row of logits. -/
theorem softK_eq_softRow (s : Spec.Sco) (b : Fin 8) (q k : Fin 4096) :
    Spec.softK s b q k = softRow (fun k' => s b q k') k := rfl

/-- The logits block of a query block and a key block: the query block times the transposed key block, into zero. -/
def scoreBlk (x0 : Vec Ideal S1x256x256 .bf16) (x1 : Vec Ideal S1x4096x256 .bf16) : FVec Ideal S256x4096 .f32 :=
  matmul dot_S256x256_S256x4096_S256x4096_1_0_0_1_n_n none (shapeCast S256x256 x0 shapeCasts_S1x256x256_S256x256 : FVec Ideal S256x256 .bf16)
    (transpose S256x4096 [1, 0] (shapeCast S4096x256 x1 shapeCasts_S1x4096x256_S4096x256 : FVec Ideal S4096x256 .bf16) transposes_S4096x256_p1_0_S256x4096 : FVec Ideal S256x4096 .bf16)
    (constant S256x4096 .f32 0x00000000#32)

/-- Entry (p, k) of the logits block sums, over the channel, query row p times key row k. -/
theorem scoreBlk_apply (x0 : Vec Ideal S1x256x256 .bf16) (x1 : Vec Ideal S1x4096x256 .bf16) (p : Fin 256) (k : Fin 4096) :
    scoreBlk x0 x1 (ix2 p k) = ∑ c : Fin 256, x0 (ix3 (0 : Fin 1) p c) * x1 (ix3 (0 : Fin 1) k c) := by
  unfold scoreBlk
  refine (mm_qk_apply _ _ p k).trans ?_
  refine Finset.sum_congr rfl fun c _ => ?_
  rw [shapeCast_1ab_ab_apply x0 shapeCasts_S1x256x256_S256x256 p c,
    transpose_ix2_apply (shapeCast S4096x256 x1 shapeCasts_S1x4096x256_S4096x256 : FVec Ideal S4096x256 .bf16) transposes_S4096x256_p1_0_S256x4096 c k,
    shapeCast_1ab_ab_apply x1 shapeCasts_S1x4096x256_S4096x256 k c]

/-- The row maxima of a logits block, laid along every column. -/
def maxCol (v5 : FVec Ideal S256x4096 .f32) : FVec Ideal S256x4096 .f32 :=
  broadcastTo S256x4096 (shapeCast S256x1 (multiReduction .maximumf [1] S256 v5 0xFF800000#32 reduces_S256x4096_S256 (.inl rfl) rfl) shapeCasts_S256_S256x1) broadcasts_S256x1_S256x4096

theorem maxCol_apply (v5 : FVec Ideal S256x4096 .f32) (p : Fin 256) (k : Fin 4096) :
    maxCol v5 (ix2 p k) = (Finset.univ : Finset (Fin 4096)).fold max ⊥ (fun k' => v5 (ix2 p k')) := by
  unfold maxCol
  refine (Cert.RowOps.broadcastTo_a1_ab_apply (by decide) _ broadcasts_S256x1_S256x4096 p k).trans ?_
  refine (Cert.RowOps.shapeCast_a_a1_apply _ shapeCasts_S256_S256x1 p (0 : Fin 1)).trans ?_
  refine (Cert.RowOps.rowMax_apply v5 0xFF800000#32 reduces_S256x4096_S256 (.inl rfl) rfl p).trans ?_
  rw [ofBits_neg_inf]

/-- The shifted exponentials of a logits block. -/
def expBlk (v5 : FVec Ideal S256x4096 .f32) : FVec Ideal S256x4096 .f32 := exp (subf v5 (maxCol v5))

theorem expBlk_apply (v5 : FVec Ideal S256x4096 .f32) (p : Fin 256) (k : Fin 4096) :
    expBlk v5 (ix2 p k) = Ideal.exp (v5 (ix2 p k) - (Finset.univ : Finset (Fin 4096)).fold max ⊥ (fun k' => v5 (ix2 p k'))) := by
  show Ideal.exp (v5 (ix2 p k) - maxCol v5 (ix2 p k)) = _
  rw [maxCol_apply]

/-- The reciprocals of the row sums of a block, laid along every column. -/
def invCol (v10 : FVec Ideal S256x4096 .f32) : FVec Ideal S256x4096 .f32 :=
  broadcastTo S256x4096 (divf (broadcast S256x1 (Scalar.ofBits .f32 0x3F800000#32))
    (shapeCast S256x1 (multiReduction .add [1] S256 v10 0x00000000#32 reduces_S256x4096_S256 (.inl rfl) rfl) shapeCasts_S256_S256x1)) broadcasts_S256x1_S256x4096

theorem invCol_apply (v10 : FVec Ideal S256x4096 .f32) (p : Fin 256) (k : Fin 4096) :
    invCol v10 (ix2 p k) = Ideal.div 1 (∑ k' : Fin 4096, v10 (ix2 p k')) := by
  unfold invCol
  refine (Cert.RowOps.broadcastTo_a1_ab_apply (by decide) _ broadcasts_S256x1_S256x4096 p k).trans ?_
  show Ideal.div (Ideal.ofBits .f32 0x3F800000#32) (shapeCast S256x1 (multiReduction .add [1] S256 v10 0x00000000#32 reduces_S256x4096_S256 (.inl rfl) rfl) shapeCasts_S256_S256x1 (ix2 p (0 : Fin 1))) = _
  rw [ofBits_one, Cert.RowOps.shapeCast_a_a1_apply _ shapeCasts_S256_S256x1 p (0 : Fin 1),
    Cert.RowOps.rowSum_apply v10 0x00000000#32 reduces_S256x4096_S256 (.inl rfl) rfl p]

/-- The body's softmax of a logits block. -/
def softBlk (v5 : FVec Ideal S256x4096 .f32) : FVec Ideal S256x4096 .f32 := mulf (expBlk v5) (invCol (expBlk v5))

theorem softBlk_apply (v5 : FVec Ideal S256x4096 .f32) (p : Fin 256) (k : Fin 4096) :
    softBlk v5 (ix2 p k) = softRow (fun k' => v5 (ix2 p k')) k := by
  show expBlk v5 (ix2 p k) * invCol (expBlk v5) (ix2 p k) = _
  rw [invCol_apply, expBlk_apply]
  have hs : (∑ k' : Fin 4096, expBlk v5 (ix2 p k'))
      = ∑ k' : Fin 4096, Ideal.exp (v5 (ix2 p k') - (Finset.univ : Finset (Fin 4096)).fold max ⊥ (fun k'' => v5 (ix2 p k''))) :=
    Finset.sum_congr rfl fun k' _ => expBlk_apply v5 p k'
  rw [hs]
  rfl

/-- The softmax payload is the softmax of the logits block. -/
theorem pay2_eq (x0 : Vec Ideal S1x256x256 .bf16) (x1 : Vec Ideal S1x4096x256 .bf16) :
    k1_pay2 (F := Ideal) x0 x1 = softBlk (scoreBlk x0 x1) := rfl

/-- Entry (p, k) of the softmax payload: the row softmax, at k, of query row p against every key row. -/
theorem pay2_apply (x0 : Vec Ideal S1x256x256 .bf16) (x1 : Vec Ideal S1x4096x256 .bf16) (p : Fin 256) (k : Fin 4096) :
    k1_pay2 (F := Ideal) x0 x1 (ix2 p k)
      = softRow (fun k' => ∑ c : Fin 256, x0 (ix3 (0 : Fin 1) p c) * x1 (ix3 (0 : Fin 1) k' c)) k := by
  rw [pay2_eq, softBlk_apply]
  exact congrArg (fun r => softRow r k) (funext fun k' => scoreBlk_apply x0 x1 p k')

/-! ## The two stored blocks, read at an index -/

/-- Entry (u, p, k) of the block stored to the attention map is entry (p, k) of the softmax block. -/
theorem pay3_apply (x0 : Vec Ideal S1x256x256 .bf16) (x1 : Vec Ideal S1x4096x256 .bf16) (u : Fin 1) (p : Fin 256) (k : Fin 4096) :
    k1_pay3 (F := Ideal) x0 x1 (ix3 u p k)
      = softRow (fun k' => ∑ c : Fin 256, x0 (ix3 (0 : Fin 1) p c) * x1 (ix3 (0 : Fin 1) k' c)) k := by
  unfold k1_pay3
  refine (shapeCast_ab_1ab_apply (k1_pay2 (F := Ideal) x0 x1) shapeCasts_S256x4096_S1x256x4096 u p k).trans ?_
  exact pay2_apply x0 x1 p k

/-- The projected block of a softmax block s, a value block, the output weight and the bias row: s times the values,
    that against the weight, plus the bias row along every row. -/
def projBlk (s : FVec Ideal S256x4096 .f32) (x2 : Vec Ideal S1x4096x256 .bf16) (x4 : Vec Ideal S256x256 .f32) (x5 : Vec Ideal S1x256 .f32) :
    FVec Ideal S256x256 .f32 :=
  addf (matmul (φ₁ := .f32) (φ₂ := .f32) dot_S256x256_S256x256_S256x256_1_1_0_0_n_n none
      (matmul (φ₁ := .bf16) (φ₂ := .bf16) dot_S256x4096_S4096x256_S256x256_1_0_0_1_n_n none (truncf .bf16 s bitsLt_bf16_f32 : FVec Ideal S256x4096 .bf16)
        (shapeCast S4096x256 x2 shapeCasts_S1x4096x256_S4096x256 : FVec Ideal S4096x256 .bf16) (constant S256x256 .f32 0x00000000#32))
      (x4 : FVec Ideal S256x256 .f32) (constant S256x256 .f32 0x00000000#32))
    (broadcastTo S256x256 (shapeCast S1x256 x5 shapeCasts_S1x256_S1x256 : FVec Ideal S1x256 .f32) broadcasts_S1x256_S256x256)

/-- Entry (p, o) of the projected block: over input channels i, the attended entry (p, i) — the sum over key tokens k of
    s (p, k) times value (k, i) — times weight (o, i); plus bias o. -/
theorem projBlk_apply (s : FVec Ideal S256x4096 .f32) (x2 : Vec Ideal S1x4096x256 .bf16) (x4 : Vec Ideal S256x256 .f32) (x5 : Vec Ideal S1x256 .f32)
    (p o : Fin 256) :
    projBlk s x2 x4 x5 (ix2 p o)
      = (∑ i : Fin 256, (∑ k : Fin 4096, s (ix2 p k) * x2 (ix3 (0 : Fin 1) k i)) * x4 (ix2 o i)) + x5 (ix2 (0 : Fin 1) o) := by
  unfold projBlk
  refine (addf_apply _ _ (ix2 p o)).trans ?_
  rw [mm_wo_apply _ _ p o, broadcastTo_1b_ab_apply _ broadcasts_S1x256_S256x256 p o, shapeCast_self]
  refine congrArg (· + x5 (ix2 (0 : Fin 1) o)) (Finset.sum_congr rfl fun i _ => ?_)
  rw [mm_av_apply _ _ p i]
  refine congrArg (· * x4 (ix2 o i)) (Finset.sum_congr rfl fun k _ => ?_)
  rw [shapeCast_1ab_ab_apply x2 shapeCasts_S1x4096x256_S4096x256 k i]
  rfl

/-- The projection payload is the projected block of the softmax payload. -/
theorem pay4_eq (x0 : Vec Ideal S1x256x256 .bf16) (x1 : Vec Ideal S1x4096x256 .bf16) (x2 : Vec Ideal S1x4096x256 .bf16)
    (x4 : Vec Ideal S256x256 .f32) (x5 : Vec Ideal S1x256 .f32) :
    k1_pay4 (F := Ideal) x0 x1 x2 x4 x5 = projBlk (k1_pay2 (F := Ideal) x0 x1) x2 x4 x5 := rfl

/-- Entry (u, p, o) of the block stored to the output sequence: the residual entry plus the projected entry. -/
theorem pay1_apply (x0 : Vec Ideal S1x256x256 .bf16) (x1 : Vec Ideal S1x4096x256 .bf16) (x2 : Vec Ideal S1x4096x256 .bf16)
    (x3 : Vec Ideal S1x256x256 .f32) (x4 : Vec Ideal S256x256 .f32) (x5 : Vec Ideal S1x256 .f32) (u : Fin 1) (p o : Fin 256) :
    k1_pay1 (F := Ideal) (k1_pay4 (F := Ideal) x0 x1 x2 x4 x5) (k1_pay5 (F := Ideal) x3) (ix3 u p o)
      = x3 (ix3 (0 : Fin 1) p o)
        + ((∑ i : Fin 256, (∑ k : Fin 4096,
              softRow (fun k' => ∑ c : Fin 256, x0 (ix3 (0 : Fin 1) p c) * x1 (ix3 (0 : Fin 1) k' c)) k * x2 (ix3 (0 : Fin 1) k i)) * x4 (ix2 o i))
            + x5 (ix2 (0 : Fin 1) o)) := by
  unfold k1_pay1 k1_pay5
  refine (shapeCast_ab_1ab_apply _ shapeCasts_S256x256_S1x256x256 u p o).trans ?_
  refine (addf_apply _ _ (ix2 p o)).trans ?_
  rw [shapeCast_1ab_ab_apply x3 shapeCasts_S1x256x256_S256x256 p o, pay4_eq, projBlk_apply]
  refine congrArg (fun z => x3 (ix3 (0 : Fin 1) p o) + (z + x5 (ix2 (0 : Fin 1) o))) (Finset.sum_congr rfl fun i _ => ?_)
  refine congrArg (· * x4 (ix2 o i)) (Finset.sum_congr rfl fun k _ => ?_)
  rw [pay2_apply]

-- The attention region's entry contents: any assignment of contents to the core's buffers.
variable (V : (c : Dev nD) → (b : Ref sig .tc) → Buf (Elt Ideal) ((c : Thread nD τ).loc b))

/-- The region's six input arrays by coordinates: normalized queries, normalized keys, values, the residual sequence,
    the output weight and the output bias (a [1, 256] array). -/
abbrev qn3 (c : Dev nD) : Spec.Seq := fun b r i => V c (Pipeline.arrRef spec1 0) (ix3 b r i)
abbrev kn3 (c : Dev nD) : Spec.Seq := fun b r i => V c (Pipeline.arrRef spec1 1) (ix3 b r i)
abbrev vp3 (c : Dev nD) : Spec.Seq := fun b r i => V c (Pipeline.arrRef spec1 2) (ix3 b r i)
abbrev qf3 (c : Dev nD) : Spec.Seq := fun b r i => V c (Pipeline.arrRef spec1 3) (ix3 b r i)
abbrev wo2 (c : Dev nD) : Spec.Mat := fun o i => V c (Pipeline.arrRef spec1 4) (ix2 o i)
abbrev bo1 (c : Dev nD) : Spec.Bias := fun o => V c (Pipeline.arrRef spec1 5) (ix2 0 o)

/-! ## Where each window's block sits: the index maps, decided once over the grid

The grid is [8, 16]: point t is batch t / 16, query-row block t % 16. The query, residual and both output windows
move with both coordinates; the key and value windows with the batch alone; the weight and bias windows not at all. -/

theorem idx_q : ∀ t : Fin cfg1.N, win1_0.index t (0 : Fin 3) = t.val / 16 ∧ win1_0.index t (1 : Fin 3) = t.val % 16 ∧ win1_0.index t (2 : Fin 3) = 0 :=
  (by decide +kernel : ∀ t : Fin grid1.N, _)
theorem idx_k : ∀ t : Fin cfg1.N, win1_1.index t (0 : Fin 3) = t.val / 16 ∧ win1_1.index t (1 : Fin 3) = 0 ∧ win1_1.index t (2 : Fin 3) = 0 :=
  (by decide +kernel : ∀ t : Fin grid1.N, _)
theorem idx_v : ∀ t : Fin cfg1.N, win1_2.index t (0 : Fin 3) = t.val / 16 ∧ win1_2.index t (1 : Fin 3) = 0 ∧ win1_2.index t (2 : Fin 3) = 0 :=
  (by decide +kernel : ∀ t : Fin grid1.N, _)
theorem idx_x : ∀ t : Fin cfg1.N, win1_3.index t (0 : Fin 3) = t.val / 16 ∧ win1_3.index t (1 : Fin 3) = t.val % 16 ∧ win1_3.index t (2 : Fin 3) = 0 :=
  (by decide +kernel : ∀ t : Fin grid1.N, _)
theorem idx_w : ∀ t : Fin cfg1.N, win1_4.index t (0 : Fin 2) = 0 ∧ win1_4.index t (1 : Fin 2) = 0 :=
  (by decide +kernel : ∀ t : Fin grid1.N, _)
theorem idx_b : ∀ t : Fin cfg1.N, win1_5.index t (0 : Fin 2) = 0 ∧ win1_5.index t (1 : Fin 2) = 0 :=
  (by decide +kernel : ∀ t : Fin grid1.N, _)
theorem idx_cor : ∀ t : Fin cfg1.N, win1_6.index t (0 : Fin 3) = t.val / 16 ∧ win1_6.index t (1 : Fin 3) = t.val % 16 ∧ win1_6.index t (2 : Fin 3) = 0 :=
  (by decide +kernel : ∀ t : Fin grid1.N, _)
theorem idx_out : ∀ t : Fin cfg1.N, win1_7.index t (0 : Fin 3) = t.val / 16 ∧ win1_7.index t (1 : Fin 3) = t.val % 16 ∧ win1_7.index t (2 : Fin 3) = 0 :=
  (by decide +kernel : ∀ t : Fin grid1.N, _)

/-- The batch of grid point t, and the sequence row that row p of its block is. -/
def batchOf (t : Fin cfg1.N) : Fin 8 := ⟨t.val / 16, by have h : t.val < 128 := t.isLt; omega⟩
def rowOf (t : Fin cfg1.N) (p : Fin 256) : Fin 4096 := ⟨t.val % 16 * 256 + p.val, by have h := p.isLt; omega⟩

/-! ## The input blocks, read through the region's input arrays -/

/-- Row p of the query block at point t is sequence row (t % 16) · 256 + p of batch t / 16. -/
theorem iblk_q (c : Dev nD) (t : Fin cfg1.N) (p i : Fin 256) :
    iblk1 V c 0 t (ix3 (0 : Fin 1) p i) = qn3 V c (batchOf t) (rowOf t p) i := by
  obtain ⟨e0, e1, e2⟩ := idx_q t
  show V c (Pipeline.arrRef spec1 0) (((cfg1.win 0).blk t).view.emb (ix3 (0 : Fin 1) p i)) = V c (Pipeline.arrRef spec1 0) (ix3 (batchOf t) (rowOf t p) i)
  refine congrArg _ (funext fun a => Fin.ext ?_)
  match a with
  | ⟨0, _⟩ => show win1_0.index t (0 : Fin 3) * 1 + 1 * 0 = t.val / 16; omega
  | ⟨1, _⟩ => show win1_0.index t (1 : Fin 3) * 256 + 1 * p.val = t.val % 16 * 256 + p.val; omega
  | ⟨2, _⟩ => show win1_0.index t (2 : Fin 3) * 256 + 1 * i.val = i.val; omega

/-- Row k of the key block at point t is sequence row k of batch t / 16: the block is the batch's whole sequence. -/
theorem iblk_k (c : Dev nD) (t : Fin cfg1.N) (k : Fin 4096) (i : Fin 256) :
    iblk1 V c 1 t (ix3 (0 : Fin 1) k i) = kn3 V c (batchOf t) k i := by
  obtain ⟨e0, e1, e2⟩ := idx_k t
  show V c (Pipeline.arrRef spec1 1) (((cfg1.win 1).blk t).view.emb (ix3 (0 : Fin 1) k i)) = V c (Pipeline.arrRef spec1 1) (ix3 (batchOf t) k i)
  refine congrArg _ (funext fun a => Fin.ext ?_)
  match a with
  | ⟨0, _⟩ => show win1_1.index t (0 : Fin 3) * 1 + 1 * 0 = t.val / 16; omega
  | ⟨1, _⟩ => show win1_1.index t (1 : Fin 3) * 4096 + 1 * k.val = k.val; omega
  | ⟨2, _⟩ => show win1_1.index t (2 : Fin 3) * 256 + 1 * i.val = i.val; omega

/-- Likewise the value block. -/
theorem iblk_v (c : Dev nD) (t : Fin cfg1.N) (k : Fin 4096) (i : Fin 256) :
    iblk1 V c 2 t (ix3 (0 : Fin 1) k i) = vp3 V c (batchOf t) k i := by
  obtain ⟨e0, e1, e2⟩ := idx_v t
  show V c (Pipeline.arrRef spec1 2) (((cfg1.win 2).blk t).view.emb (ix3 (0 : Fin 1) k i)) = V c (Pipeline.arrRef spec1 2) (ix3 (batchOf t) k i)
  refine congrArg _ (funext fun a => Fin.ext ?_)
  match a with
  | ⟨0, _⟩ => show win1_2.index t (0 : Fin 3) * 1 + 1 * 0 = t.val / 16; omega
  | ⟨1, _⟩ => show win1_2.index t (1 : Fin 3) * 4096 + 1 * k.val = k.val; omega
  | ⟨2, _⟩ => show win1_2.index t (2 : Fin 3) * 256 + 1 * i.val = i.val; omega

/-- Row p of the residual block at point t is sequence row (t % 16) · 256 + p of batch t / 16. -/
theorem iblk_x (c : Dev nD) (t : Fin cfg1.N) (p o : Fin 256) :
    iblk1 V c 3 t (ix3 (0 : Fin 1) p o) = qf3 V c (batchOf t) (rowOf t p) o := by
  obtain ⟨e0, e1, e2⟩ := idx_x t
  show V c (Pipeline.arrRef spec1 3) (((cfg1.win 3).blk t).view.emb (ix3 (0 : Fin 1) p o)) = V c (Pipeline.arrRef spec1 3) (ix3 (batchOf t) (rowOf t p) o)
  refine congrArg _ (funext fun a => Fin.ext ?_)
  match a with
  | ⟨0, _⟩ => show win1_3.index t (0 : Fin 3) * 1 + 1 * 0 = t.val / 16; omega
  | ⟨1, _⟩ => show win1_3.index t (1 : Fin 3) * 256 + 1 * p.val = t.val % 16 * 256 + p.val; omega
  | ⟨2, _⟩ => show win1_3.index t (2 : Fin 3) * 256 + 1 * o.val = o.val; omega

/-- The weight block is the whole weight at every point. -/
theorem iblk_w (c : Dev nD) (t : Fin cfg1.N) (o i : Fin 256) :
    iblk1 V c 4 t (ix2 o i) = wo2 V c o i := by
  obtain ⟨e0, e1⟩ := idx_w t
  show V c (Pipeline.arrRef spec1 4) (((cfg1.win 4).blk t).view.emb (ix2 o i)) = V c (Pipeline.arrRef spec1 4) (ix2 o i)
  refine congrArg _ (funext fun a => Fin.ext ?_)
  match a with
  | ⟨0, _⟩ => show win1_4.index t (0 : Fin 2) * 256 + 1 * o.val = o.val; omega
  | ⟨1, _⟩ => show win1_4.index t (1 : Fin 2) * 256 + 1 * i.val = i.val; omega

/-- The bias block is the whole bias row at every point. -/
theorem iblk_b (c : Dev nD) (t : Fin cfg1.N) (o : Fin 256) :
    iblk1 V c 5 t (ix2 (0 : Fin 1) o) = bo1 V c o := by
  obtain ⟨e0, e1⟩ := idx_b t
  show V c (Pipeline.arrRef spec1 5) (((cfg1.win 5).blk t).view.emb (ix2 (0 : Fin 1) o)) = V c (Pipeline.arrRef spec1 5) (ix2 0 o)
  refine congrArg _ (funext fun a => Fin.ext ?_)
  match a with
  | ⟨0, _⟩ => show win1_5.index t (0 : Fin 2) * 1 + 1 * 0 = 0; omega
  | ⟨1, _⟩ => show win1_5.index t (1 : Fin 2) * 256 + 1 * o.val = o.val; omega

/-! ## The attention map -/

theorem hz3 : (![0, 0, 0] : Fin 3 → Nat) = fun _ => 0 := funext fun a => by fin_cases a <;> rfl
theorem hz2 : (![0, 0] : Fin 2 → Nat) = fun _ => 0 := funext fun a => by fin_cases a <;> rfl

/-- What the attention-map array ends holding: at (b, q, k) the row softmax of the logits of the region's query and key arrays. -/
def corArr (c : Dev nD) : S8x4096x4096.Idx → EReal := fun j =>
  Spec.softK (Spec.scores (qn3 V c) (kn3 V c)) (j 0) (j 1) (j 2)

/-- Entry (u, p, k) of the attention-map block at point t sits at (t / 16, (t % 16) · 256 + p, k) of the array. -/
theorem emb_cor (t : Fin cfg1.N) (u : Fin 1) (p : Fin 256) (k : Fin 4096) :
    ((cfg1.win 6).blk t).view.emb (ix3 u p k) = ix3 (batchOf t) (rowOf t p) k := by
  obtain ⟨e0, e1, e2⟩ := idx_cor t
  have hu : u.val = 0 := by omega
  refine funext fun a => Fin.ext ?_
  match a with
  | ⟨0, _⟩ => show win1_6.index t (0 : Fin 3) * 1 + 1 * u.val = t.val / 16; omega
  | ⟨1, _⟩ => show win1_6.index t (1 : Fin 3) * 256 + 1 * p.val = t.val % 16 * 256 + p.val; omega
  | ⟨2, _⟩ => show win1_6.index t (2 : Fin 3) * 4096 + 1 * k.val = k.val; omega

/-- What point t writes back to the attention map is its block of `corArr`. -/
theorem flushed_cor (c : Dev nD) (t : Fin cfg1.N) :
    (dat1 (F := Ideal) V c).flushed 6 t = ((cfg1.win 6).blk t).view.read (Elt Ideal) (corArr V c) := by
  show (cfg1.win 6).cut (grid1.coords t) ((dat1 (F := Ideal) V c).after 6 t) = _
  rw [after1_6]
  unfold out1_6
  rw [View.canon_unit_zero hz3]
  simp only [View.ld_unit_zero (S := S1x256x256) hz3, View.ld_unit_zero (S := S1x4096x256) hz3]
  funext j
  obtain ⟨u, p, k, rfl⟩ : ∃ (u : Fin 1) (p : Fin 256) (k : Fin 4096), j = ix3 u p k := ⟨j 0, j 1, j 2, eq_ix3 j⟩
  show k1_pay3 (F := Ideal) (iblk1 V c 0 t) (iblk1 V c 1 t) (ix3 u p k) = corArr V c (((cfg1.win 6).blk t).view.emb (ix3 u p k))
  rw [emb_cor t u p k]
  refine (pay3_apply (iblk1 V c 0 t) (iblk1 V c 1 t) u p k).trans ?_
  show _ = Spec.softK (Spec.scores (qn3 V c) (kn3 V c)) (batchOf t) (rowOf t p) k
  rw [softK_eq_softRow]
  refine congrArg (fun r => softRow r k) (funext fun k' => ?_)
  show _ = ∑ i : Fin 256, qn3 V c (batchOf t) (rowOf t p) i * kn3 V c (batchOf t) k' i
  exact Finset.sum_congr rfl fun i _ => by rw [iblk_q V c t p i, iblk_k V c t k' i]

/-- An index of the attention map is in point t's block iff each coordinate is in the block's range on its axis. -/
theorem mem_blk_cor (t : Fin cfg1.N) (i : S8x4096x4096.Idx) :
    i ∈ ((cfg1.win 6).blk t).view.set ↔ ∀ a : Fin 3, win1_6.index t a * S1x256x4096.size a ≤ (i a).val ∧ (i a).val < win1_6.index t a * S1x256x4096.size a + S1x256x4096.size a := by
  show i ∈ ((View.whole main_v8_0).slice (win1_6.rect t)).set ↔ _
  rw [View.set_slice_whole, Rect.mem_set_unit]
  exact Iff.rfl

/-- Every index of the attention map is in some point's block: row q of batch b is covered by point b · 16 + q / 256. -/
theorem cover_cor (i : S8x4096x4096.Idx) :
    ∃ t : Fin cfg1.N, (cfg1.win 6).flush t = true ∧ i ∈ ((cfg1.win 6).blk t).view.set := by
  have h0 : (i 0).val < 8 := (i 0).isLt
  have h1 : (i 1).val < 4096 := (i 1).isLt
  have h2 : (i 2).val < 4096 := (i 2).isLt
  have ht : (i 0).val * 16 + (i 1).val / 256 < cfg1.N := by show _ < 128; omega
  obtain ⟨e0, e1, e2⟩ := idx_cor ⟨(i 0).val * 16 + (i 1).val / 256, ht⟩
  have v : (⟨(i 0).val * 16 + (i 1).val / 256, ht⟩ : Fin cfg1.N).val = (i 0).val * 16 + (i 1).val / 256 := rfl
  rw [v] at e0 e1
  refine ⟨⟨(i 0).val * 16 + (i 1).val / 256, ht⟩, flush1_6 _, ?_⟩
  rw [mem_blk_cor]
  intro a
  match a with
  | ⟨0, _⟩ => show win1_6.index ⟨(i 0).val * 16 + (i 1).val / 256, ht⟩ (0 : Fin 3) * 1 ≤ (i 0).val ∧ (i 0).val < win1_6.index ⟨(i 0).val * 16 + (i 1).val / 256, ht⟩ (0 : Fin 3) * 1 + 1; omega
  | ⟨1, _⟩ => show win1_6.index ⟨(i 0).val * 16 + (i 1).val / 256, ht⟩ (1 : Fin 3) * 256 ≤ (i 1).val ∧ (i 1).val < win1_6.index ⟨(i 0).val * 16 + (i 1).val / 256, ht⟩ (1 : Fin 3) * 256 + 256; omega
  | ⟨2, _⟩ => show win1_6.index ⟨(i 0).val * 16 + (i 1).val / 256, ht⟩ (2 : Fin 3) * 4096 ≤ (i 2).val ∧ (i 2).val < win1_6.index ⟨(i 0).val * 16 + (i 1).val / 256, ht⟩ (2 : Fin 3) * 4096 + 4096; omega

/-- After the region the attention-map array is `corArr`. -/
theorem cor_arr (c : Dev nD) : (dat1 (F := Ideal) V c).arrAt 6 cfg1.N = corArr V c :=
  (dat1 (F := Ideal) V c).arrAt_eq_of_cover 6 (corArr V c) (fun t _ => flushed_cor V c t) cover_cor

/-! ## The output sequence -/

/-- What the output-sequence array ends holding: at (b, r, o) the residual plus the output projection of the attended values. -/
def outArr (c : Dev nD) : S8x4096x256.Idx → EReal := fun j =>
  Spec.outp (qf3 V c) (Spec.attn (Spec.softK (Spec.scores (qn3 V c) (kn3 V c))) (vp3 V c)) (wo2 V c) (bo1 V c) (j 0) (j 1) (j 2)

/-- Entry (u, p, o) of the output block at point t sits at (t / 16, (t % 16) · 256 + p, o) of the array. -/
theorem emb_out (t : Fin cfg1.N) (u : Fin 1) (p o : Fin 256) :
    ((cfg1.win 7).blk t).view.emb (ix3 u p o) = ix3 (batchOf t) (rowOf t p) o := by
  obtain ⟨e0, e1, e2⟩ := idx_out t
  have hu : u.val = 0 := by omega
  refine funext fun a => Fin.ext ?_
  match a with
  | ⟨0, _⟩ => show win1_7.index t (0 : Fin 3) * 1 + 1 * u.val = t.val / 16; omega
  | ⟨1, _⟩ => show win1_7.index t (1 : Fin 3) * 256 + 1 * p.val = t.val % 16 * 256 + p.val; omega
  | ⟨2, _⟩ => show win1_7.index t (2 : Fin 3) * 256 + 1 * o.val = o.val; omega

/-- What point t writes back to the output sequence is its block of `outArr`: the softmax rows of the block's queries
    against the batch's keys, summed against the batch's values, projected, plus bias and residual. -/
theorem flushed_out (c : Dev nD) (t : Fin cfg1.N) :
    (dat1 (F := Ideal) V c).flushed 7 t = ((cfg1.win 7).blk t).view.read (Elt Ideal) (outArr V c) := by
  show (cfg1.win 7).cut (grid1.coords t) ((dat1 (F := Ideal) V c).after 7 t) = _
  rw [after1_7]
  unfold out1_7
  rw [View.canon_unit_zero hz3]
  simp only [View.ld_unit_zero (S := S1x256x256) hz3, View.ld_unit_zero (S := S1x4096x256) hz3,
    View.ld_unit_zero (S := S256x256) hz2, View.ld_unit_zero (S := S1x256) hz2]
  funext j
  obtain ⟨u, p, o, rfl⟩ : ∃ (u : Fin 1) (p : Fin 256) (o : Fin 256), j = ix3 u p o := ⟨j 0, j 1, j 2, eq_ix3 j⟩
  show k1_pay1 (F := Ideal) (k1_pay4 (F := Ideal) (iblk1 V c 0 t) (iblk1 V c 1 t) (iblk1 V c 2 t) (iblk1 V c 4 t) (iblk1 V c 5 t)) (k1_pay5 (F := Ideal) (iblk1 V c 3 t)) (ix3 u p o)
    = outArr V c (((cfg1.win 7).blk t).view.emb (ix3 u p o))
  rw [emb_out t u p o]
  refine (pay1_apply (iblk1 V c 0 t) (iblk1 V c 1 t) (iblk1 V c 2 t) (iblk1 V c 3 t) (iblk1 V c 4 t) (iblk1 V c 5 t) u p o).trans ?_
  show _ = qf3 V c (batchOf t) (rowOf t p) o
    + ((∑ i : Fin 256, (∑ k : Fin 4096, Spec.softK (Spec.scores (qn3 V c) (kn3 V c)) (batchOf t) (rowOf t p) k * vp3 V c (batchOf t) k i) * wo2 V c o i)
      + bo1 V c o)
  rw [iblk_x V c t p o, iblk_b V c t o]
  refine congrArg (fun z => qf3 V c (batchOf t) (rowOf t p) o + (z + bo1 V c o)) (Finset.sum_congr rfl fun i _ => ?_)
  rw [iblk_w V c t o i]
  refine congrArg (· * wo2 V c o i) (Finset.sum_congr rfl fun k _ => ?_)
  rw [iblk_v V c t k i, softK_eq_softRow]
  refine congrArg (fun r => softRow r k * vp3 V c (batchOf t) k i) (funext fun k' => ?_)
  show _ = ∑ i : Fin 256, qn3 V c (batchOf t) (rowOf t p) i * kn3 V c (batchOf t) k' i
  exact Finset.sum_congr rfl fun i _ => by rw [iblk_q V c t p i, iblk_k V c t k' i]

/-- An index of the output sequence is in point t's block iff each coordinate is in the block's range on its axis. -/
theorem mem_blk_out (t : Fin cfg1.N) (i : S8x4096x256.Idx) :
    i ∈ ((cfg1.win 7).blk t).view.set ↔ ∀ a : Fin 3, win1_7.index t a * S1x256x256.size a ≤ (i a).val ∧ (i a).val < win1_7.index t a * S1x256x256.size a + S1x256x256.size a := by
  show i ∈ ((View.whole main_v8_1).slice (win1_7.rect t)).set ↔ _
  rw [View.set_slice_whole, Rect.mem_set_unit]
  exact Iff.rfl

/-- Every index of the output sequence is in some point's block: row r of batch b is covered by point b · 16 + r / 256. -/
theorem cover_out (i : S8x4096x256.Idx) :
    ∃ t : Fin cfg1.N, (cfg1.win 7).flush t = true ∧ i ∈ ((cfg1.win 7).blk t).view.set := by
  have h0 : (i 0).val < 8 := (i 0).isLt
  have h1 : (i 1).val < 4096 := (i 1).isLt
  have h2 : (i 2).val < 256 := (i 2).isLt
  have ht : (i 0).val * 16 + (i 1).val / 256 < cfg1.N := by show _ < 128; omega
  obtain ⟨e0, e1, e2⟩ := idx_out ⟨(i 0).val * 16 + (i 1).val / 256, ht⟩
  have v : (⟨(i 0).val * 16 + (i 1).val / 256, ht⟩ : Fin cfg1.N).val = (i 0).val * 16 + (i 1).val / 256 := rfl
  rw [v] at e0 e1
  refine ⟨⟨(i 0).val * 16 + (i 1).val / 256, ht⟩, flush1_7 _, ?_⟩
  rw [mem_blk_out]
  intro a
  match a with
  | ⟨0, _⟩ => show win1_7.index ⟨(i 0).val * 16 + (i 1).val / 256, ht⟩ (0 : Fin 3) * 1 ≤ (i 0).val ∧ (i 0).val < win1_7.index ⟨(i 0).val * 16 + (i 1).val / 256, ht⟩ (0 : Fin 3) * 1 + 1; omega
  | ⟨1, _⟩ => show win1_7.index ⟨(i 0).val * 16 + (i 1).val / 256, ht⟩ (1 : Fin 3) * 256 ≤ (i 1).val ∧ (i 1).val < win1_7.index ⟨(i 0).val * 16 + (i 1).val / 256, ht⟩ (1 : Fin 3) * 256 + 256; omega
  | ⟨2, _⟩ => show win1_7.index ⟨(i 0).val * 16 + (i 1).val / 256, ht⟩ (2 : Fin 3) * 256 ≤ (i 2).val ∧ (i 2).val < win1_7.index ⟨(i 0).val * 16 + (i 1).val / 256, ht⟩ (2 : Fin 3) * 256 + 256; omega

/-- After the region the output-sequence array is `outArr`. -/
theorem out_arr (c : Dev nD) : (dat1 (F := Ideal) V c).arrAt 7 cfg1.N = outArr V c :=
  (dat1 (F := Ideal) V c).arrAt_eq_of_cover 7 (outArr V c) (fun t _ => flushed_out V c t) cover_out

/-- After the region the attention-map array holds, at (b, q, k), the row softmax of the logits. -/
theorem cor_final (c : Dev nD) (b : Fin 8) (q k : Fin 4096) :
    (dat1 (F := Ideal) V c).arrAt 6 cfg1.N (ix3 b q k) = Spec.softK (Spec.scores (qn3 V c) (kn3 V c)) b q k := by
  rw [cor_arr V c]
  rfl

/-- The output sequence holds the residual plus the output projection of the attended values. -/
theorem out_final (c : Dev nD) (b : Fin 8) (r : Fin 4096) (o : Fin 256) :
    (dat1 (F := Ideal) V c).arrAt 7 cfg1.N (ix3 b r o)
      = Spec.outp (qf3 V c) (Spec.attn (Spec.softK (Spec.scores (qn3 V c) (kn3 V c))) (vp3 V c)) (wo2 V c) (bo1 V c) b r o := by
  rw [out_arr V c]
  rfl

end Cert.KernelIdeal.R1

end
-- ==== Proof.Compose.lean ====
/-
  The idealized kernel program's three results, index by index, in the coordinates of `Spec`.

  The program is: seven reshapes on the host (the three image batches flattened to token sequences, the four biases
  recast as rows), the projection region, the attention region, one reshape back to an image batch. What a buffer
  holds at each boundary is read through that chain: a reshape is the same entries in row-major order, a region
  leaves in its output arrays the functions proved of it in `Region0` / `Region1` and touches nothing else.
-/
import proofs.«418456_j79345225826758_3_alg».proof.Proof.KRun
import proofs.«418456_j79345225826758_3_alg».proof.Proof.Region0
import proofs.«418456_j79345225826758_3_alg».proof.Proof.Region1
import Idealize.ShloMosaic.Lib.StableHlo.Run

set_option maxRecDepth 16384

noncomputable section

namespace Cert.KernelIdeal.Compose

open Cert.KernelIdeal Cert.KernelIdeal.Gen Idealize.ShloMosaic Idealize.ShloMosaic.TcCoe Idealize.SL.Sem
open Idealize.ShloMosaic.ValueIdx Idealize.ShloMosaic.StableHlo

/-! ## Reshapes by coordinates -/

/-- An image batch flattened to a token sequence holds, at (b, r, i), pixel (r / 64, r % 64). -/
theorem flatten_apply (X : (⟨4, ![8, 64, 64, 256]⟩ : Shape).Idx → EReal)
    (h : (⟨4, ![8, 64, 64, 256]⟩ : Shape).ShapeCasts ⟨3, ![8, 4096, 256]⟩) (b : Fin 8) (r : Fin 4096) (i : Fin 256) :
    shapeCast ⟨3, ![8, 4096, 256]⟩ X h (ix3 b r i) = Spec.flat X b r i := by
  unfold Spec.flat
  refine shapeCast_apply X h _ _ ?_
  rw [Shape.rowMajor_val_four, Shape.rowMajor_val_three]
  have hb := b.isLt
  have hr := r.isLt
  have hi := i.isLt
  show ((b.val * 64 + r.val / 64) * 64 + r.val % 64) * 256 + i.val = (b.val * 4096 + r.val) * 256 + i.val
  omega

/-- A token sequence recast as an image batch holds, at pixel (h, w), token 64 h + w. -/
theorem unflatten_apply (Y : (⟨3, ![8, 4096, 256]⟩ : Shape).Idx → EReal)
    (hc : (⟨3, ![8, 4096, 256]⟩ : Shape).ShapeCasts ⟨4, ![8, 64, 64, 256]⟩) (b : Fin 8) (h w : Fin 64) (o : Fin 256) :
    shapeCast ⟨4, ![8, 64, 64, 256]⟩ Y hc (ix4 b h w o) = Y (ix3 b (Spec.tok h w) o) := by
  refine shapeCast_apply Y hc _ _ ?_
  rw [Shape.rowMajor_val_four, Shape.rowMajor_val_three]
  have hb := b.isLt
  have hh := h.isLt
  have hw := w.isLt
  have ho := o.isLt
  show (b.val * 4096 + (h.val * 64 + w.val)) * 256 + o.val = ((b.val * 64 + h.val) * 64 + w.val) * 256 + o.val
  omega

/-- A bias vector recast as a row holds, at (0, o), entry o. -/
theorem row_apply (B : (⟨1, ![256]⟩ : Shape).Idx → EReal)
    (h : (⟨1, ![256]⟩ : Shape).ShapeCasts ⟨2, ![1, 256]⟩) (o : Fin 256) :
    shapeCast ⟨2, ![1, 256]⟩ B h (ix2 (0 : Fin 1) o) = Spec.vec B o := by
  unfold Spec.vec
  refine shapeCast_apply B h _ _ ?_
  rw [Shape.rowMajor_val_two, Shape.rowMajor_val_one]
  show o.val = 0 * 256 + o.val
  omega

/-! ## The projection region's entry contents: the launch arrays through the seven reshapes -/

variable (m : (ℓ : Loc nD τ sig) → Buf (Elt Ideal) ℓ) (ρ : Dev nD → PrngReg)

theorem entry0_seq0 (c : Dev nD) : R0.q3 (V1 m ρ) c = Spec.flat (m ((c : Thread nD τ).loc main_arg0)) := by
  funext b r i
  have e : (V1 m ρ c (Pipeline.arrRef spec0 0) : S8x4096x256.Idx → EReal)
      = shapeCast S8x4096x256 (m ((c : Thread nD τ).loc main_arg0)) shapeCasts_S8x64x64x256_S8x4096x256 := by
    show StableHlo.after hostOps0 (W0 m ρ c) (Proc.devRef .tc main_v0) = _
    after_results; rfl
  show (V1 m ρ c (Pipeline.arrRef spec0 0) : S8x4096x256.Idx → EReal) (ix3 b r i) = _
  rw [e]; exact flatten_apply _ _ b r i

theorem entry0_seq1 (c : Dev nD) : R0.e3 (V1 m ρ) c = Spec.flat (m ((c : Thread nD τ).loc main_arg1)) := by
  funext b r i
  have e : (V1 m ρ c (Pipeline.arrRef spec0 1) : S8x4096x256.Idx → EReal)
      = shapeCast S8x4096x256 (m ((c : Thread nD τ).loc main_arg1)) shapeCasts_S8x64x64x256_S8x4096x256 := by
    show StableHlo.after hostOps0 (W0 m ρ c) (Proc.devRef .tc main_v1) = _
    after_results; rfl
  show (V1 m ρ c (Pipeline.arrRef spec0 1) : S8x4096x256.Idx → EReal) (ix3 b r i) = _
  rw [e]; exact flatten_apply _ _ b r i

theorem entry0_seq2 (c : Dev nD) : R0.v3 (V1 m ρ) c = Spec.flat (m ((c : Thread nD τ).loc main_arg2)) := by
  funext b r i
  have e : (V1 m ρ c (Pipeline.arrRef spec0 2) : S8x4096x256.Idx → EReal)
      = shapeCast S8x4096x256 (m ((c : Thread nD τ).loc main_arg2)) shapeCasts_S8x64x64x256_S8x4096x256 := by
    show StableHlo.after hostOps0 (W0 m ρ c) (Proc.devRef .tc main_v2) = _
    after_results; rfl
  show (V1 m ρ c (Pipeline.arrRef spec0 2) : S8x4096x256.Idx → EReal) (ix3 b r i) = _
  rw [e]; exact flatten_apply _ _ b r i

theorem entry0_wg (c : Dev nD) : R0.wg2 (V1 m ρ) c = Spec.mat (m ((c : Thread nD τ).loc main_arg3)) := by
  funext o i
  have e : (V1 m ρ c (Pipeline.arrRef spec0 3) : S256x256.Idx → EReal) = m ((c : Thread nD τ).loc main_arg3) := by
    show StableHlo.after hostOps0 (W0 m ρ c) (Proc.devRef .tc main_arg3) = _
    after_results
  show (V1 m ρ c (Pipeline.arrRef spec0 3) : S256x256.Idx → EReal) (ix2 o i) = _
  rw [e]; rfl

theorem entry0_wt (c : Dev nD) : R0.wt2 (V1 m ρ) c = Spec.mat (m ((c : Thread nD τ).loc main_arg5)) := by
  funext o i
  have e : (V1 m ρ c (Pipeline.arrRef spec0 5) : S256x256.Idx → EReal) = m ((c : Thread nD τ).loc main_arg5) := by
    show StableHlo.after hostOps0 (W0 m ρ c) (Proc.devRef .tc main_arg5) = _
    after_results
  show (V1 m ρ c (Pipeline.arrRef spec0 5) : S256x256.Idx → EReal) (ix2 o i) = _
  rw [e]; rfl

theorem entry0_wa (c : Dev nD) : R0.wa2 (V1 m ρ) c = Spec.mat (m ((c : Thread nD τ).loc main_arg7)) := by
  funext o i
  have e : (V1 m ρ c (Pipeline.arrRef spec0 7) : S256x256.Idx → EReal) = m ((c : Thread nD τ).loc main_arg7) := by
    show StableHlo.after hostOps0 (W0 m ρ c) (Proc.devRef .tc main_arg7) = _
    after_results
  show (V1 m ρ c (Pipeline.arrRef spec0 7) : S256x256.Idx → EReal) (ix2 o i) = _
  rw [e]; rfl

theorem entry0_bg (c : Dev nD) : R0.bg1 (V1 m ρ) c = Spec.vec (m ((c : Thread nD τ).loc main_arg4)) := by
  funext o
  have e : (V1 m ρ c (Pipeline.arrRef spec0 4) : S1x256.Idx → EReal)
      = shapeCast S1x256 (m ((c : Thread nD τ).loc main_arg4)) shapeCasts_S256_S1x256 := by
    show StableHlo.after hostOps0 (W0 m ρ c) (Proc.devRef .tc main_v3) = _
    after_results; rfl
  show (V1 m ρ c (Pipeline.arrRef spec0 4) : S1x256.Idx → EReal) (ix2 (0 : Fin 1) o) = _
  rw [e]; exact row_apply _ _ o

theorem entry0_bt (c : Dev nD) : R0.bt1 (V1 m ρ) c = Spec.vec (m ((c : Thread nD τ).loc main_arg6)) := by
  funext o
  have e : (V1 m ρ c (Pipeline.arrRef spec0 6) : S1x256.Idx → EReal)
      = shapeCast S1x256 (m ((c : Thread nD τ).loc main_arg6)) shapeCasts_S256_S1x256 := by
    show StableHlo.after hostOps0 (W0 m ρ c) (Proc.devRef .tc main_v4) = _
    after_results; rfl
  show (V1 m ρ c (Pipeline.arrRef spec0 6) : S1x256.Idx → EReal) (ix2 (0 : Fin 1) o) = _
  rw [e]; exact row_apply _ _ o

theorem entry0_ba (c : Dev nD) : R0.ba1 (V1 m ρ) c = Spec.vec (m ((c : Thread nD τ).loc main_arg8)) := by
  funext o
  have e : (V1 m ρ c (Pipeline.arrRef spec0 8) : S1x256.Idx → EReal)
      = shapeCast S1x256 (m ((c : Thread nD τ).loc main_arg8)) shapeCasts_S256_S1x256 := by
    show StableHlo.after hostOps0 (W0 m ρ c) (Proc.devRef .tc main_v5) = _
    after_results; rfl
  show (V1 m ρ c (Pipeline.arrRef spec0 8) : S1x256.Idx → EReal) (ix2 (0 : Fin 1) o) = _
  rw [e]; exact row_apply _ _ o

/-! ## What the projection region leaves -/

/-- The normalized queries, from the launch arrays. -/
theorem qn_arr (c : Dev nD) (b : Fin 8) (r : Fin 4096) (o : Fin 256) :
    (dat0 (F := Ideal) (V1 m ρ) c).arrAt 9 cfg0.N (ix3 b r o)
      = Spec.normK (Spec.proj (Spec.flat (m ((c : Thread nD τ).loc main_arg0))) (Spec.mat (m ((c : Thread nD τ).loc main_arg3))) (Spec.vec (m ((c : Thread nD τ).loc main_arg4)))) b r o := by
  rw [R0.qn_final, entry0_seq0, entry0_wg, entry0_bg]

/-- The normalized keys. -/
theorem kn_arr (c : Dev nD) (b : Fin 8) (r : Fin 4096) (o : Fin 256) :
    (dat0 (F := Ideal) (V1 m ρ) c).arrAt 10 cfg0.N (ix3 b r o)
      = Spec.normK (Spec.proj (Spec.flat (m ((c : Thread nD τ).loc main_arg1))) (Spec.mat (m ((c : Thread nD τ).loc main_arg5))) (Spec.vec (m ((c : Thread nD τ).loc main_arg6)))) b r o := by
  rw [R0.kn_final, entry0_seq1, entry0_wt, entry0_bt]

/-- The projected values, and their second copy. -/
theorem vp_arr (c : Dev nD) (b : Fin 8) (r : Fin 4096) (o : Fin 256) :
    (dat0 (F := Ideal) (V1 m ρ) c).arrAt 11 cfg0.N (ix3 b r o)
      = Spec.proj (Spec.flat (m ((c : Thread nD τ).loc main_arg2))) (Spec.mat (m ((c : Thread nD τ).loc main_arg7))) (Spec.vec (m ((c : Thread nD τ).loc main_arg8))) b r o := by
  rw [R0.vp_final, entry0_seq2, entry0_wa, entry0_ba]

theorem vpb_arr (c : Dev nD) (b : Fin 8) (r : Fin 4096) (o : Fin 256) :
    (dat0 (F := Ideal) (V1 m ρ) c).arrAt 12 cfg0.N (ix3 b r o)
      = Spec.proj (Spec.flat (m ((c : Thread nD τ).loc main_arg2))) (Spec.mat (m ((c : Thread nD τ).loc main_arg7))) (Spec.vec (m ((c : Thread nD τ).loc main_arg8))) b r o := by
  rw [R0.vpb_final, entry0_seq2, entry0_wa, entry0_ba]

/-! ## The attention region's entry contents: three arrays the projection region wrote, the flattened query batch,
    the output weight as launched and the output bias as a row -/

theorem entry1_qn (c : Dev nD) :
    R1.qn3 (V2 m ρ) c = Spec.normK (Spec.proj (Spec.flat (m ((c : Thread nD τ).loc main_arg0))) (Spec.mat (m ((c : Thread nD τ).loc main_arg3))) (Spec.vec (m ((c : Thread nD τ).loc main_arg4)))) := by
  funext b r i
  have e : (V2 m ρ c (Pipeline.arrRef spec1 0) : S8x4096x256.Idx → EReal) = (dat0 (F := Ideal) (V1 m ρ) c).arrAt 9 cfg0.N :=
    W2_arr m ρ c 9
  show (V2 m ρ c (Pipeline.arrRef spec1 0) : S8x4096x256.Idx → EReal) (ix3 b r i) = _
  rw [e]; exact qn_arr m ρ c b r i

theorem entry1_kn (c : Dev nD) :
    R1.kn3 (V2 m ρ) c = Spec.normK (Spec.proj (Spec.flat (m ((c : Thread nD τ).loc main_arg1))) (Spec.mat (m ((c : Thread nD τ).loc main_arg5))) (Spec.vec (m ((c : Thread nD τ).loc main_arg6)))) := by
  funext b r i
  have e : (V2 m ρ c (Pipeline.arrRef spec1 1) : S8x4096x256.Idx → EReal) = (dat0 (F := Ideal) (V1 m ρ) c).arrAt 10 cfg0.N :=
    W2_arr m ρ c 10
  show (V2 m ρ c (Pipeline.arrRef spec1 1) : S8x4096x256.Idx → EReal) (ix3 b r i) = _
  rw [e]; exact kn_arr m ρ c b r i

theorem entry1_vp (c : Dev nD) :
    R1.vp3 (V2 m ρ) c = Spec.proj (Spec.flat (m ((c : Thread nD τ).loc main_arg2))) (Spec.mat (m ((c : Thread nD τ).loc main_arg7))) (Spec.vec (m ((c : Thread nD τ).loc main_arg8))) := by
  funext b r i
  have e : (V2 m ρ c (Pipeline.arrRef spec1 2) : S8x4096x256.Idx → EReal) = (dat0 (F := Ideal) (V1 m ρ) c).arrAt 12 cfg0.N :=
    W2_arr m ρ c 12
  show (V2 m ρ c (Pipeline.arrRef spec1 2) : S8x4096x256.Idx → EReal) (ix3 b r i) = _
  rw [e]; exact vpb_arr m ρ c b r i

theorem entry1_qf (c : Dev nD) : R1.qf3 (V2 m ρ) c = Spec.flat (m ((c : Thread nD τ).loc main_arg0)) := by
  funext b r i
  have e : (V2 m ρ c (Pipeline.arrRef spec1 3) : S8x4096x256.Idx → EReal) = V1 m ρ c (Pipeline.arrRef spec0 0) :=
    (W2_arr m ρ c 0).trans (((dat0 (F := Ideal) (V1 m ρ) c).arrAt_in 0 rfl _).trans (A_eq0 (V1 m ρ) c 0))
  show (V2 m ρ c (Pipeline.arrRef spec1 3) : S8x4096x256.Idx → EReal) (ix3 b r i) = _
  rw [e]; exact congrFun (congrFun (congrFun (entry0_seq0 m ρ c) b) r) i

theorem entry1_wo (c : Dev nD) : R1.wo2 (V2 m ρ) c = Spec.mat (m ((c : Thread nD τ).loc main_arg9)) := by
  funext o i
  have e : (V2 m ρ c (Pipeline.arrRef spec1 4) : S256x256.Idx → EReal) = m ((c : Thread nD τ).loc main_arg9) := by
    refine (W2_of_ne m ρ c main_arg9 (by decide)).trans ?_
    show StableHlo.after hostOps0 (W0 m ρ c) (Proc.devRef .tc main_arg9) = _
    after_results
  show (V2 m ρ c (Pipeline.arrRef spec1 4) : S256x256.Idx → EReal) (ix2 o i) = _
  rw [e]; rfl

theorem entry1_bo (c : Dev nD) : R1.bo1 (V2 m ρ) c = Spec.vec (m ((c : Thread nD τ).loc main_arg10)) := by
  funext o
  have e : (V2 m ρ c (Pipeline.arrRef spec1 5) : S1x256.Idx → EReal)
      = shapeCast S1x256 (m ((c : Thread nD τ).loc main_arg10)) shapeCasts_S256_S1x256 := by
    refine (W2_of_ne m ρ c main_v6 (by decide)).trans ?_
    show StableHlo.after hostOps0 (W0 m ρ c) (Proc.devRef .tc main_v6) = _
    after_results; rfl
  show (V2 m ρ c (Pipeline.arrRef spec1 5) : S1x256.Idx → EReal) (ix2 (0 : Fin 1) o) = _
  rw [e]; exact row_apply _ _ o

/-! ## The three results -/

/-- The attention map the program returns. -/
theorem cor_result (c : Dev nD) (b : Fin 8) (q k : Fin 4096) :
    (W4 m ρ c (Proc.devRef .tc main_v8_0) : S8x4096x4096.Idx → EReal) (ix3 b q k)
      = Spec.corK (Spec.flat (m ((c : Thread nD τ).loc main_arg0))) (Spec.flat (m ((c : Thread nD τ).loc main_arg1))) (Spec.mat (m ((c : Thread nD τ).loc main_arg3))) (Spec.vec (m ((c : Thread nD τ).loc main_arg4)))
          (Spec.mat (m ((c : Thread nD τ).loc main_arg5))) (Spec.vec (m ((c : Thread nD τ).loc main_arg6))) b q k := by
  have e : (W4 m ρ c (Proc.devRef .tc main_v8_0) : S8x4096x4096.Idx → EReal) = (dat1 (F := Ideal) (V2 m ρ) c).arrAt 6 cfg1.N := by
    refine Eq.trans ?_ (W3_arr m ρ c 6)
    show StableHlo.after hostOps2 (W3 m ρ c) (Proc.devRef .tc main_v8_0) = _
    after_results
  rw [e, R1.cor_final, entry1_qn, entry1_kn]
  rfl

/-- The projected values the program returns. -/
theorem vp_result (c : Dev nD) (b : Fin 8) (r : Fin 4096) (o : Fin 256) :
    (W4 m ρ c (Proc.devRef .tc main_v7_2) : S8x4096x256.Idx → EReal) (ix3 b r o)
      = Spec.proj (Spec.flat (m ((c : Thread nD τ).loc main_arg2))) (Spec.mat (m ((c : Thread nD τ).loc main_arg7))) (Spec.vec (m ((c : Thread nD τ).loc main_arg8))) b r o := by
  have e : (W4 m ρ c (Proc.devRef .tc main_v7_2) : S8x4096x256.Idx → EReal) = (dat0 (F := Ideal) (V1 m ρ) c).arrAt 11 cfg0.N := by
    refine Eq.trans ?_ (W2_arr m ρ c 11)
    refine Eq.trans ?_ (W3_of_ne m ρ c main_v7_2 (by decide))
    show StableHlo.after hostOps2 (W3 m ρ c) (Proc.devRef .tc main_v7_2) = _
    after_results
  rw [e]; exact vp_arr m ρ c b r o

/-- The image output the program returns: at pixel (h, w), token 64 h + w of the attention region's output sequence. -/
theorem out_result (c : Dev nD) (b : Fin 8) (h w : Fin 64) (o : Fin 256) :
    (W4 m ρ c (Proc.devRef .tc main_v9) : S8x64x64x256.Idx → EReal) (ix4 b h w o)
      = Spec.outK (Spec.flat (m ((c : Thread nD τ).loc main_arg0))) (Spec.flat (m ((c : Thread nD τ).loc main_arg1))) (Spec.flat (m ((c : Thread nD τ).loc main_arg2))) (Spec.mat (m ((c : Thread nD τ).loc main_arg3))) (Spec.vec (m ((c : Thread nD τ).loc main_arg4)))
          (Spec.mat (m ((c : Thread nD τ).loc main_arg5))) (Spec.vec (m ((c : Thread nD τ).loc main_arg6))) (Spec.mat (m ((c : Thread nD τ).loc main_arg7))) (Spec.vec (m ((c : Thread nD τ).loc main_arg8))) (Spec.mat (m ((c : Thread nD τ).loc main_arg9))) (Spec.vec (m ((c : Thread nD τ).loc main_arg10)))
          b (Spec.tok h w) o := by
  have e : (W4 m ρ c (Proc.devRef .tc main_v9) : S8x64x64x256.Idx → EReal)
      = shapeCast S8x64x64x256 ((dat1 (F := Ideal) (V2 m ρ) c).arrAt 7 cfg1.N) shapeCasts_S8x4096x256_S8x64x64x256 := by
    rw [← W3_arr m ρ c 7]
    show StableHlo.after hostOps2 (W3 m ρ c) (Proc.devRef .tc main_v9) = _
    after_results; rfl
  rw [e, unflatten_apply, R1.out_final, entry1_qn, entry1_kn, entry1_vp, entry1_qf, entry1_wo, entry1_bo]
  rfl

end Cert.KernelIdeal.Compose

end
-- ==== Proof.RefSide.lean ====
/-
  The reference's three results, index by index, in the coordinates of `Spec`.
-/
import proofs.«418456_j79345225826758_3_alg».proof.Proof.Gen.ReferenceIdeal.Read
import proofs.«418456_j79345225826758_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefSide

open Cert.ReferenceIdeal Cert.ReferenceIdeal.Gen Cert.ReferenceIdeal.Read Idealize.ShloMosaic Idealize.ShloMosaic.TcCoe Idealize.SL.Sem
open Idealize.ShloMosaic.ValueIdx

variable (x0 x1 x2 : (⟨S8x64x64x256, .f32⟩ : BufTy).Contents (Elt Ideal))
  (x3 x5 x7 x9 : (⟨S256x256, .f32⟩ : BufTy).Contents (Elt Ideal))
  (x4 x6 x8 x10 : (⟨S256, .f32⟩ : BufTy).Contents (Elt Ideal))

/-! ## Index equations -/

/-- Token r of the flattened image is pixel (r / 64, r % 64): the row-major position of (b, r, o) in [8, 4096, 256]
    is that of (b, r / 64, r % 64, o) in [8, 64, 64, 256]. -/
private theorem idx_flat (b : Fin 8) (r : Fin 4096) (o : Fin 256) :
    idx_main_v4 (ix3 b r o)
      = ix4 b ⟨r.val / 64, by have := r.isLt; omega⟩ ⟨r.val % 64, by have := r.isLt; omega⟩ o := by
  have hb := b.isLt
  have hr := r.isLt
  have ho := o.isLt
  funext a
  apply Fin.ext
  match a with
  | ⟨0, _⟩ => show ((b.val * 4096 + r.val) * 256 + o.val) / 1048576 = b.val; omega
  | ⟨1, _⟩ => show ((b.val * 4096 + r.val) * 256 + o.val) / 16384 % 64 = r.val / 64; omega
  | ⟨2, _⟩ => show ((b.val * 4096 + r.val) * 256 + o.val) / 256 % 64 = r.val % 64; omega
  | ⟨3, _⟩ => show ((b.val * 4096 + r.val) * 256 + o.val) % 256 = o.val; omega

/-- Pixel (h, w) is token 64 h + w. -/
private theorem idx_unflat (b : Fin 8) (h w : Fin 64) (i : Fin 256) :
    idx_main_v34 (ix4 b h w i) = ix3 b (Spec.tok h w) i := by
  have hb := b.isLt
  have hh := h.isLt
  have hw := w.isLt
  have hi := i.isLt
  funext a
  apply Fin.ext
  match a with
  | ⟨0, _⟩ => show (((b.val * 64 + h.val) * 64 + w.val) * 256 + i.val) / 1048576 = b.val; omega
  | ⟨1, _⟩ => show (((b.val * 64 + h.val) * 64 + w.val) * 256 + i.val) / 256 % 4096 = h.val * 64 + w.val; omega
  | ⟨2, _⟩ => show (((b.val * 64 + h.val) * 64 + w.val) * 256 + i.val) % 256 = i.val; omega

/-- The contraction of a 4-D image batch with a weight matrix reads the image at (b, h, w, k) … -/
private theorem lidx_img (b : Fin 8) (h w : Fin 64) (o k : Fin 256) :
    lidx_main_v0 (ix4 b h w o) k = ix4 b h w k :=
  funext fun a => Fin.ext (by match a with | ⟨0, _⟩ => rfl | ⟨1, _⟩ => rfl | ⟨2, _⟩ => rfl | ⟨3, _⟩ => rfl)

/-- … and the weight at (o, k). -/
private theorem ridx_img (b : Fin 8) (h w : Fin 64) (o k : Fin 256) :
    ridx_main_v0 (ix4 b h w o) k = ix2 o k :=
  funext fun a => Fin.ext (by match a with | ⟨0, _⟩ => rfl | ⟨1, _⟩ => rfl)

/-- The bias broadcast to the image batch reads the bias at o. -/
private theorem idx_bias (b : Fin 8) (h w : Fin 64) (o : Fin 256) :
    idx_main_v1 (idx_main_v2 (ix4 b h w o)) = ix1 o :=
  funext fun a => Fin.ext (by match a with | ⟨0, _⟩ => rfl)

/-! ## The three projections -/

/-- The affine map on the 4-D image batch, at pixel (h, w): the sum over input channels plus the bias. -/
private theorem proj_img (b : Fin 8) (h w : Fin 64) (o : Fin 256) :
    val_main_v3 x0 x3 x4 (ix4 b h w o) = (∑ i : Fin 256, x0 (ix4 b h w i) * x3 (ix2 o i)) + x4 (ix1 o) := by
  rw [val_main_v3_apply, val_main_v0_apply, val_main_v2_apply, val_main_v1_apply, idx_bias]
  simp only [lidx_img, ridx_img]
  rfl

/-- The projected queries at (b, r, o). -/
private theorem qg_ref (b : Fin 8) (r : Fin 4096) (o : Fin 256) :
    val_main_v4 x0 x3 x4 (ix3 b r o) = Spec.proj (Spec.flat x0) (Spec.mat x3) (Spec.vec x4) b r o := by
  rw [val_main_v4_apply, idx_flat, proj_img]
  rfl

/-- The key and value projections are the query projection's program at other arguments. -/
private theorem v9_eq : val_main_v9 (F := Ideal) x1 x5 x6 = val_main_v4 (F := Ideal) x1 x5 x6 := rfl
private theorem v14_eq : val_main_v14 (F := Ideal) x2 x7 x8 = val_main_v4 (F := Ideal) x2 x7 x8 := rfl

/-! ## Unit-length rescaling -/

/-- The row sum over the channel axis reads row (b, r) at channel k. -/
private theorem idx_chan (b : Fin 8) (r : Fin 4096) (k : Fin 256) :
    idx_main_call0_v1 (ix2 b r) k = ix3 b r k :=
  funext fun a => Fin.ext (by match a with | ⟨0, _⟩ => rfl | ⟨1, _⟩ => rfl | ⟨2, _⟩ => rfl)

/-- The keepdims column reads the row's entry. -/
private theorem idx_col (b : Fin 8) (r : Fin 4096) (u : Fin 1) :
    idx_main_call0_v2 (ix3 b r u) = ix2 b r :=
  funext fun a => Fin.ext (by match a with | ⟨0, _⟩ => rfl | ⟨1, _⟩ => rfl)

/-- The column broadcast along the channels reads the column at (b, r, 0). -/
private theorem idx_keep (b : Fin 8) (r : Fin 4096) (o : Fin 256) :
    idx_main_v16 (ix3 b r o) = ix3 b r (0 : Fin 1) :=
  funext fun a => Fin.ext (by match a with | ⟨0, _⟩ => rfl | ⟨1, _⟩ => rfl | ⟨2, _⟩ => rfl)

/-- The squared length of a projected query token: the sum from zero of the squares. -/
private theorem sumsq_ref (b : Fin 8) (r : Fin 4096) :
    val_main_call0_v1 x0 x3 x4 (ix2 b r)
      = Spec.sumsq (Spec.proj (Spec.flat x0) (Spec.mat x3) (Spec.vec x4)) b r := by
  rw [val_main_call0_v1_apply, val_main_call0_cst_apply, Ideal.ofBits_def, Ideal.ofBits_zero_f32, zero_add]
  unfold Spec.sumsq
  refine Finset.sum_congr rfl fun k _ => ?_
  rw [idx_chan, val_main_call0_v0_apply, qg_ref]
  rfl

/-- The length of a projected query token, as the keepdims column. -/
private theorem norm_ref (b : Fin 8) (r : Fin 4096) (u : Fin 1) :
    val_main_v15 x0 x3 x4 (ix3 b r u)
      = Ideal.sqrt (Spec.sumsq (Spec.proj (Spec.flat x0) (Spec.mat x3) (Spec.vec x4)) b r) := by
  rw [val_main_v15_apply, val_main_call0_v2_apply, idx_col, sumsq_ref]
  rfl

/-- The unit-length queries: the quotient of the projected token by its length. -/
private theorem qn_ref (b : Fin 8) (r : Fin 4096) (o : Fin 256) :
    val_main_v17 x0 x3 x4 (ix3 b r o)
      = Spec.normR (Spec.proj (Spec.flat x0) (Spec.mat x3) (Spec.vec x4)) b r o := by
  rw [val_main_v17_apply, val_main_v16_apply, idx_keep, norm_ref, qg_ref]
  rfl

/-- The keys are rescaled by the same program at other arguments. -/
private theorem v20_eq : val_main_v20 (F := Ideal) x1 x5 x6 = val_main_v17 (F := Ideal) x1 x5 x6 := rfl

/-! ## The logits -/

private theorem lidx_sc (b : Fin 8) (q k : Fin 4096) (c : Fin 256) :
    lidx_main_v21 (ix3 b q k) c = ix3 b q c :=
  funext fun a => Fin.ext (by match a with | ⟨0, _⟩ => rfl | ⟨1, _⟩ => rfl | ⟨2, _⟩ => rfl)

private theorem ridx_sc (b : Fin 8) (q k : Fin 4096) (c : Fin 256) :
    ridx_main_v21 (ix3 b q k) c = ix3 b k c :=
  funext fun a => Fin.ext (by match a with | ⟨0, _⟩ => rfl | ⟨1, _⟩ => rfl | ⟨2, _⟩ => rfl)

/-- The logit of query token q against key token k: the sum over channels of the products of the unit vectors. -/
private theorem scores_ref (b : Fin 8) (q k : Fin 4096) :
    val_main_v21 x0 x1 x3 x4 x5 x6 (ix3 b q k)
      = Spec.scores (Spec.normR (Spec.proj (Spec.flat x0) (Spec.mat x3) (Spec.vec x4)))
          (Spec.normR (Spec.proj (Spec.flat x1) (Spec.mat x5) (Spec.vec x6))) b q k := by
  rw [val_main_v21_apply]
  unfold Spec.scores
  refine Finset.sum_congr rfl fun c _ => ?_
  rw [lidx_sc, ridx_sc, qn_ref, v20_eq, qn_ref]

/-! ## The row softmax -/

/-- Over row (b, q), the source index whose coordinate on the dropped last axis is k is (b, q, k). -/
private theorem lift_last {n0 n1 n2 : ℕ} (h : (⟨3, ![n0, n1, n2]⟩ : Shape).Reduces [2] ⟨2, ![n0, n1]⟩) (b : Fin n0) (q : Fin n1)
    (k : Fin ((⟨3, ![n0, n1, n2]⟩ : Shape).size 2)) : h.lift (ix2 b q) k = ix3 b q (⟨k.val, k.isLt⟩ : Fin n2) := by
  funext c; apply Fin.ext
  fin_cases c <;> rfl

/-- The host's maximum along the last axis of a rank-3 array, at row (b, q), is the fold of max over the row's entries from
    the initial value. -/
private theorem hostMax_last {n0 n1 n2 : ℕ} {φ : FTy} {u : Shape} (x : FVec Ideal ⟨3, ![n0, n1, n2]⟩ φ) (init : u.Idx → Ideal φ)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (b : Fin n0) (q : Fin n1) :
    Host.reduce FloatOps.maximumf x init h' hu (ix2 b q)
      = (Finset.univ : Finset (Fin n2)).fold max (init (Shape.Idx.first hu)) (fun k => x (ix3 b q k)) := by
  refine (Host.reduce_eq_fold_single FloatOps.maximumf x init h' h hu (ix2 b q)).trans ?_
  have hf : (x ∘ h.lift (ix2 b q)) = fun k : Fin n2 => x (ix3 b q k) := funext fun k => congrArg x (lift_last h b q k)
  exact congrArg (fun f => Finset.fold max (init (Shape.Idx.first hu)) f (Finset.univ : Finset (Fin n2))) hf

/-- The word of minus infinity is the bottom element. -/
private theorem neg_inf : Ideal.ofBits .f32 0xFF800000#32 = (⊥ : EReal) := by
  simp [Ideal.ofBits, Ideal.ieee]

private theorem redKey : S8x4096x4096.Reduces [2] S8x4096 := by decide

/-- The row maximum of the logits: the fold of max from the bottom element over the key axis. -/
private theorem rowmax_ref (b : Fin 8) (q : Fin 4096) :
    val_main_v22 x0 x1 x3 x4 x5 x6 (ix2 b q)
      = Spec.rowmax (Spec.scores (Spec.normR (Spec.proj (Spec.flat x0) (Spec.mat x3) (Spec.vec x4)))
          (Spec.normR (Spec.proj (Spec.flat x1) (Spec.mat x5) (Spec.vec x6)))) b q := by
  unfold val_main_v22
  refine (hostMax_last (val_main_v21 (F := Ideal) x0 x1 x3 x4 x5 x6) (val_main_cst (F := Ideal))
    reducesTo_S8x4096x4096_S8x4096_d2 redKey h_S_ b q).trans ?_
  unfold Spec.rowmax
  rw [val_main_cst_apply, Ideal.ofBits_def, neg_inf]
  refine congrArg (fun f => Finset.fold max (⊥ : EReal) f (Finset.univ : Finset (Fin 4096))) (funext fun k => ?_)
  exact scores_ref x0 x1 x3 x5 x4 x6 b q k

private theorem idx_mcol (b : Fin 8) (q : Fin 4096) (u : Fin 1) :
    idx_main_v25 (ix3 b q u) = ix2 b q :=
  funext fun a => Fin.ext (by match a with | ⟨0, _⟩ => rfl | ⟨1, _⟩ => rfl)

private theorem idx_mkeep (b : Fin 8) (q k : Fin 4096) :
    idx_main_v26 (ix3 b q k) = ix3 b q (0 : Fin 1) :=
  funext fun a => Fin.ext (by match a with | ⟨0, _⟩ => rfl | ⟨1, _⟩ => rfl | ⟨2, _⟩ => rfl)

private theorem idx_skey (b : Fin 8) (q k : Fin 4096) :
    idx_main_v29 (ix2 b q) k = ix3 b q k :=
  funext fun a => Fin.ext (by match a with | ⟨0, _⟩ => rfl | ⟨1, _⟩ => rfl | ⟨2, _⟩ => rfl)

private theorem idx_scol (b : Fin 8) (q : Fin 4096) (u : Fin 1) :
    idx_main_v30 (ix3 b q u) = ix2 b q :=
  funext fun a => Fin.ext (by match a with | ⟨0, _⟩ => rfl | ⟨1, _⟩ => rfl)

private theorem idx_skeep (b : Fin 8) (q k : Fin 4096) :
    idx_main_v31 (ix3 b q k) = ix3 b q (0 : Fin 1) :=
  funext fun a => Fin.ext (by match a with | ⟨0, _⟩ => rfl | ⟨1, _⟩ => rfl | ⟨2, _⟩ => rfl)

/-- The maximum of minus infinity and the row maximum is the row maximum: the bottom element is below everything. -/
private theorem max_ref (b : Fin 8) (q : Fin 4096) :
    val_main_v24 x0 x1 x3 x4 x5 x6 (ix2 b q)
      = Spec.rowmax (Spec.scores (Spec.normR (Spec.proj (Spec.flat x0) (Spec.mat x3) (Spec.vec x4)))
          (Spec.normR (Spec.proj (Spec.flat x1) (Spec.mat x5) (Spec.vec x6)))) b q := by
  rw [val_main_v24_apply, val_main_v23_apply, val_main_cst_0_apply, rowmax_ref, Ideal.ofBits_def, neg_inf,
    Ideal.maximumf_def]
  exact max_eq_right bot_le

/-- The shifted exponential at (b, q, k). -/
private theorem expd_ref (b : Fin 8) (q k : Fin 4096) :
    val_main_v28 x0 x1 x3 x4 x5 x6 (ix3 b q k)
      = Spec.expd (Spec.scores (Spec.normR (Spec.proj (Spec.flat x0) (Spec.mat x3) (Spec.vec x4)))
          (Spec.normR (Spec.proj (Spec.flat x1) (Spec.mat x5) (Spec.vec x6)))) b q k := by
  rw [val_main_v28_apply, val_main_v27_apply, val_main_v26_apply, idx_mkeep, val_main_v25_apply, idx_mcol, max_ref,
    scores_ref]
  rfl

/-- The row sum of the shifted exponentials, from zero. -/
private theorem rowsum_ref (b : Fin 8) (q : Fin 4096) :
    val_main_v29 x0 x1 x3 x4 x5 x6 (ix2 b q)
      = Spec.rowsum (Spec.expd (Spec.scores (Spec.normR (Spec.proj (Spec.flat x0) (Spec.mat x3) (Spec.vec x4)))
          (Spec.normR (Spec.proj (Spec.flat x1) (Spec.mat x5) (Spec.vec x6))))) b q := by
  rw [val_main_v29_apply, val_main_cst_1_apply, Ideal.ofBits_def, Ideal.ofBits_zero_f32, zero_add]
  unfold Spec.rowsum
  refine Finset.sum_congr rfl fun k _ => ?_
  rw [idx_skey, expd_ref]

/-- The reference's attention map at (b, q, k). -/
theorem cor_ref (b : Fin 8) (q k : Fin 4096) :
    val_main_v32 x0 x1 x3 x4 x5 x6 (ix3 b q k)
      = Spec.corR (Spec.flat x0) (Spec.flat x1) (Spec.mat x3) (Spec.vec x4) (Spec.mat x5) (Spec.vec x6) b q k := by
  rw [val_main_v32_apply, val_main_v31_apply, idx_skeep, val_main_v30_apply, idx_scol, rowsum_ref, expd_ref]
  rfl

/-- The reference's projected values at (b, r, o). -/
theorem vp_ref (b : Fin 8) (r : Fin 4096) (o : Fin 256) :
    val_main_v14 x2 x7 x8 (ix3 b r o) = Spec.proj (Spec.flat x2) (Spec.mat x7) (Spec.vec x8) b r o := by
  rw [v14_eq]
  exact qg_ref x2 x7 x8 b r o

/-! ## The attended values and the output -/

private theorem lidx_at (b : Fin 8) (q k : Fin 4096) (c : Fin 256) :
    lidx_main_v33 (ix3 b q c) k = ix3 b q k :=
  funext fun a => Fin.ext (by match a with | ⟨0, _⟩ => rfl | ⟨1, _⟩ => rfl | ⟨2, _⟩ => rfl)

private theorem ridx_at (b : Fin 8) (q k : Fin 4096) (c : Fin 256) :
    ridx_main_v33 (ix3 b q c) k = ix3 b k c :=
  funext fun a => Fin.ext (by match a with | ⟨0, _⟩ => rfl | ⟨1, _⟩ => rfl | ⟨2, _⟩ => rfl)

private theorem lidx_out (b : Fin 8) (h w : Fin 64) (o k : Fin 256) :
    lidx_main_v35 (ix4 b h w o) k = ix4 b h w k :=
  funext fun a => Fin.ext (by match a with | ⟨0, _⟩ => rfl | ⟨1, _⟩ => rfl | ⟨2, _⟩ => rfl | ⟨3, _⟩ => rfl)

private theorem ridx_out (b : Fin 8) (h w : Fin 64) (o k : Fin 256) :
    ridx_main_v35 (ix4 b h w o) k = ix2 o k :=
  funext fun a => Fin.ext (by match a with | ⟨0, _⟩ => rfl | ⟨1, _⟩ => rfl)

private theorem idx_obias (b : Fin 8) (h w : Fin 64) (o : Fin 256) :
    idx_main_v36 (idx_main_v37 (ix4 b h w o)) = ix1 o :=
  funext fun a => Fin.ext (by match a with | ⟨0, _⟩ => rfl)

/-- The attention-weighted sum of the value tokens at (b, q, c). -/
private theorem attn_ref (b : Fin 8) (q : Fin 4096) (c : Fin 256) :
    val_main_v33 x0 x1 x2 x3 x4 x5 x6 x7 x8 (ix3 b q c)
      = Spec.attn (Spec.corR (Spec.flat x0) (Spec.flat x1) (Spec.mat x3) (Spec.vec x4) (Spec.mat x5) (Spec.vec x6))
          (Spec.proj (Spec.flat x2) (Spec.mat x7) (Spec.vec x8)) b q c := by
  rw [val_main_v33_apply]
  unfold Spec.attn
  refine Finset.sum_congr rfl fun k _ => ?_
  rw [lidx_at, ridx_at, cor_ref, vp_ref]

/-- The reference's image output at pixel (h, w) of batch b, channel o. -/
theorem out_ref (b : Fin 8) (h w : Fin 64) (o : Fin 256) :
    val_main_v39 x0 x1 x2 x3 x4 x5 x6 x7 x8 x9 x10 (ix4 b h w o)
      = Spec.outR (Spec.flat x0) (Spec.flat x1) (Spec.flat x2) (Spec.mat x3) (Spec.vec x4) (Spec.mat x5) (Spec.vec x6)
          (Spec.mat x7) (Spec.vec x8) (Spec.mat x9) (Spec.vec x10) b (Spec.tok h w) o := by
  rw [val_main_v39_apply, val_main_v38_apply, val_main_v35_apply, val_main_v37_apply, val_main_v36_apply, idx_obias]
  unfold Spec.outR Spec.outp
  rw [Spec.flat_tok]
  refine congrArg (x0 (ix4 b h w o) + ·) (congrArg (· + x10 (ix1 o)) (Finset.sum_congr rfl fun i _ => ?_))
  rw [lidx_out, ridx_out, val_main_v34_apply, idx_unflat, attn_ref]
  rfl

end Cert.ReferenceIdeal.RefSide

end
-- ==== Proof.PreDecode.lean ====
/-
  What the precondition says of the kernel's launch memory, in the coordinates of `Spec`.
-/
import proofs.«418456_j79345225826758_3_alg».proof.Defs
import proofs.«418456_j79345225826758_3_alg».proof.Proof.Spec
import Idealize.ShloMosaic.Lib.ReduceAll
import Idealize.ShloMosaic.Lib.ValueIdx
import Idealize.ShloMosaic.Lib.Pipeline.Value
import Idealize.ShloMosaic.PureOps.Ideal.Laws

noncomputable section

namespace Cert.PreDecode

open Idealize.ShloMosaic Idealize.ShloMosaic.TcCoe Idealize.SL.Sem
open Idealize.ShloMosaic.ValueIdx
open Cert.Pre_finite_inputs Cert.Pre_finite_inputs.Facts

variable [hPre : Cert.Pre_finite_inputs.Facts]

/-- A rank-0 array has one index. -/
local instance : Subsingleton S_.Idx := ⟨fun a b => funext fun d => d.elim0⟩

/-- The word 0x7F800000 is +∞. -/
private theorem top_bits : Ideal.ofBits .f32 0x7F800000#32 = (⊤ : EReal) := by simp [Ideal.ofBits, Ideal.ieee]

/-- An extended real whose absolute value is below +∞ is a real number. -/
private theorem isR_of_abs_lt (x : EReal) (h : Ideal.cmp .olt (max x (-x)) (Ideal.ofBits .f32 0x7F800000#32) = 1#1) : Spec.IsR x := by
  rw [top_bits] at h
  unfold Ideal.cmp at h
  induction x using EReal.rec with
  | bot => simp at h
  | top => simp at h
  | coe r => exact ⟨r, rfl⟩

/-- "Every entry has absolute value below +∞", and-reduced over all axes, gives a real number at every index. -/
private theorem real_of_all {s : Shape} {axes : List (Fin s.rank)} (x : FVec Ideal s .f32) (hb : S_.BroadcastsInDim s (![] : Fin 0 → Fin s.rank))
    (hr : s.ReducesTo axes S_) (h0 : 0 < S_.numel)
    (e : Host.reduce IntOp.andi (cmpf .olt (Host.absf x) (broadcastInDim s ![] hb (constant (F := Ideal) S_ .f32 0x7F800000#32))) (constantI S_ 1 1#1) hr h0 ix0 = 1#1)
    (i : s.Idx) : Spec.IsR (x i) := by
  have h := Host.reduce_andi_all _ _ hr h0 ix0 e i
  exact isR_of_abs_lt (x i) h

/-! The contraction's operand indices, axis by axis: the left operand is read at (b, h, w, k), the right at (o, k). -/
private theorem dot_lhs_0 (i : S8x64x64x256.Idx) (q : dot_S8x64x64x256_S256x256_S8x64x64x256_3_1_012_0_n_n.contr.Idx) :
    (dot_S8x64x64x256_S256x256_S8x64x64x256_3_1_012_0_n_n.lhsIdx i q 0).val = (i 0).val := by
  unfold DotDims.lhsIdx
  rw [dif_neg (show ¬(0 : Fin S8x64x64x256.rank) ∈ dot_S8x64x64x256_S256x256_S8x64x64x256_3_1_012_0_n_n.lhsBatch from fun hmem => nomatch hmem), dif_pos (show (0 : Fin S8x64x64x256.rank) ∈ dot_S8x64x64x256_S256x256_S8x64x64x256_3_1_012_0_n_n.lhsNonContracting by show (0 : Fin 4) ∈ ([0, 1, 2] : List (Fin 4)); decide)]
  rfl
private theorem dot_lhs_1 (i : S8x64x64x256.Idx) (q : dot_S8x64x64x256_S256x256_S8x64x64x256_3_1_012_0_n_n.contr.Idx) :
    (dot_S8x64x64x256_S256x256_S8x64x64x256_3_1_012_0_n_n.lhsIdx i q 1).val = (i 1).val := by
  unfold DotDims.lhsIdx
  rw [dif_neg (show ¬(1 : Fin S8x64x64x256.rank) ∈ dot_S8x64x64x256_S256x256_S8x64x64x256_3_1_012_0_n_n.lhsBatch from fun hmem => nomatch hmem), dif_pos (show (1 : Fin S8x64x64x256.rank) ∈ dot_S8x64x64x256_S256x256_S8x64x64x256_3_1_012_0_n_n.lhsNonContracting by show (1 : Fin 4) ∈ ([0, 1, 2] : List (Fin 4)); decide)]
  rfl
private theorem dot_lhs_2 (i : S8x64x64x256.Idx) (q : dot_S8x64x64x256_S256x256_S8x64x64x256_3_1_012_0_n_n.contr.Idx) :
    (dot_S8x64x64x256_S256x256_S8x64x64x256_3_1_012_0_n_n.lhsIdx i q 2).val = (i 2).val := by
  unfold DotDims.lhsIdx
  rw [dif_neg (show ¬(2 : Fin S8x64x64x256.rank) ∈ dot_S8x64x64x256_S256x256_S8x64x64x256_3_1_012_0_n_n.lhsBatch from fun hmem => nomatch hmem), dif_pos (show (2 : Fin S8x64x64x256.rank) ∈ dot_S8x64x64x256_S256x256_S8x64x64x256_3_1_012_0_n_n.lhsNonContracting by show (2 : Fin 4) ∈ ([0, 1, 2] : List (Fin 4)); decide)]
  rfl
private theorem dot_lhs_3 (i : S8x64x64x256.Idx) (q : dot_S8x64x64x256_S256x256_S8x64x64x256_3_1_012_0_n_n.contr.Idx) :
    (dot_S8x64x64x256_S256x256_S8x64x64x256_3_1_012_0_n_n.lhsIdx i q 3).val = (q ⟨0, Nat.one_pos⟩).val :=
  dot_S8x64x64x256_S256x256_S8x64x64x256_3_1_012_0_n_n.lhsIdx_val_of_single rfl i q
private theorem dot_rhs_0 (i : S8x64x64x256.Idx) (q : dot_S8x64x64x256_S256x256_S8x64x64x256_3_1_012_0_n_n.contr.Idx) :
    (dot_S8x64x64x256_S256x256_S8x64x64x256_3_1_012_0_n_n.rhsIdx i q 0).val = (i 3).val := by
  unfold DotDims.rhsIdx
  rw [dif_neg (show ¬(0 : Fin S256x256.rank) ∈ dot_S8x64x64x256_S256x256_S8x64x64x256_3_1_012_0_n_n.rhsBatch from fun hmem => nomatch hmem), dif_pos (show (0 : Fin S256x256.rank) ∈ dot_S8x64x64x256_S256x256_S8x64x64x256_3_1_012_0_n_n.rhsNonContracting by show (0 : Fin 2) ∈ ([0] : List (Fin 2)); decide)]
  rfl
private theorem dot_rhs_1 (i : S8x64x64x256.Idx) (q : dot_S8x64x64x256_S256x256_S8x64x64x256_3_1_012_0_n_n.contr.Idx) :
    (dot_S8x64x64x256_S256x256_S8x64x64x256_3_1_012_0_n_n.rhsIdx i q 1).val = (q ⟨0, Nat.one_pos⟩).val :=
  dot_S8x64x64x256_S256x256_S8x64x64x256_3_1_012_0_n_n.rhsIdx_val_of_single rfl i q

/-- The contraction of the channel axis at pixel (b, h, w), output channel o: the sum over input channels. -/
private theorem dot_apply (x : FVec Ideal S8x64x64x256 .f32) (w : FVec Ideal S256x256 .f32) (b : Fin 8) (h v : Fin 64) (o : Fin 256) :
    Host.dotGeneral (F := Ideal) dot_S8x64x64x256_S256x256_S8x64x64x256_3_1_012_0_n_n none x w (ix4 b h v o) = ∑ i : Fin 256, x (ix4 b h v i) * w (ix2 o i) := by
  simp only [Host.dotGeneral]
  rw [Ideal.dotGeneral_apply, ← Equiv.sum_comp (ValueIdx.contrEquiv1 dot_S8x64x64x256_S256x256_S8x64x64x256_3_1_012_0_n_n 256 rfl rfl).symm]
  refine Finset.sum_congr rfl fun k _ => ?_
  have hk := ValueIdx.contrEquiv1_symm_val dot_S8x64x64x256_S256x256_S8x64x64x256_3_1_012_0_n_n 256 rfl rfl k
  have el : dot_S8x64x64x256_S256x256_S8x64x64x256_3_1_012_0_n_n.lhsIdx (ix4 b h v o) ((ValueIdx.contrEquiv1 dot_S8x64x64x256_S256x256_S8x64x64x256_3_1_012_0_n_n 256 rfl rfl).symm k) = ix4 b h v k := funext fun a => Fin.ext (by
    match a with
    | ⟨0, _⟩ => exact dot_lhs_0 _ _
    | ⟨1, _⟩ => exact dot_lhs_1 _ _
    | ⟨2, _⟩ => exact dot_lhs_2 _ _
    | ⟨3, _⟩ => exact (dot_lhs_3 _ _).trans hk)
  have er : dot_S8x64x64x256_S256x256_S8x64x64x256_3_1_012_0_n_n.rhsIdx (ix4 b h v o) ((ValueIdx.contrEquiv1 dot_S8x64x64x256_S256x256_S8x64x64x256_3_1_012_0_n_n 256 rfl rfl).symm k) = ix2 o k := funext fun a => Fin.ext (by
    match a with
    | ⟨0, _⟩ => exact dot_rhs_0 _ _
    | ⟨1, _⟩ => exact (dot_rhs_1 _ _).trans hk)
  rw [el, er]

/-- The bias laid along the channel axis reads, at (b, h, w, o), the bias at o. -/
private theorem bias_apply (β : FVec Ideal S256 .f32) (b : Fin 8) (h v : Fin 64) (o : Fin 256) :
    broadcastInDim S8x64x64x256 ![0, 1, 2, 3] bcast_S1x1x1x256_S8x64x64x256_0_1_2_3
      (broadcastInDim S1x1x1x256 ![3] bcast_S256_S1x1x1x256_3 β) (ix4 b h v o) = β (ix1 o) := by
  refine (broadcastInDim_apply _ bcast_S1x1x1x256_S8x64x64x256_0_1_2_3 _ (ix4 b h v o)
    (ix4 (⟨0, Nat.one_pos⟩ : Fin 1) (⟨0, Nat.one_pos⟩ : Fin 1) (⟨0, Nat.one_pos⟩ : Fin 1) o) (fun a => match a with
    | ⟨0, _⟩ => by show 0 = if (1 : Nat) = 1 then 0 else b.val; rw [if_pos rfl]
    | ⟨1, _⟩ => by show 0 = if (1 : Nat) = 1 then 0 else h.val; rw [if_pos rfl]
    | ⟨2, _⟩ => by show 0 = if (1 : Nat) = 1 then 0 else v.val; rw [if_pos rfl]
    | ⟨3, _⟩ => by show o.val = if (256 : Nat) = 1 then 0 else o.val; rw [if_neg (by decide)])).trans ?_
  exact broadcastInDim_apply _ bcast_S256_S1x1x1x256_3 β _ (ix1 o) (fun a => match a with
    | ⟨0, _⟩ => by show o.val = if (256 : Nat) = 1 then 0 else o.val; rw [if_neg (by decide)])

/-- The image batch re-read as a token sequence: token r is pixel (r / 64, r % 64). -/
private theorem reshape_apply (y : FVec Ideal S8x64x64x256 .f32) (b : Fin 8) (r : Fin 4096) (o : Fin 256) :
    shapeCast S8x4096x256 y shapeCasts_S8x64x64x256_S8x4096x256 (ix3 b r o)
      = y (ix4 b ⟨r.val / 64, by have := r.isLt; omega⟩ ⟨r.val % 64, by have := r.isLt; omega⟩ o) := by
  refine shapeCast_apply y shapeCasts_S8x64x64x256_S8x4096x256 (ix3 b r o) _ ?_
  rewrite [Shape.rowMajor_val_four, Shape.rowMajor_val_three]
  have hb := b.isLt; have hr := r.isLt; have ho := o.isLt
  show ((b.val * 64 + r.val / 64) * 64 + r.val % 64) * 256 + o.val = (b.val * 4096 + r.val) * 256 + o.val
  omega

/-- A row sum from zero over the channel axis. -/
private theorem rowsum_apply (y : FVec Ideal S8x4096x256 .f32) (b : Fin 8) (r : Fin 4096) :
    Host.reduceAdd (F := Ideal) y (constant (F := Ideal) S_ .f32 0x00000000#32) reducesTo_S8x4096x256_S8x4096_d2 h_S_ (ix2 b r)
      = ∑ o : Fin 256, y (ix3 b r o) := by
  simp only [Host.reduceAdd, Ideal.hostReduceAdd_def]
  rw [Ideal.hostReduceAdd_single reducesTo_S8x4096x256_S8x4096_d2 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl | ⟨2, _⟩ => rfl))

/-- The squared length of every projected token, as the precondition computes it. -/
private def ssq (x : FVec Ideal S8x64x64x256 .f32) (w : FVec Ideal S256x256 .f32) (β : FVec Ideal S256 .f32) : FVec Ideal S8x4096 .f32 :=
  Host.reduceAdd (F := Ideal)
    (mulf
      (shapeCast S8x4096x256 (addf (Host.dotGeneral (F := Ideal) dot_S8x64x64x256_S256x256_S8x64x64x256_3_1_012_0_n_n none x w)
        (broadcastInDim S8x64x64x256 ![0, 1, 2, 3] bcast_S1x1x1x256_S8x64x64x256_0_1_2_3 (broadcastInDim S1x1x1x256 ![3] bcast_S256_S1x1x1x256_3 β)))
        shapeCasts_S8x64x64x256_S8x4096x256)
      (shapeCast S8x4096x256 (addf (Host.dotGeneral (F := Ideal) dot_S8x64x64x256_S256x256_S8x64x64x256_3_1_012_0_n_n none x w)
        (broadcastInDim S8x64x64x256 ![0, 1, 2, 3] bcast_S1x1x1x256_S8x64x64x256_0_1_2_3 (broadcastInDim S1x1x1x256 ![3] bcast_S256_S1x1x1x256_3 β)))
        shapeCasts_S8x64x64x256_S8x4096x256))
    (constant (F := Ideal) S_ .f32 0x00000000#32) reducesTo_S8x4096x256_S8x4096_d2 h_S_

private theorem ssq_apply (x : FVec Ideal S8x64x64x256 .f32) (w : FVec Ideal S256x256 .f32) (β : FVec Ideal S256 .f32) (b : Fin 8) (r : Fin 4096) :
    ssq x w β (ix2 b r) = Spec.sumsq (Spec.proj (Spec.flat x) (Spec.mat w) (Spec.vec β)) b r := by
  unfold ssq
  rw [rowsum_apply]
  unfold Spec.sumsq Spec.proj Spec.flat Spec.mat Spec.vec
  refine Finset.sum_congr rfl fun o _ => ?_
  rw [mulf_apply, reshape_apply, addf_apply, dot_apply, bias_apply]

/-- "Every projected token's squared length is above zero", and-reduced over both axes, gives a non-zero squared length
    at every (batch, token). -/
private theorem nonzero_of_all (x : FVec Ideal S8x64x64x256 .f32) (w : FVec Ideal S256x256 .f32) (β : FVec Ideal S256 .f32)
    (e : Host.reduce IntOp.andi (cmpf .ogt (ssq x w β) (broadcastInDim S8x4096 ![] bcast_S_S8x4096 (constant (F := Ideal) S_ .f32 0x00000000#32)))
      (constantI S_ 1 1#1) reducesTo_S8x4096_S_d0_1 h_S_ ix0 = 1#1)
    (b : Fin 8) (r : Fin 4096) : Spec.sumsq (Spec.proj (Spec.flat x) (Spec.mat w) (Spec.vec β)) b r ≠ 0 := by
  have h := Host.reduce_andi_all _ _ reducesTo_S8x4096_S_d0_1 h_S_ ix0 e (ix2 b r)
  have h' : Ideal.cmp .ogt (ssq x w β (ix2 b r)) (Ideal.ofBits .f32 0x00000000#32) = 1#1 := h
  rw [ssq_apply, Ideal.ofBits_zero_f32] at h'
  unfold Ideal.cmp at h'
  intro hz
  rw [hz] at h'
  simp at h'

/-- The conjunction of two rank-0 truth values, at their one index. -/
private theorem andi_apply (a b : IVec S_ 1) (i : S_.Idx) : andi a b i = IntOp.andi (a i) (b i) := rfl

/-- The precondition read over the eleven arrays: its thirteen conjuncts are eleven "every entry is finite" facts, one per
    input, and the two "every projected token has positive squared length" facts, for the query and for the key side. -/
private theorem decode (x0 x1 x2 : FVec Ideal S8x64x64x256 .f32) (x3 : FVec Ideal S256x256 .f32) (x4 : FVec Ideal S256 .f32)
    (x5 : FVec Ideal S256x256 .f32) (x6 : FVec Ideal S256 .f32) (x7 : FVec Ideal S256x256 .f32) (x8 : FVec Ideal S256 .f32)
    (x9 : FVec Ideal S256x256 .f32) (x10 : FVec Ideal S256 .f32)
    (e : fn (F := Ideal) x0 x1 x2 x3 x4 x5 x6 x7 x8 x9 x10 = fun _ => 1#1) :
    Spec.Good (Spec.flat x0) (Spec.flat x1) (Spec.mat x3) (Spec.vec x4) (Spec.mat x5) (Spec.vec x6) := by
  have h0 := congrFun e ix0
  unfold fn fn_part1 fn_part2 fn_part3 fn_part4 at h0
  dsimp only at h0
  simp only [andi_apply, IntOp.andi_eq_one] at h0
  obtain ⟨⟨⟨⟨⟨⟨⟨⟨⟨⟨⟨⟨h_0, h_1⟩, h_2⟩, h_3⟩, h_4⟩, h_5⟩, h_6⟩, h_7⟩, h_8⟩, h_9⟩, h_10⟩, hq⟩, hk⟩ := h0
  exact
    { q_real := fun b r i => real_of_all x0 _ _ _ h_0 _
      e_real := fun b r i => real_of_all x1 _ _ _ h_1 _
      wg_real := fun o i => real_of_all x3 _ _ _ h_3 _
      βg_real := fun o => real_of_all x4 _ _ _ h_4 _
      wt_real := fun o i => real_of_all x5 _ _ _ h_5 _
      βt_real := fun o => real_of_all x6 _ _ _ h_6 _
      q_nonzero := nonzero_of_all x0 x3 x4 hq
      e_nonzero := nonzero_of_all x1 x5 x6 hk }

/-- Under the precondition the query and key inputs, their weights and biases are real-valued and every projected
    query and key token has a non-zero squared length. -/
theorem good (m : (ℓ : Loc Cert.KernelIdeal.nD Cert.KernelIdeal.τ Cert.KernelIdeal.sig) → Buf (Elt Ideal) ℓ)
    (h : Cert.Pre_KernelIdeal m) (c : Dev Cert.KernelIdeal.nD) :
    Spec.Good
      (Spec.flat (m ((c.tc : Thread Cert.KernelIdeal.nD Cert.KernelIdeal.τ).loc Cert.KernelIdeal.main_arg0)))
      (Spec.flat (m ((c.tc : Thread Cert.KernelIdeal.nD Cert.KernelIdeal.τ).loc Cert.KernelIdeal.main_arg1)))
      (Spec.mat (m ((c.tc : Thread Cert.KernelIdeal.nD Cert.KernelIdeal.τ).loc Cert.KernelIdeal.main_arg3)))
      (Spec.vec (m ((c.tc : Thread Cert.KernelIdeal.nD Cert.KernelIdeal.τ).loc Cert.KernelIdeal.main_arg4)))
      (Spec.mat (m ((c.tc : Thread Cert.KernelIdeal.nD Cert.KernelIdeal.τ).loc Cert.KernelIdeal.main_arg5)))
      (Spec.vec (m ((c.tc : Thread Cert.KernelIdeal.nD Cert.KernelIdeal.τ).loc Cert.KernelIdeal.main_arg6))) :=
  decode _ _ _ _ _ _ _ _ _ _ _ (h c)

end Cert.PreDecode

end
-- ==== Proof.Laws.lean ====
/-
  The two spellings of the attention map agree on the domain `Spec.Good`.
-/
import proofs.«418456_j79345225826758_3_alg».proof.Proof.Spec
import Mathlib.Analysis.SpecialFunctions.Sqrt
import Mathlib.Analysis.SpecialFunctions.Exp
import Mathlib.Data.EReal.Basic
import Mathlib.Data.EReal.Operations
import Mathlib.Data.EReal.Inv
import Mathlib.Data.Finset.Fold
import Mathlib.Algebra.Order.BigOperators.Group.Finset

noncomputable section

namespace Cert.Spec

open Idealize.ShloMosaic

variable {q e : Seq} {wg : Mat} {βg : Bias} {wt : Mat} {βt : Bias}

/-! ### Real numbers inside the extended reals are closed under the operations used -/

/-- The coercion of a finite sum of reals is the sum of the coercions. -/
private theorem coe_sum {ι : Type} (s : Finset ι) (f : ι → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

private theorem IsR.add {x y : EReal} (hx : IsR x) (hy : IsR y) : IsR (x + y) := by
  obtain ⟨a, rfl⟩ := hx
  obtain ⟨b, rfl⟩ := hy
  exact ⟨a + b, (EReal.coe_add a b).symm⟩

private theorem IsR.mul {x y : EReal} (hx : IsR x) (hy : IsR y) : IsR (x * y) := by
  obtain ⟨a, rfl⟩ := hx
  obtain ⟨b, rfl⟩ := hy
  exact ⟨a * b, (EReal.coe_mul a b).symm⟩

private theorem IsR.sum {ι : Type} [Fintype ι] {f : ι → EReal} (h : ∀ i, IsR (f i)) :
    IsR (∑ i, f i) := by
  choose g hg using h
  exact ⟨∑ i, g i, by rw [coe_sum]; exact Finset.sum_congr rfl (fun i _ => hg i)⟩

/-- A finite sum of squares of reals is a nonnegative real. -/
private theorem sum_sq_real {ι : Type} [Fintype ι] {f : ι → EReal} (h : ∀ i, IsR (f i)) :
    ∃ t : ℝ, 0 ≤ t ∧ ∑ i, f i * f i = (t : EReal) := by
  choose g hg using h
  refine ⟨∑ i, g i * g i, Finset.sum_nonneg (fun i _ => mul_self_nonneg (g i)), ?_⟩
  rw [coe_sum]
  exact Finset.sum_congr rfl (fun i _ => by rw [hg i, EReal.coe_mul])

/-- A finite nonempty sum of positive reals is a positive real. -/
private theorem sum_pos_real {ι : Type} [Fintype ι] [Nonempty ι] {f : ι → EReal}
    (h : ∀ i, ∃ r : ℝ, 0 < r ∧ f i = (r : EReal)) :
    ∃ l : ℝ, 0 < l ∧ ∑ i, f i = (l : EReal) := by
  choose g hg using h
  refine ⟨∑ i, g i, Finset.sum_pos (fun i _ => (hg i).1) Finset.univ_nonempty, ?_⟩
  rw [coe_sum]
  exact Finset.sum_congr rfl (fun i _ => (hg i).2)

/-- The maximum, from the bottom element, of a nonempty finite family of reals is one of them. -/
private theorem fold_max_real {ι : Type} [Fintype ι] [Nonempty ι] {f : ι → EReal} (h : ∀ i, IsR (f i)) :
    IsR ((Finset.univ : Finset ι).fold max ⊥ f) := by
  classical
  have key : ∀ s : Finset ι, s.fold max ⊥ f = ⊥ ∨ ∃ k, s.fold max ⊥ f = f k := by
    intro s
    induction s using Finset.induction_on with
    | empty => exact Or.inl Finset.fold_empty
    | insert a s ha ih =>
      rw [Finset.fold_insert ha]
      rcases le_total (f a) (s.fold max ⊥ f) with hle | hle
      · rw [max_eq_right hle]; exact ih
      · rw [max_eq_left hle]; exact Or.inr ⟨a, rfl⟩
  rcases key Finset.univ with hb | ⟨k, hk⟩
  · exfalso
    obtain ⟨k₀⟩ := ‹Nonempty ι›
    have hle : f k₀ ≤ (Finset.univ : Finset ι).fold max ⊥ f :=
      (Finset.le_fold_max (f k₀)).mpr (Or.inr ⟨k₀, Finset.mem_univ k₀, le_rfl⟩)
    rw [hb] at hle
    obtain ⟨r, hr⟩ := h k₀
    rw [hr] at hle
    exact EReal.coe_ne_bot r (le_bot_iff.mp hle)
  · rw [hk]; exact h k

/-! ### The first law: the product with the reciprocal root is the quotient by the root -/

/-- For a positive real t, x · rsqrt t = x / sqrt t. -/
private theorem mul_rsqrt_eq_div_sqrt (x : EReal) {t : ℝ} (ht : 0 < t) :
    x * Ideal.rsqrt (t : EReal) = Ideal.div x (Ideal.sqrt (t : EReal)) := by
  have hs : Real.sqrt t ≠ 0 := (Real.sqrt_pos.mpr ht).ne'
  rw [Ideal.rsqrt_coe, Ideal.sqrt_coe, if_neg (not_lt.mpr ht.le), if_neg ht.ne', if_neg (not_lt.mpr ht.le),
    Ideal.div_coe hs, one_div]

/-- The squared length of a real-valued token that is not zero is a positive real. -/
private theorem sumsq_pos {y : Seq} (hy : ∀ b r o, IsR (y b r o)) (b : Fin 8) (r : Fin 4096)
    (hz : sumsq y b r ≠ 0) : ∃ t : ℝ, 0 < t ∧ sumsq y b r = (t : EReal) := by
  obtain ⟨t, ht0, ht⟩ := sum_sq_real (hy b r)
  refine ⟨t, lt_of_le_of_ne ht0 ?_, ht⟩
  intro h0
  apply hz
  show ∑ o : Fin 256, y b r o * y b r o = 0
  rw [ht, ← h0, EReal.coe_zero]

private theorem normK_eq_normR {y : Seq} (hy : ∀ b r o, IsR (y b r o)) (hz : ∀ b r, sumsq y b r ≠ 0) :
    normK y = normR y := by
  funext b r o
  obtain ⟨t, ht, hst⟩ := sumsq_pos hy b r (hz b r)
  show y b r o * Ideal.rsqrt (sumsq y b r) = Ideal.div (y b r o) (Ideal.sqrt (sumsq y b r))
  rw [hst]
  exact mul_rsqrt_eq_div_sqrt _ ht

/-- The rescaled sequence is real-valued. -/
private theorem normK_real {y : Seq} (hy : ∀ b r o, IsR (y b r o)) (hz : ∀ b r, sumsq y b r ≠ 0) :
    ∀ b r o, IsR (normK y b r o) := by
  intro b r o
  obtain ⟨t, ht, hst⟩ := sumsq_pos hy b r (hz b r)
  show IsR (y b r o * Ideal.rsqrt (sumsq y b r))
  rw [hst, Ideal.rsqrt_coe, if_neg (not_lt.mpr ht.le), if_neg ht.ne']
  exact (hy b r o).mul ⟨_, rfl⟩

/-- The projection of a real-valued sequence by real weights and a real bias is real-valued. -/
private theorem proj_real {x : Seq} {w : Mat} {β : Bias} (hx : ∀ b r i, IsR (x b r i))
    (hw : ∀ o i, IsR (w o i)) (hβ : ∀ o, IsR (β o)) : ∀ b r o, IsR (proj x w β b r o) := by
  intro b r o
  show IsR ((∑ i : Fin 256, x b r i * w o i) + β o)
  exact (IsR.sum (fun i => (hx b r i).mul (hw o i))).add (hβ o)

/-- The logits of real-valued sequences are real. -/
private theorem scores_real {qn kn : Seq} (hq : ∀ b r c, IsR (qn b r c)) (hk : ∀ b r c, IsR (kn b r c)) :
    ∀ b q k, IsR (scores qn kn b q k) := by
  intro b q k
  show IsR (∑ c : Fin 256, qn b q c * kn b k c)
  exact IsR.sum (fun c => (hq b q c).mul (hk b k c))

/-! ### The second law: the product with the reciprocal of the row sum is the quotient by the row sum -/

/-- For a nonzero real l, p · (1 / l) = p / l. -/
private theorem mul_div_one_eq_div (p : EReal) {l : ℝ} (hl : l ≠ 0) :
    p * Ideal.div 1 (l : EReal) = Ideal.div p (l : EReal) := by
  rw [Ideal.div_coe hl, Ideal.div_coe hl, one_mul]

/-- The row sum of the shifted exponentials of real logits is a positive real. -/
private theorem rowsum_expd_pos {s : Sco} (hs : ∀ b q k, IsR (s b q k)) (b : Fin 8) (q : Fin 4096) :
    ∃ l : ℝ, 0 < l ∧ rowsum (expd s) b q = (l : EReal) := by
  obtain ⟨m, hm⟩ : IsR (rowmax s b q) := fold_max_real (fun k => hs b q k)
  show ∃ l : ℝ, 0 < l ∧ ∑ k : Fin 4096, Ideal.exp (s b q k - rowmax s b q) = (l : EReal)
  apply sum_pos_real
  intro k
  obtain ⟨a, ha⟩ := hs b q k
  exact ⟨Real.exp (a - m), Real.exp_pos _, by rw [ha, hm, ← EReal.coe_sub, Ideal.exp_coe]⟩

private theorem softK_eq_softR {s : Sco} (hs : ∀ b q k, IsR (s b q k)) : softK s = softR s := by
  funext b q k
  obtain ⟨l, hl, hsum⟩ := rowsum_expd_pos hs b q
  show expd s b q k * Ideal.div 1 (rowsum (expd s) b q) = Ideal.div (expd s b q k) (rowsum (expd s) b q)
  rw [hsum]
  exact mul_div_one_eq_div _ hl.ne'

/-- On the good domain the kernel's attention map (reciprocal-root rescaling, reciprocal-sum softmax) is the
    reference's (quotient by the root, quotient by the sum). -/
theorem corK_eq_corR (h : Good q e wg βg wt βt) : corK q e wg βg wt βt = corR q e wg βg wt βt := by
  have hyq := proj_real h.q_real h.wg_real h.βg_real
  have hye := proj_real h.e_real h.wt_real h.βt_real
  unfold corK corR
  rw [← normK_eq_normR hyq h.q_nonzero, ← normK_eq_normR hye h.e_nonzero]
  exact softK_eq_softR (scores_real (normK_real hyq h.q_nonzero) (normK_real hye h.e_nonzero))

/-- Hence the image outputs agree as well: they differ only in the attention map. -/
theorem outK_eq_outR (h : Good q e wg βg wt βt) (v : Seq) (wa : Mat) (βa : Bias) (wo : Mat) (βo : Bias) :
    outK q e v wg βg wt βt wa βa wo βo = outR q e v wg βg wt βt wa βa wo βo := by
  unfold outK outR
  rw [corK_eq_corR h]

end Cert.Spec

end
-- ==== Proof.lean ====
/-
  The certificate of the non-local attention kernel against its reference, over the extended reals.

  The kernel projects queries, keys and values per token, rescales queries and keys to unit length by a product with the
  reciprocal root of the squared length, and in a second kernel takes the row softmax of the cosine logits by a
  product with the reciprocal of the row sum, applies it to the values, projects and adds the residual. The reference
  rescales by a quotient by the root and normalizes the softmax by a quotient by the row sum. On the extended reals
  the two agree wherever no projected query or key token is the zero vector (there the reference divides zero by zero):
  that is the precondition's added domain, beside the finiteness of the inputs. The frames are the generated ones; the
  kernel's results are read off its run region by region (`Compose`), the reference's off its generated run stage by
  stage (`RefSide`), the precondition is decoded in `PreDecode`, and the law joining the two spellings is `Laws`.
-/
import proofs.«418456_j79345225826758_3_alg».proof.Defs
import proofs.«418456_j79345225826758_3_alg».proof.Proof.Gen.Kernel
import proofs.«418456_j79345225826758_3_alg».proof.Proof.Gen.Kernel.Frame
import proofs.«418456_j79345225826758_3_alg».proof.Proof.Gen.KernelIdeal
import proofs.«418456_j79345225826758_3_alg».proof.Proof.Gen.KernelIdeal.Frame
import proofs.«418456_j79345225826758_3_alg».proof.Proof.Gen.ReferenceIdeal
import proofs.«418456_j79345225826758_3_alg».proof.Proof.Gen.ReferenceIdeal.Run
import proofs.«418456_j79345225826758_3_alg».proof.Proof.Gen.ReferenceIdeal.Read
import proofs.«418456_j79345225826758_3_alg».proof.Proof.Gen.Pre_finite_inputs
import proofs.«418456_j79345225826758_3_alg».proof.Proof.KRun
import proofs.«418456_j79345225826758_3_alg».proof.Proof.Compose
import proofs.«418456_j79345225826758_3_alg».proof.Proof.RefSide
import proofs.«418456_j79345225826758_3_alg».proof.Proof.PreDecode
import proofs.«418456_j79345225826758_3_alg».proof.Proof.Laws
import Idealize.ShloMosaic.Adequacy
import Idealize.ShloMosaic.Init

noncomputable section

namespace Cert.Proof

open Idealize.ShloMosaic Idealize.ShloMosaic.TcCoe Idealize.SL.Sem Idealize.ShloMosaic.ValueIdx

/-- The two idealized programs, from memories agreeing on the arguments, end with the same three arrays: the kernel's
    results read by coordinates are the kernel's spelling of the attention map, the projected values and the image
    output; the reference's are the reference's spelling; on the precondition's domain the spellings agree. -/
theorem algebraic :
    @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.W4 m ρ c (Proc.devRef .tc Cert.KernelIdeal.main_v9),
    fun c => Cert.KernelIdeal.Gen.W4 m ρ c (Proc.devRef .tc Cert.KernelIdeal.main_v7_2),
    fun c => Cert.KernelIdeal.Gen.W4 m ρ c (Proc.devRef .tc Cert.KernelIdeal.main_v8_0),
    Cert.KernelIdeal.Gen.run_results (F := Ideal) m ρ, ?_⟩
  refine (θ_run Cert.ReferenceIdeal.defs _ _).mono (fun r h c => ?_) (Cert.ReferenceIdeal.Value.run (F := Ideal) m' ρ')
  obtain ⟨h0, h1, h2, hargs⟩ := h c
  obtain ⟨a0, a1, a2, a3, a4, a5, a6, a7, a8, a9, a10⟩ := hagree c
  have hgood := @Cert.PreDecode.good Cert.Pre_finite_inputs.Gen.facts m hpre c
  refine ⟨h0.trans ?_, h1.trans ?_, h2.trans ?_, hargs⟩
  · -- the image output
    rw [Cert.ReferenceIdeal.Read.val_main_v39_eq, a0, a1, a2, a3, a4, a5, a6, a7, a8, a9, a10]
    funext j
    obtain ⟨b, p, w, o, rfl⟩ : ∃ (b : Fin 8) (p w : Fin 64) (o : Fin 256), j = ix4 b p w o := ⟨j 0, j 1, j 2, j 3, eq_ix4 j⟩
    refine (Cert.ReferenceIdeal.RefSide.out_ref _ _ _ _ _ _ _ _ _ _ _ b p w o).trans ?_
    rw [← Cert.Spec.outK_eq_outR hgood]
    exact (Cert.KernelIdeal.Compose.out_result m ρ c b p w o).symm
  · -- the projected values
    rw [Cert.ReferenceIdeal.Read.val_main_v14_eq, a2, a7, a8]
    funext j
    obtain ⟨b, r, o, rfl⟩ : ∃ (b : Fin 8) (r : Fin 4096) (o : Fin 256), j = ix3 b r o := ⟨j 0, j 1, j 2, eq_ix3 j⟩
    refine (Cert.ReferenceIdeal.RefSide.vp_ref _ _ _ b r o).trans ?_
    exact (Cert.KernelIdeal.Compose.vp_result m ρ c b r o).symm
  · -- the attention map
    rw [Cert.ReferenceIdeal.Read.val_main_v32_eq, a0, a1, a3, a4, a5, a6]
    funext j
    obtain ⟨b, q, k, rfl⟩ : ∃ (b : Fin 8) (q k : Fin 4096), j = ix3 b q k := ⟨j 0, j 1, j 2, eq_ix3 j⟩
    refine (Cert.ReferenceIdeal.RefSide.cor_ref _ _ _ _ _ _ b q k).trans ?_
    rw [← Cert.Spec.corK_eq_corR hgood]
    exact (Cert.KernelIdeal.Compose.cor_result m ρ c b q k).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2) (Cert.ReferenceIdeal.Value.run (F := Ideal) m ρ),
  trivial,
  algebraic⟩

end Cert.Proof

end
